-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part4 {F : FTy → Type} [FloatOps F] (main_arg13 : IVec S800000 32) (main_arg14 : IVec S800000 32) (main_v67 : IVec S_ 1) : IVec S_ 1 :=
  let main_c_26 : IVec S_ 32 := constantI S_ 32 0#32
  let main_v68 : IVec S800000 32 := broadcastInDim S800000 ![] bcast_S_S800000 main_c_26
  let main_v69 : IVec S800000 1 := cmpi .sge main_arg13 main_v68
  let main_c_27 : IVec S_ 32 := constantI S_ 32 50000#32
  let main_v70 : IVec S800000 32 := broadcastInDim S800000 ![] bcast_S_S800000 main_c_27
  let main_v71 : IVec S800000 1 := cmpi .slt main_arg13 main_v70
  let main_v72 : IVec S800000 1 := andi main_v69 main_v71
  let main_c_28 : IVec S_ 1 := constantI S_ 1 1#1
  let main_v73 : IVec S_ 1 := (fun x v => Host.reduce IntOp.andi x v reducesTo_S800000_S_d0 h_S_) main_v72 main_c_28
  let main_v74 : IVec S_ 1 := andi main_v67 main_v73
  let main_c_29 : IVec S_ 32 := constantI S_ 32 0#32
  let main_v75 : IVec S800000 32 := broadcastInDim S800000 ![] bcast_S_S800000 main_c_29
  let main_v76 : IVec S800000 1 := cmpi .sge main_arg14 main_v75
  let main_c_30 : IVec S_ 32 := constantI S_ 32 50000#32
  let main_v77 : IVec S800000 32 := broadcastInDim S800000 ![] bcast_S_S800000 main_c_30
  let main_v78 : IVec S800000 1 := cmpi .slt main_arg14 main_v77
  let main_v79 : IVec S800000 1 := andi main_v76 main_v78
  let main_c_31 : IVec S_ 1 := constantI S_ 1 1#1
  let main_v80 : IVec S_ 1 := (fun x v => Host.reduce IntOp.andi x v reducesTo_S800000_S_d0 h_S_) main_v79 main_c_31
  let main_v81 : IVec S_ 1 := andi main_v74 main_v80
  main_v81

def fn_part3 {F : FTy → Type} [FloatOps F] (main_arg11 : IVec S800000 32) (main_arg12 : IVec S800000 32) (main_arg13 : IVec S800000 32) (main_arg14 : IVec S800000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg11 main_v54
  let main_c_21 : IVec S_ 32 := constantI S_ 32 50000#32
  let main_v56 : IVec S800000 32 := broadcastInDim S800000 ![] bcast_S_S800000 main_c_21
  let main_v57 : IVec S800000 1 := cmpi .slt main_arg11 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  let main_c_23 : IVec S_ 32 := constantI S_ 32 0#32
  let main_v61 : IVec S800000 32 := broadcastInDim S800000 ![] bcast_S_S800000 main_c_23
  let main_v62 : IVec S800000 1 := cmpi .sge main_arg12 main_v61
  let main_c_24 : IVec S_ 32 := constantI S_ 32 50000#32
  let main_v63 : IVec S800000 32 := broadcastInDim S800000 ![] bcast_S_S800000 main_c_24
  let main_v64 : IVec S800000 1 := cmpi .slt main_arg12 main_v63
  let main_v65 : IVec S800000 1 := andi main_v62 main_v64
  let main_c_25 : IVec S_ 1 := constantI S_ 1 1#1
  let main_v66 : IVec S_ 1 := (fun x v => Host.reduce IntOp.andi x v reducesTo_S800000_S_d0 h_S_) main_v65 main_c_25
  let main_v67 : IVec S_ 1 := andi main_v60 main_v66
  fn_part4 (F := F) main_arg13 main_arg14 main_v67

def fn_part2 {F : FTy → Type} [FloatOps F] (main_arg7 : FVec F S64x1 .f32) (main_arg8 : FVec F S1 .f32) (main_arg9 : FVec F S64x1 .f32) (main_arg10 : FVec F S1 .f32) (main_arg11 : IVec S800000 32) (main_arg12 : IVec S800000 32) (main_arg13 : IVec S800000 32) (main_arg14 : IVec S800000 32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_v48 main_v49 main_v50

def fn_part1 {F : FTy → Type} [FloatOps F] (main_arg4 : FVec F S64 .f32) (main_arg5 : FVec F S128x64 .f32) (main_arg6 : FVec F S64 .f32) (main_arg7 : FVec F S64x1 .f32) (main_arg8 : FVec F S1 .f32) (main_arg9 : FVec F S64x1 .f32) (main_arg10 : FVec F S1 .f32) (main_arg11 : IVec S800000 32) (main_arg12 : IVec S800000 32) (main_arg13 : IVec S800000 32) (main_arg14 : IVec S800000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : FVec F S128x64 .f32) (main_arg6 : FVec F S64 .f32) (main_arg7 : FVec F S64x1 .f32) (main_arg8 : FVec F S1 .f32) (main_arg9 : FVec F S64x1 .f32) (main_arg10 : FVec F S1 .f32) (main_arg11 : IVec S800000 32) (main_arg12 : IVec S800000 32) (main_arg13 : IVec S800000 32) (main_arg14 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x64 : Shape := ⟨2, ![50000, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x1 : Shape := ⟨2, ![1, 1]⟩
abbrev S800000x64 : Shape := ⟨2, ![800000, 64]⟩
abbrev S1x64 : Shape := ⟨2, ![1, 64]⟩
abbrev S4000x64 : Shape := ⟨2, ![4000, 64]⟩
abbrev S4000x1 : Shape := ⟨2, ![4000, 1]⟩
abbrev S10000x64 : Shape := ⟨2, ![10000, 64]⟩

abbrev nBuf : Space → Nat
  | .hbm => 240
  | .vmem => 61
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64, .f32⟩
  | 5 => ⟨S128x64, .f32⟩
  | 6 => ⟨S64, .f32⟩
  | 7 => ⟨S64x1, .f32⟩
  | 8 => ⟨S1, .f32⟩
  | 9 => ⟨S64x1, .f32⟩
  | 10 => ⟨S1, .f32⟩
  | 11 => ⟨S800000, .i32⟩
  | 12 => ⟨S800000, .i32⟩
  | 13 => ⟨S800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S1, .i32⟩
  | 38 => ⟨S_, .i32⟩
  | 39 => ⟨S800000x1, .i32⟩
  | 40 => ⟨S800000x1, .i1⟩
  | 41 => ⟨S1x1, .i32⟩
  | 42 => ⟨S800000x1, .i32⟩
  | 43 => ⟨S800000x1, .i1⟩
  | 44 => ⟨S800000x1, .i1⟩
  | 45 => ⟨S_, .i1⟩
  | 46 => ⟨S800000, .i1⟩
  | 47 => ⟨S800000x64, .f32⟩
  | 48 => ⟨S800000x64, .i1⟩
  | 49 => ⟨S_, .f32⟩
  | 50 => ⟨S800000x64, .f32⟩
  | 51 => ⟨S800000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x64, .f32⟩
  | 71 => ⟨S800000x64, .i1⟩
  | 72 => ⟨S_, .f32⟩
  | 73 => ⟨S800000x64, .f32⟩
  | 74 => ⟨S800000x64, .f32⟩
  | 75 => ⟨S64x64, .f32⟩
  | 76 => ⟨S64x64, .f32⟩
  | 77 => ⟨S1x64, .f32⟩
  | 78 => ⟨S1x1, .f32⟩
  | 79 => ⟨S1x1, .f32⟩
  | 80 => ⟨S800000x1, .f32⟩
  | 81 => ⟨S800000x1, .f32⟩
  | 82 => ⟨S800000x64, .f32⟩
  | 83 => ⟨S_, .f32⟩
  | 84 => ⟨S50000x64, .f32⟩
  | 85 => ⟨S800000x1, .i32⟩
  | 86 => ⟨S50000x64, .f32⟩
  | 87 => ⟨S50000x64, .f32⟩
  | 88 => ⟨S50000x64, .f32⟩
  | 89 => ⟨S1x64, .f32⟩
  | 90 => ⟨S50000x64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S1, .i32⟩
  | 100 => ⟨S_, .i32⟩
  | 101 => ⟨S800000x1, .i32⟩
  | 102 => ⟨S800000x1, .i1⟩
  | 103 => ⟨S1x1, .i32⟩
  | 104 => ⟨S800000x1, .i32⟩
  | 105 => ⟨S800000x1, .i1⟩
  | 106 => ⟨S800000x1, .i1⟩
  | 107 => ⟨S_, .i1⟩
  | 108 => ⟨S800000, .i1⟩
  | 109 => ⟨S800000x64, .f32⟩
  | 110 => ⟨S800000x64, .i1⟩
  | 111 => ⟨S_, .f32⟩
  | 112 => ⟨S800000x64, .f32⟩
  | 113 => ⟨S800000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S1, .i32⟩
  | 123 => ⟨S_, .i32⟩
  | 124 => ⟨S800000x1, .i32⟩
  | 125 => ⟨S800000x1, .i1⟩
  | 126 => ⟨S1x1, .i32⟩
  | 127 => ⟨S800000x1, .i32⟩
  | _ => ⟨S50000x64, .f32⟩

abbrev hbmTy0_1 (i : Nat) : BufTy := match i % 128 with
  | 0 => ⟨S800000x1, .i1⟩
  | 1 => ⟨S800000x1, .i1⟩
  | 2 => ⟨S_, .i1⟩
  | 3 => ⟨S800000, .i1⟩
  | 4 => ⟨S800000x64, .f32⟩
  | 5 => ⟨S800000x64, .i1⟩
  | 6 => ⟨S_, .f32⟩
  | 7 => ⟨S800000x64, .f32⟩
  | 8 => ⟨S800000x64, .f32⟩
  | 9 => ⟨S64x64, .f32⟩
  | 10 => ⟨S64x64, .f32⟩
  | 11 => ⟨S1x64, .f32⟩
  | 12 => ⟨S1x1, .f32⟩
  | 13 => ⟨S1x1, .f32⟩
  | 14 => ⟨S800000x1, .f32⟩
  | 15 => ⟨S800000x1, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S1, .i32⟩
  | 34 => ⟨S_, .i32⟩
  | 35 => ⟨S800000x1, .i32⟩
  | 36 => ⟨S800000x1, .i1⟩
  | 37 => ⟨S1x1, .i32⟩
  | 38 => ⟨S800000x1, .i32⟩
  | 39 => ⟨S800000x1, .i1⟩
  | 40 => ⟨S800000x1, .i1⟩
  | 41 => ⟨S_, .i1⟩
  | 42 => ⟨S800000, .i1⟩
  | 43 => ⟨S800000x64, .f32⟩
  | 44 => ⟨S800000x64, .i1⟩
  | 45 => ⟨S_, .f32⟩
  | 46 => ⟨S800000x64, .f32⟩
  | 47 => ⟨S800000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S1, .i32⟩
  | 57 => ⟨S_, .i32⟩
  | 58 => ⟨S800000x1, .i32⟩
  | 59 => ⟨S800000x1, .i1⟩
  | 60 => ⟨S1x1, .i32⟩
  | 61 => ⟨S800000x1, .i32⟩
  | 62 => ⟨S800000x1, .i1⟩
  | 63 => ⟨S800000x1, .i1⟩
  | 64 => ⟨S_, .i1⟩
  | 65 => ⟨S800000, .i1⟩
  | 66 => ⟨S800000x64, .f32⟩
  | 67 => ⟨S800000x64, .i1⟩
  | 68 => ⟨S_, .f32⟩
  | 69 => ⟨S800000x64, .f32⟩
  | 70 => ⟨S800000x64, .f32⟩
  | 71 => ⟨S64x64, .f32⟩
  | 72 => ⟨S64x64, .f32⟩
  | 73 => ⟨S1x64, .f32⟩
  | 74 => ⟨S1x1, .f32⟩
  | 75 => ⟨S1x1, .f32⟩
  | 76 => ⟨S800000x1, .f32⟩
  | 77 => ⟨S800000x1, .f32⟩
  | 78 => ⟨S800000x1, .f32⟩
  | 79 => ⟨S_, .f32⟩
  | 80 => ⟨S800000x1, .f32⟩
  | 81 => ⟨S800000x1, .f32⟩
  | 82 => ⟨S800000x1, .f32⟩
  | 83 => ⟨S_, .f32⟩
  | 84 => ⟨S800000x1, .f32⟩
  | 85 => ⟨S800000x1, .f32⟩
  | 86 => ⟨S800000x1, .f32⟩
  | 87 => ⟨S800000x1, .f32⟩
  | 88 => ⟨S_, .f32⟩
  | 89 => ⟨S800000x1, .f32⟩
  | 90 => ⟨S800000x1, .f32⟩
  | 91 => ⟨S800000x1, .f32⟩
  | 92 => ⟨S800000x1, .f32⟩
  | 93 => ⟨S_, .f32⟩
  | 94 => ⟨S800000x1, .f32⟩
  | 95 => ⟨S800000x1, .f32⟩
  | 96 => ⟨S800000x1, .f32⟩
  | 97 => ⟨S_, .f32⟩
  | 98 => ⟨S800000x1, .f32⟩
  | 99 => ⟨S800000x1, .f32⟩
  | 100 => ⟨S800000x1, .f32⟩
  | 101 => ⟨S800000x1, .f32⟩
  | 102 => ⟨S_, .f32⟩
  | 103 => ⟨S800000x1, .f32⟩
  | 104 => ⟨S800000x1, .f32⟩
  | 105 => ⟨S800000x1, .f32⟩
  | 106 => ⟨S_, .f32⟩
  | 107 => ⟨S800000, .f32⟩
  | 108 => ⟨S_, .f32⟩
  | 109 => ⟨S_, .f32⟩
  | 110 => ⟨S_, .f32⟩
  | 111 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S64x1, .f32⟩
  | .local _ .vmem, ⟨10, _⟩ => ⟨S1x1, .f32⟩
  | .local _ .vmem, ⟨11, _⟩ => ⟨S4000x1, .f32⟩
  | .local _ .vmem, ⟨12, _⟩ => ⟨S4000x1, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S64x64, .f32⟩
  | .local _ .vmem, ⟨28, _⟩ => ⟨S64x64, .f32⟩
  | .local _ .vmem, ⟨29, _⟩ => ⟨S1x64, .f32⟩
  | .local _ .vmem, ⟨30, _⟩ => ⟨S64x1, .f32⟩
  | .local _ .vmem, ⟨31, _⟩ => ⟨S1x1, .f32⟩
  | .local _ .vmem, ⟨32, _⟩ => ⟨S64x1, .f32⟩
  | .local _ .vmem, ⟨33, _⟩ => ⟨S1x1, .f32⟩
  | .local _ .vmem, ⟨34, _⟩ => ⟨S4000x1, .f32⟩
  | .local _ .vmem, ⟨35, _⟩ => ⟨S4000x1, .f32⟩
  | .local _ .vmem, ⟨36, _⟩ => ⟨S4000x1, .f32⟩
  | .local _ .vmem, ⟨37, _⟩ => ⟨S4000x1, .f32⟩
  | .local _ .vmem, ⟨38, _⟩ => ⟨S4000x64, .f32⟩
  | .local _ .vmem, ⟨39, _⟩ => ⟨S4000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S64x64, .f32⟩
  | .local _ .vmem, ⟨51, _⟩ => ⟨S64x64, .f32⟩
  | .local _ .vmem, ⟨52, _⟩ => ⟨S1x64, .f32⟩
  | .local _ .vmem, ⟨53, _⟩ => ⟨S64x1, .f32⟩
  | .local _ .vmem, ⟨54, _⟩ => ⟨S1x1, .f32⟩
  | .local _ .vmem, ⟨55, _⟩ => ⟨S64x1, .f32⟩
  | .local _ .vmem, ⟨56, _⟩ => ⟨S1x1, .f32⟩
  | .local _ .vmem, ⟨57, _⟩ => ⟨S4000x1, .f32⟩
  | .local _ .vmem, ⟨58, _⟩ => ⟨S4000x1, .f32⟩
  | .local _ .vmem, ⟨59, _⟩ => ⟨S4000x1, .f32⟩
  | .local _ .vmem, ⟨60, _⟩ => ⟨S4000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v8 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15_0 : Ref sig .tc := ⟨.hbm, 80, rfl⟩
abbrev main_v15_1 : Ref sig .tc := ⟨.hbm, 81, rfl⟩
abbrev main_v15_2 : Ref sig .tc := ⟨.hbm, 82, rfl⟩
abbrev main_cst_3 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30_0 : Ref sig .tc := ⟨.hbm, 142, rfl⟩
abbrev main_v30_1 : Ref sig .tc := ⟨.hbm, 143, rfl⟩
abbrev main_v30_2 : Ref sig .tc := ⟨.hbm, 144, rfl⟩
abbrev main_cst_4 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_c_1 : Ref sig .tc := ⟨.hbm, 161, rfl⟩
abbrev main_call5_c_2 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_3 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_call5_cst : Ref sig .tc := ⟨.hbm, 173, rfl⟩
abbrev main_call5_v15 : Ref sig .tc := ⟨.hbm, 174, rfl⟩
abbrev main_v38 : Ref sig .tc := ⟨.hbm, 175, rfl⟩
abbrev main_call6_c : Ref sig .tc := ⟨.hbm, 176, rfl⟩
abbrev main_call6_v0 : Ref sig .tc := ⟨.hbm, 177, rfl⟩
abbrev main_call6_v1 : Ref sig .tc := ⟨.hbm, 178, rfl⟩
abbrev main_call6_c_0 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_v5 : Ref sig .tc := ⟨.hbm, 183, rfl⟩
abbrev main_call6_c_1 : Ref sig .tc := ⟨.hbm, 184, rfl⟩
abbrev main_call6_c_2 : Ref sig .tc := ⟨.hbm, 185, rfl⟩
abbrev main_call6_v6 : Ref sig .tc := ⟨.hbm, 186, rfl⟩
abbrev main_call6_v7 : Ref sig .tc := ⟨.hbm, 187, rfl⟩
abbrev main_call6_v8 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_c_3 : Ref sig .tc := ⟨.hbm, 192, rfl⟩
abbrev main_call6_v12 : Ref sig .tc := ⟨.hbm, 193, rfl⟩
abbrev main_call6_v13 : Ref sig .tc := ⟨.hbm, 194, rfl⟩
abbrev main_call6_v14 : Ref sig .tc := ⟨.hbm, 195, rfl⟩
abbrev main_call6_cst : Ref sig .tc := ⟨.hbm, 196, rfl⟩
abbrev main_call6_v15 : Ref sig .tc := ⟨.hbm, 197, rfl⟩
abbrev main_v39 : Ref sig .tc := ⟨.hbm, 198, rfl⟩
abbrev main_v40 : Ref sig .tc := ⟨.hbm, 199, rfl⟩
abbrev main_v41 : Ref sig .tc := ⟨.hbm, 200, rfl⟩
abbrev main_v42 : Ref sig .tc := ⟨.hbm, 201, rfl⟩
abbrev main_v43 : Ref sig .tc := ⟨.hbm, 202, rfl⟩
abbrev main_v44 : Ref sig .tc := ⟨.hbm, 203, rfl⟩
abbrev main_v45_0 : Ref sig .tc := ⟨.hbm, 204, rfl⟩
abbrev main_v45_1 : Ref sig .tc := ⟨.hbm, 205, rfl⟩
abbrev main_v46 : Ref sig .tc := ⟨.hbm, 206, rfl⟩
abbrev main_cst_5 : Ref sig .tc := ⟨.hbm, 207, rfl⟩
abbrev main_v47 : Ref sig .tc := ⟨.hbm, 208, rfl⟩
abbrev main_v48 : Ref sig .tc := ⟨.hbm, 209, rfl⟩
abbrev main_v49 : Ref sig .tc := ⟨.hbm, 210, rfl⟩
abbrev main_cst_6 : Ref sig .tc := ⟨.hbm, 211, rfl⟩
abbrev main_v50 : Ref sig .tc := ⟨.hbm, 212, rfl⟩
abbrev main_v51 : Ref sig .tc := ⟨.hbm, 213, rfl⟩
abbrev main_v52 : Ref sig .tc := ⟨.hbm, 214, rfl⟩
abbrev main_v53 : Ref sig .tc := ⟨.hbm, 215, rfl⟩
abbrev main_cst_7 : Ref sig .tc := ⟨.hbm, 216, rfl⟩
abbrev main_v54 : Ref sig .tc := ⟨.hbm, 217, rfl⟩
abbrev main_v55 : Ref sig .tc := ⟨.hbm, 218, rfl⟩
abbrev main_v56 : Ref sig .tc := ⟨.hbm, 219, rfl⟩
abbrev main_v57 : Ref sig .tc := ⟨.hbm, 220, rfl⟩
abbrev main_cst_8 : Ref sig .tc := ⟨.hbm, 221, rfl⟩
abbrev main_v58 : Ref sig .tc := ⟨.hbm, 222, rfl⟩
abbrev main_v59 : Ref sig .tc := ⟨.hbm, 223, rfl⟩
abbrev main_v60 : Ref sig .tc := ⟨.hbm, 224, rfl⟩
abbrev main_cst_9 : Ref sig .tc := ⟨.hbm, 225, rfl⟩
abbrev main_v61 : Ref sig .tc := ⟨.hbm, 226, rfl⟩
abbrev main_v62 : Ref sig .tc := ⟨.hbm, 227, rfl⟩
abbrev main_v63 : Ref sig .tc := ⟨.hbm, 228, rfl⟩
abbrev main_v64 : Ref sig .tc := ⟨.hbm, 229, rfl⟩
abbrev main_cst_10 : Ref sig .tc := ⟨.hbm, 230, rfl⟩
abbrev main_v65 : Ref sig .tc := ⟨.hbm, 231, rfl⟩
abbrev main_v66 : Ref sig .tc := ⟨.hbm, 232, rfl⟩
abbrev main_v67 : Ref sig .tc := ⟨.hbm, 233, rfl⟩
abbrev main_cst_11 : Ref sig .tc := ⟨.hbm, 234, rfl⟩
abbrev main_v68 : Ref sig .tc := ⟨.hbm, 235, rfl⟩
abbrev main_cst_12 : Ref sig .tc := ⟨.hbm, 236, rfl⟩
abbrev main_v69 : Ref sig .tc := ⟨.hbm, 237, rfl⟩
abbrev main_cst_13 : Ref sig .tc := ⟨.hbm, 238, rfl⟩
abbrev main_v70 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg3_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg9_1 : Ref sig .tc := ⟨.vmem, 58, rfl⟩
abbrev cc4_stg10_0 : Ref sig .tc := ⟨.vmem, 59, rfl⟩
abbrev cc4_stg10_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc2_sem10_0 : DmaSem sig := 36
abbrev cc2_sem10_1 : DmaSem sig := 37
abbrev cc2_sem11_0 : DmaSem sig := 38
abbrev cc2_sem11_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem3_0 : DmaSem sig := 44
abbrev cc3_sem3_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem9_1 : DmaSem sig := 58
abbrev cc4_sem10_0 : DmaSem sig := 59
abbrev cc4_sem10_1 : DmaSem sig := 60

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S4000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S4000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S4000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S4000x1 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S128x64_S64x64_0_0 : S128x64.Slices ![0, 0] S64x64
  slices_S128x64_S64x64_64_0 : S128x64.Slices ![64, 0] S64x64
  shapeCasts_S64_S1x64 : S64.ShapeCasts S1x64
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  broadcasts_S4000x1_S4000x64 : S4000x1.Broadcasts S4000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reducesTo_S800000_S_d0 : S800000.ReducesTo [0] S_
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S800000x1.size a
  hwx0_9 : ∀ i : grid0.Coords, EltTy.bits .f32 = 32 ∨ (Rect.block (s := S800000x1) S4000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x1.size a ≤ S800000x1.size a
  hwx0_10 : ∀ i : grid0.Coords, EltTy.bits .f32 = 32 ∨ (Rect.block (s := S800000x1) S4000x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S800000x64.size a
  hwx0_11 : ∀ i : grid0.Coords, EltTy.bits .f32 = 32 ∨ (Rect.block (s := S800000x64) S4000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x1.size a ≤ S800000x1.size a
  hwx2_9 : ∀ i : grid2.Coords, EltTy.bits .f32 = 32 ∨ (Rect.block (s := S800000x1) S4000x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x1.size a ≤ S800000x1.size a
  hwx2_10 : ∀ i : grid2.Coords, EltTy.bits .f32 = 32 ∨ (Rect.block (s := S800000x1) S4000x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4000x64.size a ≤ S800000x64.size a
  hwx2_11 : ∀ i : grid2.Coords, EltTy.bits .f32 = 32 ∨ (Rect.block (s := S800000x64) S4000x64.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S800000x64.size a
  hwx4_0 : ∀ i : grid4.Coords, EltTy.bits .f32 = 32 ∨ (Rect.block (s := S800000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S800000x64.size a
  hwx4_1 : ∀ i : grid4.Coords, EltTy.bits .f32 = 32 ∨ (Rect.block (s := S800000x64) S4000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x1.size a ≤ S64x1.size a
  hwx4_7 : ∀ i : grid4.Coords, EltTy.bits .f32 = 32 ∨ (Rect.block (s := S64x1) S64x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x1.size a ≤ S800000x1.size a
  hwx4_9 : ∀ i : grid4.Coords, EltTy.bits .f32 = 32 ∨ (Rect.block (s := S800000x1) S4000x1.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S4000x1.size a ≤ S800000x1.size a
  hwx4_10 : ∀ i : grid4.Coords, EltTy.bits .f32 = 32 ∨ (Rect.block (s := S800000x1) S4000x1.size (cc4_transform_10 i) (hinb4_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v8) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S4000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S4000x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15_2) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v29) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v30_0) S4000x1.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v30_1) S4000x1.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v30_2) S4000x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v35) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg7) S64x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v43) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg9) S64x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v44) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v45_0) S4000x1.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v45_1) S4000x1.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S800000x128 : Shape := ⟨2, ![800000, 128]⟩
abbrev S1x64 : Shape := ⟨2, ![1, 64]⟩
abbrev S1x1 : Shape := ⟨2, ![1, 1]⟩

abbrev nBuf : Space → Nat
  | .hbm => 281
  | .vmem => 0
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64, .f32⟩
  | 5 => ⟨S128x64, .f32⟩
  | 6 => ⟨S64, .f32⟩
  | 7 => ⟨S64x1, .f32⟩
  | 8 => ⟨S1, .f32⟩
  | 9 => ⟨S64x1, .f32⟩
  | 10 => ⟨S1, .f32⟩
  | 11 => ⟨S800000, .i32⟩
  | 12 => ⟨S800000, .i32⟩
  | 13 => ⟨S800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x128, .f32⟩
  | 48 => ⟨S800000x64, .f32⟩
  | 49 => ⟨S1x64, .f32⟩
  | 50 => ⟨S800000x64, .f32⟩
  | 51 => ⟨S800000x64, .f32⟩
  | 52 => ⟨S_, .f32⟩
  | 53 => ⟨S800000x64, .f32⟩
  | 54 => ⟨S800000x64, .f32⟩
  | 55 => ⟨S800000x1, .f32⟩
  | 56 => ⟨S1x1, .f32⟩
  | 57 => ⟨S800000x1, .f32⟩
  | 58 => ⟨S800000x1, .f32⟩
  | 59 => ⟨S800000x1, .f32⟩
  | 60 => ⟨S1x1, .f32⟩
  | 61 => ⟨S800000x1, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x128, .f32⟩
  | 106 => ⟨S800000x64, .f32⟩
  | 107 => ⟨S1x64, .f32⟩
  | 108 => ⟨S800000x64, .f32⟩
  | 109 => ⟨S800000x64, .f32⟩
  | 110 => ⟨S_, .f32⟩
  | 111 => ⟨S800000x64, .f32⟩
  | 112 => ⟨S800000x64, .f32⟩
  | 113 => ⟨S800000x1, .f32⟩
  | 114 => ⟨S1x1, .f32⟩
  | 115 => ⟨S800000x1, .f32⟩
  | 116 => ⟨S800000x1, .f32⟩
  | 117 => ⟨S800000x1, .f32⟩
  | 118 => ⟨S1x1, .f32⟩
  | 119 => ⟨S800000x1, .f32⟩
  | 120 => ⟨S800000x1, .f32⟩
  | 121 => ⟨S800000x1, .f32⟩
  | 122 => ⟨S_, .f32⟩
  | 123 => ⟨S800000x1, .f32⟩
  | 124 => ⟨S800000x1, .f32⟩
  | 125 => ⟨S800000x1, .f32⟩
  | 126 => ⟨S_, .f32⟩
  | 127 => ⟨S800000x1, .f32⟩
  | _ => ⟨S50000x64, .f32⟩

abbrev hbmTy0_1 (i : Nat) : BufTy := match i % 128 with
  | 0 => ⟨S800000x1, .f32⟩
  | 1 => ⟨S800000x1, .f32⟩
  | 2 => ⟨S800000x1, .f32⟩
  | 3 => ⟨S_, .f32⟩
  | 4 => ⟨S800000x1, .f32⟩
  | 5 => ⟨S800000x1, .f32⟩
  | 6 => ⟨S800000x1, .f32⟩
  | 7 => ⟨S800000x1, .f32⟩
  | 8 => ⟨S_, .f32⟩
  | 9 => ⟨S800000x1, .f32⟩
  | 10 => ⟨S800000x1, .f32⟩
  | 11 => ⟨S800000x1, .f32⟩
  | 12 => ⟨S_, .f32⟩
  | 13 => ⟨S800000x1, .f32⟩
  | 14 => ⟨S800000x1, .f32⟩
  | 15 => ⟨S800000x1, .f32⟩
  | 16 => ⟨S800000x1, .f32⟩
  | 17 => ⟨S_, .f32⟩
  | 18 => ⟨S800000x1, .f32⟩
  | 19 => ⟨S800000x1, .f32⟩
  | 20 => ⟨S800000x1, .f32⟩
  | 21 => ⟨S_, .f32⟩
  | 22 => ⟨S800000, .f32⟩
  | 23 => ⟨S_, .f32⟩
  | 24 => ⟨S_, .f32⟩
  | 25 => ⟨S_, .f32⟩
  | 26 => ⟨S_, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x128, .f32⟩
  | 46 => ⟨S800000x64, .f32⟩
  | 47 => ⟨S1x64, .f32⟩
  | 48 => ⟨S800000x64, .f32⟩
  | 49 => ⟨S800000x64, .f32⟩
  | 50 => ⟨S_, .f32⟩
  | 51 => ⟨S800000x64, .f32⟩
  | 52 => ⟨S800000x64, .f32⟩
  | 53 => ⟨S800000x1, .f32⟩
  | 54 => ⟨S1x1, .f32⟩
  | 55 => ⟨S800000x1, .f32⟩
  | 56 => ⟨S800000x1, .f32⟩
  | 57 => ⟨S800000x1, .f32⟩
  | 58 => ⟨S1x1, .f32⟩
  | 59 => ⟨S800000x1, .f32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x64, .f32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S50000x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x128, .f32⟩
  | 104 => ⟨S800000x64, .f32⟩
  | 105 => ⟨S1x64, .f32⟩
  | 106 => ⟨S800000x64, .f32⟩
  | 107 => ⟨S800000x64, .f32⟩
  | 108 => ⟨S_, .f32⟩
  | 109 => ⟨S800000x64, .f32⟩
  | 110 => ⟨S800000x64, .f32⟩
  | 111 => ⟨S800000x1, .f32⟩
  | 112 => ⟨S1x1, .f32⟩
  | 113 => ⟨S800000x1, .f32⟩
  | 114 => ⟨S800000x1, .f32⟩
  | 115 => ⟨S800000x1, .f32⟩
  | 116 => ⟨S1x1, .f32⟩
  | 117 => ⟨S800000x1, .f32⟩
  | 118 => ⟨S800000x1, .f32⟩
  | 119 => ⟨S800000x1, .f32⟩
  | 120 => ⟨S_, .f32⟩
  | 121 => ⟨S800000x1, .f32⟩
  | 122 => ⟨S800000x1, .f32⟩
  | 123 => ⟨S800000x1, .f32⟩
  | 124 => ⟨S_, .f32⟩
  | 125 => ⟨S800000x1, .f32⟩
  | 126 => ⟨S800000x1, .f32⟩
  | 127 => ⟨S800000x1, .f32⟩
  | _ => ⟨S50000x64, .f32⟩

abbrev hbmTy0_2 (i : Nat) : BufTy := match i % 128 with
  | 0 => ⟨S800000x1, .f32⟩
  | 1 => ⟨S_, .f32⟩
  | 2 => ⟨S800000x1, .f32⟩
  | 3 => ⟨S800000x1, .f32⟩
  | 4 => ⟨S800000x1, .f32⟩
  | 5 => ⟨S800000x1, .f32⟩
  | 6 => ⟨S_, .f32⟩
  | 7 => ⟨S800000x1, .f32⟩
  | 8 => ⟨S800000x1, .f32⟩
  | 9 => ⟨S800000x1, .f32⟩
  | 10 => ⟨S_, .f32⟩
  | 11 => ⟨S800000x1, .f32⟩
  | 12 => ⟨S800000x1, .f32⟩
  | 13 => ⟨S800000x1, .f32⟩
  | 14 => ⟨S800000x1, .f32⟩
  | 15 => ⟨S_, .f32⟩
  | 16 => ⟨S800000x1, .f32⟩
  | 17 => ⟨S800000x1, .f32⟩
  | 18 => ⟨S800000x1, .f32⟩
  | 19 => ⟨S_, .f32⟩
  | 20 => ⟨S800000, .f32⟩
  | 21 => ⟨S_, .f32⟩
  | 22 => ⟨S_, .f32⟩
  | 23 => ⟨S_, .f32⟩
  | 24 => ⟨S_, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call1_cst : Ref sig .tc := ⟨.hbm, 52, rfl⟩
abbrev main_call1_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_cst : Ref sig .tc := ⟨.hbm, 84, rfl⟩
abbrev main_call2_v0 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_11 : Ref sig .tc := ⟨.hbm, 96, rfl⟩
abbrev main_v62 : Ref sig .tc := ⟨.hbm, 97, rfl⟩
abbrev main_v63 : Ref sig .tc := ⟨.hbm, 98, rfl⟩
abbrev main_c_12 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call3_cst : Ref sig .tc := ⟨.hbm, 110, rfl⟩
abbrev main_call3_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_15 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_16 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_17 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_cst_20 : Ref sig .tc := ⟨.hbm, 151, rfl⟩
abbrev main_v106 : Ref sig .tc := ⟨.hbm, 152, rfl⟩
abbrev main_cst_21 : Ref sig .tc := ⟨.hbm, 153, rfl⟩
abbrev main_v107 : Ref sig .tc := ⟨.hbm, 154, rfl⟩
abbrev main_c_22 : Ref sig .tc := ⟨.hbm, 155, rfl⟩
abbrev main_v108 : Ref sig .tc := ⟨.hbm, 156, rfl⟩
abbrev main_v109 : Ref sig .tc := ⟨.hbm, 157, rfl⟩
abbrev main_c_23 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_24 : Ref sig .tc := ⟨.hbm, 164, rfl⟩
abbrev main_v115 : Ref sig .tc := ⟨.hbm, 165, rfl⟩
abbrev main_v116 : Ref sig .tc := ⟨.hbm, 166, rfl⟩
abbrev main_c_25 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_call4_cst : Ref sig .tc := ⟨.hbm, 178, rfl⟩
abbrev main_call4_v0 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_c_26 : Ref sig .tc := ⟨.hbm, 189, rfl⟩
abbrev main_v136 : Ref sig .tc := ⟨.hbm, 190, rfl⟩
abbrev main_v137 : Ref sig .tc := ⟨.hbm, 191, rfl⟩
abbrev main_c_27 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_28 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_call5_cst : Ref sig .tc := ⟨.hbm, 210, rfl⟩
abbrev main_call5_v0 : Ref sig .tc := ⟨.hbm, 211, rfl⟩
abbrev main_v154 : Ref sig .tc := ⟨.hbm, 212, rfl⟩
abbrev main_c_29 : Ref sig .tc := ⟨.hbm, 213, rfl⟩
abbrev main_v155 : Ref sig .tc := ⟨.hbm, 214, rfl⟩
abbrev main_v156 : Ref sig .tc := ⟨.hbm, 215, rfl⟩
abbrev main_c_30 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_c_31 : Ref sig .tc := ⟨.hbm, 222, rfl⟩
abbrev main_v162 : Ref sig .tc := ⟨.hbm, 223, rfl⟩
abbrev main_v163 : Ref sig .tc := ⟨.hbm, 224, rfl⟩
abbrev main_c_32 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_call6_cst : Ref sig .tc := ⟨.hbm, 236, rfl⟩
abbrev main_call6_v0 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_33 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_34 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_35 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_36 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_cst_37 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_cst_38 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_cst_39 : Ref sig .tc := ⟨.hbm, 275, rfl⟩
abbrev main_v205 : Ref sig .tc := ⟨.hbm, 276, rfl⟩
abbrev main_cst_40 : Ref sig .tc := ⟨.hbm, 277, rfl⟩
abbrev main_v206 : Ref sig .tc := ⟨.hbm, 278, rfl⟩
abbrev main_cst_41 : Ref sig .tc := ⟨.hbm, 279, rfl⟩
abbrev main_v207 : Ref sig .tc := ⟨.hbm, 280, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S800000x1 : S_.BroadcastsInDim S800000x1 (![] : Fin 0 → Fin S800000x1.rank)
  reducesTo_S800000x1_S800000_d1 : S800000x1.ReducesTo [1] S800000
  h_S_ : 0 < S_.numel
  reducesTo_S800000_S_d0 : S800000.ReducesTo [0] S_
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  What the three kernel bodies compute, as functions of whole arrays, index by index, over the extended reals.

  Edge network, for edge e and hidden unit j:
    hidden(e, j) = max (Σ_k hs[e,k]·a[k,j] + Σ_k hd[e,k]·b[k,j] + β[0,j]) 0
  (hs, hd the gathered source and destination rows; a, b the two halves of the embedding weight; β its bias), and a head
    head(e) = Σ_k hidden(e,k)·w[k,0] + γ[0,0]
  used twice (mean and log-scale, two weight columns). The message of an edge is its source row scaled by the mean head:
    msg(e, j) = hs[e,j] · head(e).
  Node layer: dense(n, j) = max (Σ_k x[n,k]·w[k,j] + β[0,j]) 0.
  A change of float format is the identity on extended reals, so the bf16 casts of the bodies do not appear.
-/
import Idealize.ShloMosaic.PureOps.Ideal
import Idealize.ShloMosaic.Lib.ValueIdx

noncomputable section

namespace Cert.Spec

open Idealize.ShloMosaic Idealize.ShloMosaic.ValueIdx

abbrev SE64 : Shape := ⟨2, ![800000, 64]⟩
abbrev SE1 : Shape := ⟨2, ![800000, 1]⟩
abbrev SN64 : Shape := ⟨2, ![50000, 64]⟩
abbrev SDD : Shape := ⟨2, ![64, 64]⟩
abbrev S1D : Shape := ⟨2, ![1, 64]⟩
abbrev SD1 : Shape := ⟨2, ![64, 1]⟩
abbrev S11 : Shape := ⟨2, ![1, 1]⟩

/-- The hidden layer of the edge network at edge `e`, unit `j`. -/
def hidden (hs hd : FVec Ideal SE64 .f32) (a b : FVec Ideal SDD .f32) (β : FVec Ideal S1D .f32)
    (e : Fin 800000) (j : Fin 64) : EReal :=
  max ((∑ k : Fin 64, hs (ix2 e k) * a (ix2 k j)) + (∑ k : Fin 64, hd (ix2 e k) * b (ix2 k j)) + β (ix2 0 j)) 0

/-- One scalar head of the edge network: the hidden layer against a weight column, plus its bias. -/
def edgeHead (hs hd : FVec Ideal SE64 .f32) (a b : FVec Ideal SDD .f32) (β : FVec Ideal S1D .f32)
    (w : FVec Ideal SD1 .f32) (γ : FVec Ideal S11 .f32) : FVec Ideal SE1 .f32 :=
  fun i => (∑ k : Fin 64, hidden hs hd a b β (i 0) k * w (ix2 k 0)) + γ (ix2 0 0)

/-- The message of an edge: its source row scaled by the head. -/
def edgeMsg (hs hd : FVec Ideal SE64 .f32) (a b : FVec Ideal SDD .f32) (β : FVec Ideal S1D .f32)
    (w : FVec Ideal SD1 .f32) (γ : FVec Ideal S11 .f32) : FVec Ideal SE64 .f32 :=
  fun i => hs i * edgeHead hs hd a b β w γ (ix2 (i 0) 0)

/-- The node layer: a row against the weight, plus the bias, clipped below at zero. -/
def dense (x : FVec Ideal SN64 .f32) (w : FVec Ideal SDD .f32) (β : FVec Ideal S1D .f32) : FVec Ideal SN64 .f32 :=
  fun i => max ((∑ k : Fin 64, x (ix2 (i 0) k) * w (ix2 k (i 1))) + β (ix2 0 (i 1))) 0

end Cert.Spec

end
-- ==== Proof.KVal.lean ====
/-
  The kernel program's host side, as functions of whole arrays over the extended reals, in the program's own operations.

  `wrap` is an index vector after Python's negative wrap, laid out as a column; `rows h idx` gathers the rows of `h` it names;
  `take` is the guarded gather the program uses: the gathered row where the wrapped index lies in [0, 49999], a fill word elsewhere.
  `norm` is 1 / max(1, in-degree); `agg` scatter-adds edge messages into their destination rows and scales each row by `norm`.
  `we1`, `we2` are the two halves of the embedding weight; `row1`, `cell` re-lay a vector as a 1×64 row and a 1×1 cell.
  `tail` is the contrastive loss of the two heads on the true and the false edges, averaged over the edges.
-/
import proofs.«411890_j54623394070984_2_alg».proof.KernelIdeal
import proofs.«411890_j54623394070984_2_alg».proof.Proof.Gen.KernelIdeal
import Idealize.ShloMosaic.PureOps.Ideal
import proofs.«411890_j54623394070984_2_alg».proof.Proof.Spec

noncomputable section

namespace Cert.KernelIdeal.KVal

open Idealize.ShloMosaic Cert.KernelIdeal
open Facts₀ Facts

/-- An index vector after the negative wrap (i < 0 ↦ i + 50000), as a column. -/
def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The rows of `h` the wrapped indices name (a gather clamps what is out of range). -/
def rows (h : FVec Ideal S50000x64 .f32) (idx : IVec S800000 32) : FVec Ideal S800000x64 .f32 :=
  Host.gather gather_S50000x64_S800000x1_S800000x64_1_0_n_n_0_1_164 h (wrap idx)

/-- The mask "the wrapped index lies in [0, 49999]", spread over a row's 64 lanes. -/
def inb (idx : IVec S800000 32) : IVec S800000x64 1 :=
  broadcastInDim S800000x64 ![0] bcast_S800000_S800000x64_0
    (Host.reduce IntOp.andi
      (andi (cmpi .sge (wrap idx) (broadcastInDim S800000x1 ![] bcast_S_S800000x1 (constantI S_ 32 0#32)))
        (cmpi .sle (wrap idx) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The guarded gather: the row where the index is in range, the fill word elsewhere. -/
def take (h : FVec Ideal S50000x64 .f32) (idx : IVec S800000 32) : FVec Ideal S800000x64 .f32 :=
  select (inb idx) (rows h idx)
    (broadcastInDim S800000x64 ![] bcast_S_S800000x64 (constant (F := Ideal) S_ .f32 0x7FC00000#32))

/-- 1 / max(1, in-degree of each node), as a column. -/
def norm (dst : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf (broadcastInDim S50000 ![] bcast_S_S50000 (id (constant (F := Ideal) S_ .f32 0x3F800000#32)))
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))))

/-- Messages summed into their destination rows, each row scaled by `nrm`. -/
def agg (msg : FVec Ideal S800000x64 .f32) (dst : IVec S800000 32) (nrm : FVec Ideal S50000x1 .f32) : FVec Ideal S50000x64 .f32 :=
  mulf (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst) msg)
    (broadcastInDim S50000x64 ![0, 1] bcast_S50000x1_S50000x64_0_1 nrm)

/-- Rows 0–63 and rows 64–127 of the embedding weight. -/
def we1 (We : FVec Ideal S128x64 .f32) : FVec Ideal S64x64 .f32 := extractStridedSlice S64x64 ![0, 0] We slices_S128x64_S64x64_0_0
def we2 (We : FVec Ideal S128x64 .f32) : FVec Ideal S64x64 .f32 := extractStridedSlice S64x64 ![64, 0] We slices_S128x64_S64x64_64_0

/-- A 64-vector as a 1×64 row, and a 1-vector as a 1×1 cell. -/
def row1 (b : FVec Ideal S64 .f32) : FVec Ideal S1x64 .f32 := shapeCast S1x64 b shapeCasts_S64_S1x64
def cell (b : FVec Ideal S1 .f32) : FVec Ideal S1x1 .f32 := shapeCast S1x1 b shapeCasts_S1_S1x1

/-- A word spread over the edge column. -/
def bc (w : BitVec 32) : FVec Ideal S800000x1 .f32 :=
  broadcastInDim S800000x1 ![] bcast_S_S800000x1 (constant (F := Ideal) S_ .f32 w)

/-- The Gaussian log-density of `x` under mean `loc` and log-scale `ls`: −½·z·z − ls − ½·ln 2π with z = (x − loc) / exp ls. -/
def logp (x loc ls : FVec Ideal S800000x1 .f32) : FVec Ideal S800000x1 .f32 :=
  subf (subf (mulf (mulf (bc 0xBF000000#32) (Host.divf (subf x loc) (Host.exp ls))) (Host.divf (subf x loc) (Host.exp ls))) ls)
    (bc 0x3F6B3F8E#32)

/-- The contrastive loss: −log p(1 | true edge) − log p(0 | false edge), summed over the edges and divided by their number. -/
def tail (loc ls locn lsn : FVec Ideal S800000x1 .f32) : FVec Ideal S_ .f32 :=
  Host.divf
    (Host.reduceAdd
      (Host.reduceAdd (subf (Host.negf (logp (bc 0x3F800000#32) loc ls)) (logp (bc 0x00000000#32) locn lsn))
        (constant (F := Ideal) S_ .f32 0x00000000#32) reducesTo_S800000x1_S800000_d1 h_S_)
      (constant (F := Ideal) S_ .f32 0x00000000#32) reducesTo_S800000_S_d0 h_S_)
    (constant (F := Ideal) S_ .f32 0x49435000#32)

variable (We : FVec Ideal S128x64 .f32) (be : FVec Ideal S64 .f32) (Wloc : FVec Ideal S64x1 .f32) (bloc : FVec Ideal S1 .f32)
  (Wls : FVec Ideal S64x1 .f32) (bls : FVec Ideal S1 .f32)

/-- A head of the edge network on the rows of `h` taken at the index vectors `s`, `d`. -/
def head (h : FVec Ideal S50000x64 .f32) (s d : IVec S800000 32) (w : FVec Ideal S64x1 .f32) (b : FVec Ideal S1 .f32) :
    FVec Ideal S800000x1 .f32 :=
  Cert.Spec.edgeHead (take h s) (take h d) (we1 We) (we2 We) (row1 be) w (cell b)

/-- One message-passing layer: messages along the true edges, aggregated and normalised, through the node layer. -/
def layer (h : FVec Ideal S50000x64 .f32) (W : FVec Ideal S64x64 .f32) (b : FVec Ideal S64 .f32) (src dst : IVec S800000 32) :
    FVec Ideal S50000x64 .f32 :=
  Cert.Spec.dense
    (agg (Cert.Spec.edgeMsg (take h src) (take h dst) (we1 We) (we2 We) (row1 be) Wloc (cell bloc)) dst (norm dst)) W (row1 b)

/-- The program's first result: two layers. -/
def out0 (feat : FVec Ideal S50000x64 .f32) (W1 : FVec Ideal S64x64 .f32) (b1 : FVec Ideal S64 .f32) (W2 : FVec Ideal S64x64 .f32)
    (b2 : FVec Ideal S64 .f32) (src dst : IVec S800000 32) : FVec Ideal S50000x64 .f32 :=
  layer We be Wloc bloc (layer We be Wloc bloc feat W1 b1 src dst) W2 b2 src dst

/-- The program's second result: the loss of the heads on the first layer's output, true edges against false edges. -/
def out1 (feat : FVec Ideal S50000x64 .f32) (W1 : FVec Ideal S64x64 .f32) (b1 : FVec Ideal S64 .f32)
    (src dst fsrc fdst : IVec S800000 32) : FVec Ideal S_ .f32 :=
  tail (head We be (layer We be Wloc bloc feat W1 b1 src dst) src dst Wloc bloc)
    (head We be (layer We be Wloc bloc feat W1 b1 src dst) src dst Wls bls)
    (head We be (layer We be Wloc bloc feat W1 b1 src dst) fsrc fdst Wloc bloc)
    (head We be (layer We be Wloc bloc feat W1 b1 src dst) fsrc fdst Wls bls)

end Cert.KernelIdeal.KVal

end
-- ==== Proof.RegionEdge0Pay.lean ====
/-
  One block of 4000 edges through the edge network, read index by index over the extended reals.

  The body's value at row p of the block: the hidden layer
    h(p, q) = max (Σ_k x0[p,k]·x2[k,q] + Σ_k x1[p,k]·x3[k,q] + x4[0,q]) 0,
  and a head  Σ_k h(p,k)·w[k,0] + g[0,0]  (once with the mean's weight column, once with the log-scale's).
  A product of a [4000,64] block with a [64,n] matrix into a zero accumulator is the plain sum over the 64 contracted
  coordinates; a change of float format is the identity; a [1,n] row spread over the block reads its one row.
-- [the message part: only the kernel that also writes the messages has it]
  The message is x0[p,q] · head(p): the [4000,1] column of heads spread over the 64 lanes reads its one column.
-- [end of the message part]
-/
import proofs.«411890_j54623394070984_2_alg».proof.Proof.Gen.KernelIdeal.Skeleton
import proofs.«411890_j54623394070984_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionEdge0

open Idealize.ShloMosaic Idealize.ShloMosaic.ValueIdx Cert.KernelIdeal Cert.KernelIdeal.Gen

/-! ## The two contractions, coordinate by coordinate -/

theorem lhs_sq_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_sq_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_sq_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_sq_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A [4000,64] block times a [64,64] matrix into the zero accumulator, at row `p`, column `q`. -/
theorem mm_sq_apply (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

theorem lhs_col_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs_col_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhs_col_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhs_col_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- A [4000,64] block times a [64,1] column into the zero accumulator, at row `p`. -/
theorem mm_col_apply (l : FVec Ideal S4000x64 .bf16) (r : FVec Ideal S64x1 .bf16) (p : Fin 4000) (q : Fin 1) :
    matmul dot_S4000x64_S64x1_S4000x1_1_0_0_1_n_n none l r (constant (F := Ideal) S4000x1 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x1_S4000x1_1_0_0_1_n_n 64 rfl rfl).symm]
  refine Finset.sum_congr rfl fun k _ => ?_
  have hk := ValueIdx.contrEquiv1_symm_val dot_S4000x64_S64x1_S4000x1_1_0_0_1_n_n 64 rfl rfl k
  have el : dot_S4000x64_S64x1_S4000x1_1_0_0_1_n_n.lhsIdx (ix2 p q) ((ValueIdx.contrEquiv1 dot_S4000x64_S64x1_S4000x1_1_0_0_1_n_n 64 rfl rfl).symm k) = ix2 p k := funext fun a => Fin.ext (by
    match a with
    | ⟨0, _⟩ => exact lhs_col_0 _ _
    | ⟨1, _⟩ => exact (lhs_col_1 _ _).trans hk)
  have er : dot_S4000x64_S64x1_S4000x1_1_0_0_1_n_n.rhsIdx (ix2 p q) ((ValueIdx.contrEquiv1 dot_S4000x64_S64x1_S4000x1_1_0_0_1_n_n 64 rfl rfl).symm k) = ix2 k q := funext fun a => Fin.ext (by
    match a with
    | ⟨0, _⟩ => exact (rhs_col_0 _ _).trans hk
    | ⟨1, _⟩ => exact rhs_col_1 _ _)
  rw [el, er]

-- [the message part: only the kernel that also writes the messages has it]
/-! ## A column spread over the lanes -/

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
-- [end of the message part]

/-! ## The body's values at an index -/

/-- The hidden layer of the block, at row `p`, unit `q`. -/
theorem hidden_apply (x0 x1 : Vec Ideal S4000x64 .f32) (x2 x3 : Vec Ideal S64x64 .f32) (x4 : Vec Ideal S1x64 .f32) (p : Fin 4000) (q : Fin 64) :
    k0_pay3 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q)) 0 := by
  unfold k0_pay3
  -- [the message part: only the kernel that also writes the messages has it]
  unfold k0_pay2
  dsimp only
  -- [end of the message part]
  simp only [shapeCast_self]
  rw [truncf_apply, maximumf_apply, addf_apply, addf_apply, mm_sq_apply, mm_sq_apply, broadcastTo_1b_ab_apply, broadcast_apply]
  simp only [truncf_apply, Ideal.ofBits_def, Ideal.ofBits_zero_f32]

/-- The mean head of the block, at row `p`. -/
theorem head_apply (x0 x1 : Vec Ideal S4000x64 .f32) (x2 x3 : Vec Ideal S64x64 .f32) (x4 : Vec Ideal S1x64 .f32) (x5 : Vec Ideal S64x1 .f32) (x6 : Vec Ideal S1x1 .f32) (p : Fin 4000) (r : Fin 1) :
    k0_pay4 (F := Ideal) x0 x1 x2 x3 x4 x5 x6 (ix2 p r)
      = (∑ k : Fin 64, k0_pay3 (F := Ideal) x0 x1 x2 x3 x4 (ix2 p k) * x5 (ix2 k r)) + x6 (ix2 (0 : Fin 1) r) := by
  unfold k0_pay4
  simp only [shapeCast_self]
  rw [addf_apply, mm_col_apply, broadcastTo_1b_ab_apply]
  simp only [truncf_apply]

/-- The log-scale head of the block, at row `p`. -/
theorem head2_apply (x0 x1 : Vec Ideal S4000x64 .f32) (x2 x3 : Vec Ideal S64x64 .f32) (x4 : Vec Ideal S1x64 .f32) (x7 : Vec Ideal S64x1 .f32) (x8 : Vec Ideal S1x1 .f32) (p : Fin 4000) (r : Fin 1) :
    k0_pay5 (F := Ideal) x0 x1 x2 x3 x4 x7 x8 (ix2 p r)
      = (∑ k : Fin 64, k0_pay3 (F := Ideal) x0 x1 x2 x3 x4 (ix2 p k) * x7 (ix2 k r)) + x8 (ix2 (0 : Fin 1) r) := by
  unfold k0_pay5
  simp only [shapeCast_self]
  rw [addf_apply, mm_col_apply, broadcastTo_1b_ab_apply]
  simp only [truncf_apply]

-- [the message part: only the kernel that also writes the messages has it]
/-- The message of the block, at row `p`, lane `q`: the source entry times the row's head. -/
theorem msg_apply (x0 : Vec Ideal S4000x64 .f32) (v30 : FVec Ideal S4000x1 .f32) (p : Fin 4000) (q : Fin 64) :
    k0_pay1 (F := Ideal) (k0_pay2 (F := Ideal) x0) v30 (ix2 p q) = x0 (ix2 p q) * v30 (ix2 p (0 : Fin 1)) := by
  unfold k0_pay1 k0_pay2
  dsimp only
  simp only [shapeCast_self]
  rw [mulf_apply, broadcastTo_a1_ab_apply]
-- [end of the message part]

/-! ## A block's values as the specification's, given where the block's rows sit in the arrays

Stated at any index `j` of the block and any index `i` of the array whose row coordinates are `p` and `e`. -/

/-- A head of the block at row `p` is the specification's head at edge `e`, when rows `p` of the two row blocks are
    rows `e` of the two gathered arrays and the whole-array windows hold their arrays. -/
theorem head_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x5 : Vec Ideal S64x1 .f32) (x6 : Vec Ideal S1x1 .f32)
    (j : S4000x1.Idx) (i : Cert.Spec.SE1.Idx) (p : Fin 4000) (e : Fin 800000) (hp : (j 0).val = p.val) (he : (i 0).val = e.val)
    (h0 : ∀ k : Fin 64, x0 (ix2 p k) = hs (ix2 e k)) (h1 : ∀ k : Fin 64, x1 (ix2 p k) = hd (ix2 e k))
    (h2 : x2 = a) (h3 : x3 = b) (h4 : x4 = β) (h5 : x5 = w) (h6 : x6 = γ) :
    k0_pay4 (F := Ideal) x0 x1 x2 x3 x4 x5 x6 j = Cert.Spec.edgeHead hs hd a b β w γ i := by
  subst h2 h3 h4 h5 h6
  obtain ⟨p', r, rfl⟩ : ∃ (p' : Fin 4000) (r : Fin 1), j = ix2 p' r := ⟨j 0, j 1, eq_ix2 j⟩
  obtain ⟨e', r', rfl⟩ : ∃ (e' : Fin 800000) (r' : Fin 1), i = ix2 e' r' := ⟨i 0, i 1, eq_ix2 i⟩
  obtain rfl : p' = p := Fin.ext hp
  obtain rfl : e' = e := Fin.ext he
  obtain rfl : r = 0 := Subsingleton.elim _ _
  obtain rfl : r' = 0 := Subsingleton.elim _ _
  rw [head_apply]
  simp only [hidden_apply, h0, h1]
  rfl

/-- The same for the second head (the kernel names it by another payload; the arithmetic is the same). -/
theorem head2_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x7 : Vec Ideal S64x1 .f32) (x8 : Vec Ideal S1x1 .f32)
    (j : S4000x1.Idx) (i : Cert.Spec.SE1.Idx) (p : Fin 4000) (e : Fin 800000) (hp : (j 0).val = p.val) (he : (i 0).val = e.val)
    (h0 : ∀ k : Fin 64, x0 (ix2 p k) = hs (ix2 e k)) (h1 : ∀ k : Fin 64, x1 (ix2 p k) = hd (ix2 e k))
    (h2 : x2 = a) (h3 : x3 = b) (h4 : x4 = β) (h7 : x7 = w) (h8 : x8 = γ) :
    k0_pay5 (F := Ideal) x0 x1 x2 x3 x4 x7 x8 j = Cert.Spec.edgeHead hs hd a b β w γ i := by
  subst h2 h3 h4 h7 h8
  obtain ⟨p', r, rfl⟩ : ∃ (p' : Fin 4000) (r : Fin 1), j = ix2 p' r := ⟨j 0, j 1, eq_ix2 j⟩
  obtain ⟨e', r', rfl⟩ : ∃ (e' : Fin 800000) (r' : Fin 1), i = ix2 e' r' := ⟨i 0, i 1, eq_ix2 i⟩
  obtain rfl : p' = p := Fin.ext hp
  obtain rfl : e' = e := Fin.ext he
  obtain rfl : r = 0 := Subsingleton.elim _ _
  obtain rfl : r' = 0 := Subsingleton.elim _ _
  rw [head2_apply]
  simp only [hidden_apply, h0, h1]
  rfl

-- [the message part: only the kernel that also writes the messages has it]
/-- The message of the block at row `p`, lane `q` is the specification's message at edge `e`, lane `q`. -/
theorem msg_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x5 : Vec Ideal S64x1 .f32) (x6 : Vec Ideal S1x1 .f32)
    (j : S4000x64.Idx) (i : Cert.Spec.SE64.Idx) (p : Fin 4000) (e : Fin 800000) (hp : (j 0).val = p.val) (he : (i 0).val = e.val)
    (hq : (j 1).val = (i 1).val)
    (h0 : ∀ k : Fin 64, x0 (ix2 p k) = hs (ix2 e k)) (h1 : ∀ k : Fin 64, x1 (ix2 p k) = hd (ix2 e k))
    (h2 : x2 = a) (h3 : x3 = b) (h4 : x4 = β) (h5 : x5 = w) (h6 : x6 = γ) :
    k0_pay1 (F := Ideal) (k0_pay2 (F := Ideal) x0) (k0_pay4 (F := Ideal) x0 x1 x2 x3 x4 x5 x6) j
      = Cert.Spec.edgeMsg hs hd a b β w γ i := by
  obtain ⟨p', q, rfl⟩ : ∃ (p' : Fin 4000) (q : Fin 64), j = ix2 p' q := ⟨j 0, j 1, eq_ix2 j⟩
  obtain ⟨e', q', rfl⟩ : ∃ (e' : Fin 800000) (q' : Fin 64), i = ix2 e' q' := ⟨i 0, i 1, eq_ix2 i⟩
  obtain rfl : p' = p := Fin.ext hp
  obtain rfl : e' = e := Fin.ext he
  obtain rfl : q = q' := Fin.ext hq
  rw [msg_apply, head_at hs hd a b β w γ x0 x1 x2 x3 x4 x5 x6 (ix2 p' 0) (ix2 e' 0) p' e' rfl rfl h0 h1 h2 h3 h4 h5 h6, h0]
  rfl
-- [end of the message part]

end Cert.KernelIdeal.RegionEdge0

end
-- ==== Proof.RegionEdge0.lean ====
/-
  The edge network's region: a grid of 200 points over the 800000 edges, 4000 edge rows per point.

  At each point the body reads rows 4000·t … 4000·t + 3999 of the two gathered arrays and the whole of the seven small
  arrays (two 64×64 weights, a bias row, two weight columns with their 1×1 biases), and writes blocks of rows
  4000·t …: the mean head and the log-scale head. A block's value at row p is the specification's at edge
  4000·t + p, so what point t writes back is block t of `Cert.Spec.edgeHead` (once per head) of the arrays the
  region is entered with; the 200 blocks cover each output array (row r is in the block of point r / 4000).
-- [the message part: only the kernel that also writes the messages has it]
  The third output is the message, `Cert.Spec.edgeMsg` of the same arrays, written back block by block in the same way.
-- [end of the message part]
-/
import proofs.«411890_j54623394070984_2_alg».proof.Proof.Gen.KernelIdeal.Frame
import proofs.«411890_j54623394070984_2_alg».proof.Proof.Spec
import proofs.«411890_j54623394070984_2_alg».proof.Proof.RegionEdge0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionEdge0

open Idealize.ShloMosaic Idealize.ShloMosaic.TcCoe Idealize.SL.Sem Cert.KernelIdeal Cert.KernelIdeal.Gen
open Idealize.ShloMosaic.ValueIdx
open Idealize.ShloMosaic.Pipeline (Dat)

theorem hz : (![0, 0] : Fin 2 → Nat) = fun _ => 0 := funext fun a => by fin_cases a <;> rfl

/-! ## Where each window's block sits, at every point of the grid -/

/-- The row windows of the two gathered inputs and of the two heads sit at block (t, 0). -/
theorem row_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

-- [the message part: only the kernel that also writes the messages has it]
/-- The message's row window sits at block (t, 0) too. -/
theorem msg_row_facts : ∀ t : Fin cfg0.N,
    win0_11.index t (0 : Fin 2) = t.val ∧ win0_11.index t (1 : Fin 2) = 0 :=
  (by decide +kernel : ∀ t : Fin grid0.N, _)
-- [end of the message part]

/-- The seven small windows are their whole arrays: block (0, 0) at every point. -/
theorem whole_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

variable (V : (c : Dev nD) → (b : Ref sig .tc) → Buf (Elt Ideal) ((c : Thread nD τ).loc b))

/-! ## The input blocks, read off their arrays -/

/-- The source window's block at point `t` holds rows 4000·t … of the gathered source rows. -/
theorem src_block (c : Dev nD) (t : Fin cfg0.N) (y : S4000x64.Idx) (i : S800000x64.Idx)
    (h0 : (i 0).val = t.val * 4000 + (y 0).val) (h1 : (i 1).val = (y 1).val) :
    (iblk0 V c 0 t : Vec Ideal S4000x64 .f32) y = (V c (Pipeline.arrRef spec0 0) : S800000x64.Idx → Elt Ideal .f32) i := by
  obtain ⟨e0, e1, -⟩ := row_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 4000 + 1 * (y 0).val = (i 0).val; omega
  | ⟨1, _⟩ => show win0_0.index t (1 : Fin 2) * 64 + 1 * (y 1).val = (i 1).val; omega

/-- The destination window's block at point `t` holds rows 4000·t … of the gathered destination rows. -/
theorem dst_block (c : Dev nD) (t : Fin cfg0.N) (y : S4000x64.Idx) (i : S800000x64.Idx)
    (h0 : (i 0).val = t.val * 4000 + (y 0).val) (h1 : (i 1).val = (y 1).val) :
    (iblk0 V c 1 t : Vec Ideal S4000x64 .f32) y = (V c (Pipeline.arrRef spec0 1) : S800000x64.Idx → Elt Ideal .f32) i := by
  obtain ⟨-, -, e0, e1, -⟩ := row_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 4000 + 1 * (y 0).val = (i 0).val; omega
  | ⟨1, _⟩ => show win0_1.index t (1 : Fin 2) * 64 + 1 * (y 1).val = (i 1).val; omega

/-- Window 2's block at every point is its whole array: the first half of the embedding weight. -/
theorem whole2 (c : Dev nD) (t : Fin cfg0.N) :
    (iblk0 V c 2 t : Vec Ideal S64x64 .f32) = (V c (Pipeline.arrRef spec0 2) : S64x64.Idx → Elt Ideal .f32) := by
  obtain ⟨e0, e1, -⟩ := whole_facts t
  funext y
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block at every point is its whole array: the second half of the embedding weight. -/
theorem whole3 (c : Dev nD) (t : Fin cfg0.N) :
    (iblk0 V c 3 t : Vec Ideal S64x64 .f32) = (V c (Pipeline.arrRef spec0 3) : S64x64.Idx → Elt Ideal .f32) := by
  obtain ⟨-, -, e0, e1, -⟩ := whole_facts t
  funext y
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4's block at every point is its whole array: the embedding bias row. -/
theorem whole4 (c : Dev nD) (t : Fin cfg0.N) :
    (iblk0 V c 4 t : Vec Ideal S1x64 .f32) = (V c (Pipeline.arrRef spec0 4) : S1x64.Idx → Elt Ideal .f32) := by
  obtain ⟨-, -, -, -, e0, e1, -⟩ := whole_facts t
  funext y
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block at every point is its whole array: the mean head's weight column. -/
theorem whole5 (c : Dev nD) (t : Fin cfg0.N) :
    (iblk0 V c 5 t : Vec Ideal S64x1 .f32) = (V c (Pipeline.arrRef spec0 5) : S64x1.Idx → Elt Ideal .f32) := by
  obtain ⟨-, -, -, -, -, -, e0, e1, -⟩ := whole_facts t
  funext y
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 64 + 1 * (y 0).val = (y 0).val; omega
  | ⟨1, _⟩ => show win0_5.index t (1 : Fin 2) * 1 + 1 * (y 1).val = (y 1).val; omega

/-- Window 6's block at every point is its whole array: the mean head's bias. -/
theorem whole6 (c : Dev nD) (t : Fin cfg0.N) :
    (iblk0 V c 6 t : Vec Ideal S1x1 .f32) = (V c (Pipeline.arrRef spec0 6) : S1x1.Idx → Elt Ideal .f32) := by
  obtain ⟨-, -, -, -, -, -, -, -, e0, e1, -⟩ := whole_facts t
  funext y
  unfold iblk0
  rw [View.read_apply]
  show V c (Pipeline.arrRef spec0 6) _ = V c (Pipeline.arrRef spec0 6) _
  congr 1
  funext a
  apply Fin.ext
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- Window 7's block at every point is its whole array: the log-scale head's weight column. -/
theorem whole7 (c : Dev nD) (t : Fin cfg0.N) :
    (iblk0 V c 7 t : Vec Ideal S64x1 .f32) = (V c (Pipeline.arrRef spec0 7) : S64x1.Idx → Elt Ideal .f32) := by
  obtain ⟨-, -, -, -, -, -, -, -, -, -, e0, e1, -⟩ := whole_facts t
  funext y
  unfold iblk0
  rw [View.read_apply]
  show V c (Pipeline.arrRef spec0 7) _ = V c (Pipeline.arrRef spec0 7) _
  congr 1
  funext a
  apply Fin.ext
  match a with
  | ⟨0, _⟩ => show win0_7.index t (0 : Fin 2) * 64 + 1 * (y 0).val = (y 0).val; omega
  | ⟨1, _⟩ => show win0_7.index t (1 : Fin 2) * 1 + 1 * (y 1).val = (y 1).val; omega

/-- Window 8's block at every point is its whole array: the log-scale head's bias. -/
theorem whole8 (c : Dev nD) (t : Fin cfg0.N) :
    (iblk0 V c 8 t : Vec Ideal S1x1 .f32) = (V c (Pipeline.arrRef spec0 8) : S1x1.Idx → Elt Ideal .f32) := by
  obtain ⟨-, -, -, -, -, -, -, -, -, -, -, -, e0, e1⟩ := whole_facts t
  funext y
  unfold iblk0
  rw [View.read_apply]
  show V c (Pipeline.arrRef spec0 8) _ = V c (Pipeline.arrRef spec0 8) _
  congr 1
  funext a
  apply Fin.ext
  match a with
  | ⟨0, _⟩ => show win0_8.index t (0 : Fin 2) * 1 + 1 * (y 0).val = (y 0).val; omega
  | ⟨1, _⟩ => show win0_8.index t (1 : Fin 2) * 1 + 1 * (y 1).val = (y 1).val; omega

/-! ## Output window 9: the mean head -/

/-- Window 9's block at point `t`, read off any array, holds the array's rows 4000·t … . -/
theorem out9_block (G : S800000x1.Idx → Elt Ideal .f32) (t : Fin cfg0.N) (y : S4000x1.Idx) (i : S800000x1.Idx)
    (h0 : (i 0).val = t.val * 4000 + (y 0).val) (h1 : (i 1).val = (y 1).val) :
    (((cfg0.win 9).blk t).view.read (Elt Ideal) G : Vec Ideal S4000x1 .f32) y = G i := by
  obtain ⟨-, -, -, -, e0, e1, -⟩ := row_facts t
  rw [View.read_apply]
  show G _ = G _
  congr 1
  funext a
  apply Fin.ext
  match a with
  | ⟨0, _⟩ => show win0_9.index t (0 : Fin 2) * 4000 + 1 * (y 0).val = (i 0).val; omega
  | ⟨1, _⟩ => show win0_9.index t (1 : Fin 2) * 1 + 1 * (y 1).val = (i 1).val; omega

/-- What point `t` writes back to window 9 is block `t` of the mean head of the arrays as the region finds them. -/
theorem flushed9_eq (c : Dev nD) (t : Fin cfg0.N) :
    (dat0 (F := Ideal) V c).flushed 9 t = ((cfg0.win 9).blk t).view.read (Elt Ideal)
      (Cert.Spec.edgeHead (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6))) := by
  show (cfg0.win 9).cut (grid0.coords t) ((dat0 V c).after 9 t) = _
  rw [after0_9]
  unfold out0_9
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid0.N := t.isLt
  rw [N_0] at ht
  funext j
  have hj0 : (j 0).val < 4000 := (j 0).isLt
  have hj1 : (j 1).val < 1 := (j 1).isLt
  refine (head_at (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)) (V c (Pipeline.arrRef spec0 6))
      (iblk0 V c 0 t) (iblk0 V c 1 t) (iblk0 V c 2 t) (iblk0 V c 3 t) (iblk0 V c 4 t) (iblk0 V c 5 t) (iblk0 V c 6 t)
      ((cfg0.win 9).xinj (grid0.coords t) j) (ix2 (⟨t.val * 4000 + (j 0).val, by omega⟩ : Fin 800000) (⟨(j 1).val, hj1⟩ : Fin 1))
      ⟨(j 0).val, hj0⟩ ⟨t.val * 4000 + (j 0).val, by omega⟩ rfl rfl
      (fun k => src_block V c t _ _ rfl rfl) (fun k => dst_block V c t _ _ rfl rfl)
      (whole2 V c t) (whole3 V c t) (whole4 V c t) (whole5 V c t) (whole6 V c t)).trans ?_
  exact (out9_block _ t j _ rfl rfl).symm

/-- An index of window 9's array is in point `t`'s block iff each coordinate is in the block's range on its axis. -/
theorem mem_blk9 (t : Fin cfg0.N) (i : S800000x1.Idx) :
    i ∈ ((cfg0.win 9).blk t).view.set ↔ ∀ a : Fin 2, win0_9.index t a * S4000x1.size a ≤ (i a).val ∧ (i a).val < win0_9.index t a * S4000x1.size a + S4000x1.size a := by
  show i ∈ ((View.whole main_v15_0).slice (win0_9.rect t)).set ↔ _
  rw [View.set_slice_whole, Rect.mem_set_unit]
  exact Iff.rfl

/-- Row `r` of window 9's array lies in the block of point `r / 4000`, and every point writes back. -/
theorem cover9 (i : S800000x1.Idx) : ∃ t : Fin cfg0.N, (cfg0.win 9).flush t = true ∧ i ∈ ((cfg0.win 9).blk t).view.set := by
  have hi0 : (i 0).val < 800000 := (i 0).isLt
  have hi1 : (i 1).val < 1 := (i 1).isLt
  have hN : grid0.N = 200 := N_0
  have hlt : (i 0).val / 4000 < grid0.N := by rw [hN]; omega
  obtain ⟨-, -, -, -, e0, e1, -⟩ := row_facts ⟨(i 0).val / 4000, hlt⟩
  refine ⟨⟨(i 0).val / 4000, hlt⟩, flush0_9 _, ?_⟩
  rw [mem_blk9]
  intro a
  match a with
  | ⟨0, _⟩ =>
    show win0_9.index ⟨(i 0).val / 4000, hlt⟩ (0 : Fin 2) * 4000 ≤ (i 0).val ∧ (i 0).val < win0_9.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, hlt⟩ (1 : Fin 2) * 1 ≤ (i 1).val ∧ (i 1).val < win0_9.index ⟨(i 0).val / 4000, hlt⟩ (1 : Fin 2) * 1 + 1
    rw [e1]; omega

/-- After the region window 9's array is the mean head of the region's entry arrays: every point writes its block of it,
    and the 200 blocks cover the array. -/
theorem loc_arr (c : Dev nD) :
    (dat0 (F := Ideal) V c).arrAt 9 cfg0.N
      = Cert.Spec.edgeHead (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6)) :=
  (dat0 (F := Ideal) V c).arrAt_eq_of_cover 9
    (Cert.Spec.edgeHead (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6)))
    (fun t _ => flushed9_eq V c t) cover9

/-! ## Output window 10: the log-scale head -/

/-- Window 10's block at point `t`, read off any array, holds the array's rows 4000·t … . -/
theorem out10_block (G : S800000x1.Idx → Elt Ideal .f32) (t : Fin cfg0.N) (y : S4000x1.Idx) (i : S800000x1.Idx)
    (h0 : (i 0).val = t.val * 4000 + (y 0).val) (h1 : (i 1).val = (y 1).val) :
    (((cfg0.win 10).blk t).view.read (Elt Ideal) G : Vec Ideal S4000x1 .f32) y = G i := by
  obtain ⟨-, -, -, -, -, -, e0, e1⟩ := row_facts t
  rw [View.read_apply]
  show G _ = G _
  congr 1
  funext a
  apply Fin.ext
  match a with
  | ⟨0, _⟩ => show win0_10.index t (0 : Fin 2) * 4000 + 1 * (y 0).val = (i 0).val; omega
  | ⟨1, _⟩ => show win0_10.index t (1 : Fin 2) * 1 + 1 * (y 1).val = (i 1).val; omega

/-- What point `t` writes back to window 10 is block `t` of the log-scale head of the arrays as the region finds them. -/
theorem flushed10_eq (c : Dev nD) (t : Fin cfg0.N) :
    (dat0 (F := Ideal) V c).flushed 10 t = ((cfg0.win 10).blk t).view.read (Elt Ideal)
      (Cert.Spec.edgeHead (V c (Pipeline.arrRef spec0 0)) (V c (Pipeline.arrRef spec0 1)) (V c (Pipeline.arrRef spec0 2))
        (V c (Pipeline.arrRef spec0 3)) (V c (Pipeline.arrRef spec0 4)) (V c (Pipeline.arrRef spec0 7)) (V c (Pipeline.arrRef spec0 8))) := by
  show (cfg0.win 10).cut (grid0.coords t) ((dat0 V c).after 10 t) = _
  rw [after0_10]
  unfold out0_10
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid0.N := t.isLt
  rw [N_0] at ht
  funext j
  have hj0 : (j 0).val < 4000 := (j 0).isLt
  have hj1 : (j 1).val < 1 := (j 1).isLt
  refine (head2_at (V c (Pipeline.arrRef spec0 0)) (V c (Pipeline.arrRef spec0 1)) (V c (Pipeline.arrRef spec0 2))
      (V c (Pipeline.arrRef spec0 3)) (V c (Pipeline.arrRef spec0 4)) (V c (Pipeline.arrRef spec0 7)) (V c (Pipeline.arrRef spec0 8))
      (iblk0 V c 0 t) (iblk0 V c 1 t) (iblk0 V c 2 t) (iblk0 V c 3 t) (iblk0 V c 4 t) (iblk0 V c 7 t) (iblk0 V c 8 t)
      ((cfg0.win 10).xinj (grid0.coords t) j) (ix2 (⟨t.val * 4000 + (j 0).val, by omega⟩ : Fin 800000) (⟨(j 1).val, hj1⟩ : Fin 1))
      ⟨(j 0).val, hj0⟩ ⟨t.val * 4000 + (j 0).val, by omega⟩ rfl rfl
      (fun k => src_block V c t _ _ rfl rfl) (fun k => dst_block V c t _ _ rfl rfl)
      (whole2 V c t) (whole3 V c t) (whole4 V c t) (whole7 V c t) (whole8 V c t)).trans ?_
  exact (out10_block _ t j _ rfl rfl).symm

/-- An index of window 10's array is in point `t`'s block iff each coordinate is in the block's range on its axis. -/
theorem mem_blk10 (t : Fin cfg0.N) (i : S800000x1.Idx) :
    i ∈ ((cfg0.win 10).blk t).view.set ↔ ∀ a : Fin 2, win0_10.index t a * S4000x1.size a ≤ (i a).val ∧ (i a).val < win0_10.index t a * S4000x1.size a + S4000x1.size a := by
  show i ∈ ((View.whole main_v15_1).slice (win0_10.rect t)).set ↔ _
  rw [View.set_slice_whole, Rect.mem_set_unit]
  exact Iff.rfl

/-- Row `r` of window 10's array lies in the block of point `r / 4000`, and every point writes back. -/
theorem cover10 (i : S800000x1.Idx) : ∃ t : Fin cfg0.N, (cfg0.win 10).flush t = true ∧ i ∈ ((cfg0.win 10).blk t).view.set := by
  have hi0 : (i 0).val < 800000 := (i 0).isLt
  have hi1 : (i 1).val < 1 := (i 1).isLt
  have hN : grid0.N = 200 := N_0
  have hlt : (i 0).val / 4000 < grid0.N := by rw [hN]; omega
  obtain ⟨-, -, -, -, -, -, e0, e1⟩ := row_facts ⟨(i 0).val / 4000, hlt⟩
  refine ⟨⟨(i 0).val / 4000, hlt⟩, flush0_10 _, ?_⟩
  rw [mem_blk10]
  intro a
  match a with
  | ⟨0, _⟩ =>
    show win0_10.index ⟨(i 0).val / 4000, hlt⟩ (0 : Fin 2) * 4000 ≤ (i 0).val ∧ (i 0).val < win0_10.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_10.index ⟨(i 0).val / 4000, hlt⟩ (1 : Fin 2) * 1 ≤ (i 1).val ∧ (i 1).val < win0_10.index ⟨(i 0).val / 4000, hlt⟩ (1 : Fin 2) * 1 + 1
    rw [e1]; omega

/-- After the region window 10's array is the log-scale head of the region's entry arrays: every point writes its block of it,
    and the 200 blocks cover the array. -/
theorem ls_arr (c : Dev nD) :
    (dat0 (F := Ideal) V c).arrAt 10 cfg0.N
      = Cert.Spec.edgeHead (V c (Pipeline.arrRef spec0 0)) (V c (Pipeline.arrRef spec0 1)) (V c (Pipeline.arrRef spec0 2))
          (V c (Pipeline.arrRef spec0 3)) (V c (Pipeline.arrRef spec0 4)) (V c (Pipeline.arrRef spec0 7)) (V c (Pipeline.arrRef spec0 8)) :=
  (dat0 (F := Ideal) V c).arrAt_eq_of_cover 10
    (Cert.Spec.edgeHead (V c (Pipeline.arrRef spec0 0)) (V c (Pipeline.arrRef spec0 1)) (V c (Pipeline.arrRef spec0 2))
        (V c (Pipeline.arrRef spec0 3)) (V c (Pipeline.arrRef spec0 4)) (V c (Pipeline.arrRef spec0 7)) (V c (Pipeline.arrRef spec0 8)))
    (fun t _ => flushed10_eq V c t) cover10

-- [the message part: only the kernel that also writes the messages has it]
/-! ## Output window 11: the message -/

/-- Window 11's block at point `t`, read off any array, holds the array's rows 4000·t … . -/
theorem out11_block (G : S800000x64.Idx → Elt Ideal .f32) (t : Fin cfg0.N) (y : S4000x64.Idx) (i : S800000x64.Idx)
    (h0 : (i 0).val = t.val * 4000 + (y 0).val) (h1 : (i 1).val = (y 1).val) :
    (((cfg0.win 11).blk t).view.read (Elt Ideal) G : Vec Ideal S4000x64 .f32) y = G i := by
  obtain ⟨e0, e1⟩ := msg_row_facts t
  rw [View.read_apply]
  show G _ = G _
  congr 1
  funext a
  apply Fin.ext
  match a with
  | ⟨0, _⟩ => show win0_11.index t (0 : Fin 2) * 4000 + 1 * (y 0).val = (i 0).val; omega
  | ⟨1, _⟩ => show win0_11.index t (1 : Fin 2) * 64 + 1 * (y 1).val = (i 1).val; omega

/-- What point `t` writes back to window 11 is block `t` of the message of the arrays as the region finds them. -/
theorem flushed11_eq (c : Dev nD) (t : Fin cfg0.N) :
    (dat0 (F := Ideal) V c).flushed 11 t = ((cfg0.win 11).blk t).view.read (Elt Ideal)
      (Cert.Spec.edgeMsg (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6))) := by
  show (cfg0.win 11).cut (grid0.coords t) ((dat0 V c).after 11 t) = _
  rw [after0_11]
  unfold out0_11
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid0.N := t.isLt
  rw [N_0] at ht
  funext j
  have hj0 : (j 0).val < 4000 := (j 0).isLt
  have hj1 : (j 1).val < 64 := (j 1).isLt
  refine (msg_at (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)) (V c (Pipeline.arrRef spec0 6))
      (iblk0 V c 0 t) (iblk0 V c 1 t) (iblk0 V c 2 t) (iblk0 V c 3 t) (iblk0 V c 4 t) (iblk0 V c 5 t) (iblk0 V c 6 t)
      ((cfg0.win 11).xinj (grid0.coords t) j) (ix2 (⟨t.val * 4000 + (j 0).val, by omega⟩ : Fin 800000) (⟨(j 1).val, hj1⟩ : Fin 64))
      ⟨(j 0).val, hj0⟩ ⟨t.val * 4000 + (j 0).val, by omega⟩ rfl rfl rfl
      (fun k => src_block V c t _ _ rfl rfl) (fun k => dst_block V c t _ _ rfl rfl)
      (whole2 V c t) (whole3 V c t) (whole4 V c t) (whole5 V c t) (whole6 V c t)).trans ?_
  exact (out11_block _ t j _ rfl rfl).symm

/-- An index of window 11's array is in point `t`'s block iff each coordinate is in the block's range on its axis. -/
theorem mem_blk11 (t : Fin cfg0.N) (i : S800000x64.Idx) :
    i ∈ ((cfg0.win 11).blk t).view.set ↔ ∀ a : Fin 2, win0_11.index t a * S4000x64.size a ≤ (i a).val ∧ (i a).val < win0_11.index t a * S4000x64.size a + S4000x64.size a := by
  show i ∈ ((View.whole main_v15_2).slice (win0_11.rect t)).set ↔ _
  rw [View.set_slice_whole, Rect.mem_set_unit]
  exact Iff.rfl

/-- Row `r` of window 11's array lies in the block of point `r / 4000`, and every point writes back. -/
theorem cover11 (i : S800000x64.Idx) : ∃ t : Fin cfg0.N, (cfg0.win 11).flush t = true ∧ i ∈ ((cfg0.win 11).blk t).view.set := by
  have hi0 : (i 0).val < 800000 := (i 0).isLt
  have hi1 : (i 1).val < 64 := (i 1).isLt
  have hN : grid0.N = 200 := N_0
  have hlt : (i 0).val / 4000 < grid0.N := by rw [hN]; omega
  obtain ⟨e0, e1⟩ := msg_row_facts ⟨(i 0).val / 4000, hlt⟩
  refine ⟨⟨(i 0).val / 4000, hlt⟩, flush0_11 _, ?_⟩
  rw [mem_blk11]
  intro a
  match a with
  | ⟨0, _⟩ =>
    show win0_11.index ⟨(i 0).val / 4000, hlt⟩ (0 : Fin 2) * 4000 ≤ (i 0).val ∧ (i 0).val < win0_11.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_11.index ⟨(i 0).val / 4000, hlt⟩ (1 : Fin 2) * 64 ≤ (i 1).val ∧ (i 1).val < win0_11.index ⟨(i 0).val / 4000, hlt⟩ (1 : Fin 2) * 64 + 64
    rw [e1]; omega

/-- After the region window 11's array is the message of the region's entry arrays: every point writes its block of it,
    and the 200 blocks cover the array. -/
theorem msg_arr (c : Dev nD) :
    (dat0 (F := Ideal) V c).arrAt 11 cfg0.N
      = Cert.Spec.edgeMsg (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6)) :=
  (dat0 (F := Ideal) V c).arrAt_eq_of_cover 11
    (Cert.Spec.edgeMsg (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6)))
    (fun t _ => flushed11_eq V c t) cover11
-- [end of the message part]

end Cert.KernelIdeal.RegionEdge0

end
-- ==== Proof.RegionDense1.lean ====
/-
  The node layer's region: a grid of 5 points over the 50000 node rows, 10000 rows per point.

  At each point the body multiplies its block of rows by the whole 64×64 weight (one product into a zero accumulator),
  adds the bias row to every row and clips below at zero. Read at row p, column q of the block this is
    max (Σ_k x[p,k]·w[k,q] + β[0,q]) 0,
  and row p of the block at point t is row 10000·t + p of the node array, so what point t writes back is block t of
  the node layer `Cert.Spec.dense` of the arrays the region is entered with. The five blocks cover the output array
  (row r is in the block of point r / 10000), hence the array after the region is `Cert.Spec.dense` of those arrays.
-/
import proofs.«411890_j54623394070984_2_alg».proof.Proof.Gen.KernelIdeal.Frame
import proofs.«411890_j54623394070984_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionDense1

open Idealize.ShloMosaic Idealize.ShloMosaic.TcCoe Idealize.SL.Sem Cert.KernelIdeal Cert.KernelIdeal.Gen
open Idealize.ShloMosaic.ValueIdx
open Idealize.ShloMosaic.Pipeline (Dat)

/-! ## The block product at an index

The body multiplies a block of 10000 rows by the 64×64 weight, contracting the rows' axis 1 with the weight's axis 0.
Its left operand index at output index `i` and contraction index `q` is (i 0, q), its right operand index (q, i 1). -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at row `p` and column `q`: the row against the weight's column. -/
theorem product_apply {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of its block: the row of the node block against the weight's
    column, plus the bias row's entry, clipped below at zero (the format changes are the identity on extended reals). -/
theorem payload_apply (x0 : Vec Ideal S10000x64 .f32) (x1 : Vec Ideal S64x64 .f32) (x2 : Vec Ideal S1x64 .f32)
    (p : Fin 10000) (q : Fin 64) :
    k1_pay1 (F := Ideal) x0 x1 x2 (ix2 p q)
      = max ((∑ k : Fin 64, x0 (ix2 p k) * x1 (ix2 k q)) + x2 (ix2 (0 : Fin 1) q)) 0 := by
  unfold k1_pay1
  simp only [shapeCast_self]
  rw [maximumf_apply, addf_apply, broadcast_apply, product_apply, broadcastTo_1b_ab_apply]
  simp only [truncf_apply]
  rw [show (Scalar.ofBits (F := Ideal) .f32 0x00000000#32 : Ideal .f32) = 0 from Ideal.ofBits_zero_f32]

/-- One entry of the body's block, from the blocks' entries it depends on: if row `p` of the node block is row `r`
    of the node array, and the weight and bias blocks are the weight and bias arrays, the stored value at (`p`, `q`)
    is the node layer at (`r`, `q`). -/
theorem entry_eq (X : FVec Ideal Cert.Spec.SN64 .f32) (W : FVec Ideal Cert.Spec.SDD .f32) (B : FVec Ideal Cert.Spec.S1D .f32)
    (x0 : Vec Ideal S10000x64 .f32) (x1 : Vec Ideal S64x64 .f32) (x2 : Vec Ideal S1x64 .f32)
    (p : Fin 10000) (q : Fin 64) (r : Fin 50000)
    (h0 : ∀ k : Fin 64, x0 (ix2 p k) = X (ix2 r k))
    (h1 : ∀ k : Fin 64, x1 (ix2 k q) = W (ix2 k q))
    (h2 : x2 (ix2 (0 : Fin 1) q) = B (ix2 (0 : Fin 1) q)) :
    k1_pay1 (F := Ideal) x0 x1 x2 (ix2 p q) = Cert.Spec.dense X W B (ix2 r q) := by
  rw [payload_apply]
  simp only [h0, h1, h2]
  rfl

/-! ## From blocks to the array

Point `t` of the grid of 5 handles rows 10000·t … 10000·t + 9999: the node window and the output window sit at block
(t, 0), the weight and the bias windows are their whole arrays at every point. -/

theorem hz : (![0, 0] : Fin 2 → Nat) = fun _ => 0 := funext fun a => by fin_cases a <;> rfl

/-- The four windows' block indices at every point of the grid. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The node window's block at point `t` holds rows 10000·t … of the node array. -/
theorem rows_block (c : Dev nD) (t : Fin cfg1.N) (y : S10000x64.Idx) (i : S50000x64.Idx)
    (h0 : (i 0).val = t.val * 10000 + (y 0).val) (h1 : (i 1).val = (y 1).val) :
    (iblk1 V c 0 t : Vec Ideal S10000x64 .f32) y = (V c (Pipeline.arrRef spec1 0) : S50000x64.Idx → Elt Ideal .f32) i := by
  obtain ⟨e00, e01, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The weight window's block at every point is the whole weight. -/
theorem weight_block (c : Dev nD) (t : Fin cfg1.N) (y : S64x64.Idx) :
    (iblk1 V c 1 t : Vec Ideal S64x64 .f32) y = (V c (Pipeline.arrRef spec1 1) : S64x64.Idx → Elt Ideal .f32) y := by
  obtain ⟨-, -, e10, e11, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The bias window's block at every point is the whole bias row. -/
theorem bias_block (c : Dev nD) (t : Fin cfg1.N) (y : S1x64.Idx) :
    (iblk1 V c 2 t : Vec Ideal S1x64 .f32) y = (V c (Pipeline.arrRef spec1 2) : S1x64.Idx → Elt Ideal .f32) y := by
  obtain ⟨-, -, -, -, e20, e21, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The output window's block at point `t`, read off any array, holds the array's rows 10000·t … . -/
theorem out_block (G : S50000x64.Idx → Elt Ideal .f32) (t : Fin cfg1.N) (y : S10000x64.Idx) (i : S50000x64.Idx)
    (h0 : (i 0).val = t.val * 10000 + (y 0).val) (h1 : (i 1).val = (y 1).val) :
    (((cfg1.win 3).blk t).view.read (Elt Ideal) G : Vec Ideal S10000x64 .f32) y = G i := by
  obtain ⟨-, -, -, -, -, -, e30, e31⟩ := idx_facts t
  rw [View.read_apply]
  show G _ = G _
  congr 1
  funext a
  apply Fin.ext
  match a with
  | ⟨0, _⟩ => show win1_3.index t (0 : Fin 2) * 10000 + 1 * (y 0).val = (i 0).val; omega
  | ⟨1, _⟩ => show win1_3.index t (1 : Fin 2) * 64 + 1 * (y 1).val = (i 1).val; omega

/-- What point `t` writes back is block `t` of the node layer of the arrays as the region finds them. -/
theorem flushed_eq (c : Dev nD) (t : Fin cfg1.N) :
    (dat1 (F := Ideal) V c).flushed 3 t = ((cfg1.win 3).blk t).view.read (Elt Ideal)
      (Cert.Spec.dense (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  have ht : t.val < grid1.N := t.isLt
  rw [N_1] at ht
  funext j
  have hj0 : (j 0).val < 10000 := (j 0).isLt
  have hj1 : (j 1).val < 64 := (j 1).isLt
  refine Eq.trans (b := k1_pay1 (F := Ideal) (iblk1 V c 0 t) (iblk1 V c 1 t) (iblk1 V c 2 t) (ix2 (⟨(j 0).val, hj0⟩ : Fin 10000) (⟨(j 1).val, hj1⟩ : Fin 64))) ?_ ?_
  · exact congrArg (k1_pay1 (F := Ideal) (iblk1 V c 0 t) (iblk1 V c 1 t) (iblk1 V c 2 t)) (funext fun a => by
      match a with
      | ⟨0, _⟩ => rfl
      | ⟨1, _⟩ => rfl)
  refine (entry_eq (V c (Pipeline.arrRef spec1 0)) (V c (Pipeline.arrRef spec1 1)) (V c (Pipeline.arrRef spec1 2))
    (iblk1 V c 0 t) (iblk1 V c 1 t) (iblk1 V c 2 t) ⟨(j 0).val, hj0⟩ ⟨(j 1).val, hj1⟩ ⟨t.val * 10000 + (j 0).val, by omega⟩ ?_ ?_ ?_).trans ?_
  · intro k; exact rows_block V c t _ _ rfl rfl
  · intro k; exact weight_block V c t _
  · exact bias_block V c t _
  · exact (out_block _ t j _ rfl rfl).symm

/-- An index of the output array is in point `t`'s block iff each coordinate is in the block's range on its axis. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v22).slice (win1_3.rect t)).set ↔ _
  rw [View.set_slice_whole, Rect.mem_set_unit]
  exact Iff.rfl

/-- Row `r` of the output array lies in the block of point `r / 10000`, and every point writes back. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 5 := N_1
  have hlt : (i 0).val / 10000 < grid1.N := by rw [hN]; omega
  obtain ⟨-, -, -, -, -, -, e30, e31⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, hlt⟩ (1 : Fin 2) * 64 ≤ (i 1).val ∧ (i 1).val < win1_3.index ⟨(i 0).val / 10000, hlt⟩ (1 : Fin 2) * 64 + 64
    rw [e31]; omega

/-- After the region the output array is the node layer of the region's entry arrays: every point writes its block of
    it, and the five blocks cover the array. -/
theorem out_arr (c : Dev nD) :
    (dat1 (F := Ideal) V c).arrAt 3 cfg1.N
      = Cert.Spec.dense (V c (Pipeline.arrRef spec1 0)) (V c (Pipeline.arrRef spec1 1)) (V c (Pipeline.arrRef spec1 2)) :=
  (dat1 (F := Ideal) V c).arrAt_eq_of_cover 3
    (Cert.Spec.dense (V c (Pipeline.arrRef spec1 0)) (V c (Pipeline.arrRef spec1 1)) (V c (Pipeline.arrRef spec1 2)))
    (fun t _ => flushed_eq V c t) cover

end Cert.KernelIdeal.RegionDense1

end
-- ==== Proof.KStretchBase.lean ====
/-
  Two tools for reading a buffer after a stretch of host operations.

  Some operations of the program belong to a helper function called from the main one; their buffers carry the type of the
  value they hold, and a value passes into such a buffer and out of it again through a transport along the buffer's type
  equation. `ofBuf_toBuf` says the round trip is the identity, so the composition of the operations along a path can be
  read without the transports.

  A buffer that no operation of a stretch writes keeps its contents across the stretch: `after_skip` proves that, by
  comparing the buffer with each operation's result buffer.
-/
import proofs.«411890_j54623394070984_2_alg».proof.Proof.Gen.KernelIdeal.Launch
import proofs.«411890_j54623394070984_2_alg».proof.Proof.KVal
import Idealize.ShloMosaic.Lib.StableHlo.Run

set_option maxRecDepth 16384

noncomputable section

namespace Cert.KernelIdeal.KStretch

open Idealize.ShloMosaic Cert.KernelIdeal Cert.KernelIdeal.Gen
open Facts₀ Facts

/-- A value carried into a typed buffer and read back at the value's type is the value: the two transports along the
    buffer's type equation cancel. -/
theorem ofBuf_toBuf {sig : RefSig} {Val : EltTy → Type} {T : BufTy} (x : StableHlo.TRef sig T) (a : T.Contents Val) :
    x.ofBuf (x.toBuf a) = a := by
  obtain ⟨r, rfl, h2, h3⟩ := x
  rfl

/-- A buffer that no operation of the stretch writes holds after the stretch what it held before: the buffer differs
    from every operation's result buffer. Closes `StableHlo.after stretch v (Proc.devRef .tc b) = v (Proc.devRef .tc b)`. -/
macro "after_skip" "[" stretch:ident "]" : tactic =>
  `(tactic| (refine StableHlo.after_of_forall_not_mem _ _ (List.forall_iff_forall_mem.mp ?_)
             simp only [$stretch:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable (v : Valuation τ sig (Elt Ideal))

/-- The in-degree column survives the gather of the source rows. -/
theorem skip_v7_hostOps0_3 :
    StableHlo.after (hostOps0_3 (F := Ideal)) v (Proc.devRef .tc main_v7) = v (Proc.devRef .tc main_v7) := by
  after_skip [hostOps0_3]

/-- The first layer's output survives the gather of its own rows. -/
theorem skip_v22_hostOps2 :
    StableHlo.after (hostOps2 (F := Ideal)) v (Proc.devRef .tc main_v22) = v (Proc.devRef .tc main_v22) := by
  after_skip [hostOps2]

/-- The destination indices survive the loss's arithmetic. -/
theorem skip_arg12_hostOps5 :
    StableHlo.after (hostOps5 (F := Ideal)) v (Proc.devRef .tc main_arg12) = v (Proc.devRef .tc main_arg12) := by
  after_skip [hostOps5]

end Cert.KernelIdeal.KStretch

end
-- ==== Proof.KStretchA.lean ====
/-
  The host operations before and after the first region, read buffer by buffer for an arbitrary assignment `v` of
  contents to the buffers.

  Before the first region the program counts each node's incoming edges, clamps the count below by one and takes its
  reciprocal (`norm`); it gathers the input features at the source and at the destination indices of the true edges
  (`take`); and it re-lays the embedding weight and the biases (`we1`, `we2`, `row1`, `cell`). After the region, the edge
  messages are summed into their destination rows and scaled by that reciprocal (`agg`), and the first node layer's bias
  is laid out as a row. Each stretch is a straight line of operations, every one writing a buffer of its own, so a
  buffer's contents after the stretch are the composition of the operations on the path that leads to it.
-/
import proofs.«411890_j54623394070984_2_alg».proof.Proof.KStretchBase

set_option maxRecDepth 16384

noncomputable section

namespace Cert.KernelIdeal.KStretch

open Idealize.ShloMosaic Cert.KernelIdeal Cert.KernelIdeal.Gen
open Facts₀ Facts

variable (v : Valuation τ sig (Elt Ideal))

/-! ## The reciprocal clamped in-degree, stretch by stretch -/

/-- Ones scattered along the destination indices: each node's number of incoming edges. -/
theorem deg_v3 :
    StableHlo.after (hostOps0 (F := Ideal)) v (Proc.devRef .tc main_v3)
      = Host.scatterAdd scatter_S50000_S800000x1_S800000_n_0_0_1
          (broadcastInDim S50000 ![] Gen.bcast_S_S50000 (constant (F := Ideal) S_ .f32 0x00000000#32))
          (broadcastInDim S800000x1 ![0] Gen.bcast_S800000_S800000x1_0 (v (Proc.devRef .tc main_arg12)))
          (broadcastInDim S800000 ![] Gen.bcast_S_S800000 (constant (F := Ideal) S_ .f32 0x3F800000#32)) := by
  dsimp only [hostOps0]
  after_results_simp

/-- The lower clamp, one. -/
theorem one_cst_1 :
    StableHlo.after (hostOps0 (F := Ideal)) v (Proc.devRef .tc main_cst_1) = constant (F := Ideal) S_ .f32 0x3F800000#32 := by
  dsimp only [hostOps0]
  after_results_simp

/-- The in-degree clamped below by one. -/
theorem clamp_v4 :
    StableHlo.after (hostOps0_1 (F := Ideal)) v (Proc.devRef .tc main_v4)
      = (maximumf (broadcastInDim S50000 ![] Gen.bcast_S_S50000 (id (v (Proc.devRef .tc main_cst_1) : FVec Ideal S_ .f32)))
          (v (Proc.devRef .tc main_v3) : FVec Ideal S50000 .f32) : FVec Ideal S50000 .f32) := by
  dsimp only [hostOps0_1]
  after_results_simp
  simp only [ofBuf_toBuf]
  simp only [StableHlo.TRef.ofBuf, StableHlo.TRef.toBuf, cast_eq]

/-- One divided by the clamped in-degree, as a column. -/
theorem recip_v7 :
    StableHlo.after (hostOps0_2 (F := Ideal)) v (Proc.devRef .tc main_v7)
      = broadcastInDim S50000x1 ![0] Gen.bcast_S50000_S50000x1_0
          (Host.divf (broadcastInDim S50000 ![] Gen.bcast_S_S50000 (constant (F := Ideal) S_ .f32 0x3F800000#32))
            (v (Proc.devRef .tc main_v4))) := by
  dsimp only [hostOps0_2]
  after_results_simp

/-- The reciprocal clamped in-degree: ones scattered along the destination indices count each node's incoming edges,
    the count is clamped below by one, and one is divided by it; the result is laid out as a column. -/
theorem norm_v7 :
    StableHlo.after (hostOps0_2 (F := Ideal)) (StableHlo.after hostOps0_1 (StableHlo.after hostOps0 v)) (Proc.devRef .tc main_v7)
      = KVal.norm (v (Proc.devRef .tc main_arg12)) := by
  rw [recip_v7, clamp_v4, one_cst_1, deg_v3]
  unfold KVal.norm
  rfl

/-! ## The gathers and the re-laid weights before the first region -/

/-- The input features' rows at the source indices of the true edges. -/
theorem take_v8 :
    StableHlo.after (hostOps0_3 (F := Ideal)) v (Proc.devRef .tc main_v8)
      = KVal.take (v (Proc.devRef .tc main_arg0)) (v (Proc.devRef .tc main_arg11)) := by
  dsimp only [hostOps0_3]
  after_results_simp
  simp only [ofBuf_toBuf]
  simp only [StableHlo.TRef.ofBuf, StableHlo.TRef.toBuf, cast_eq]
  unfold KVal.take KVal.inb KVal.rows KVal.wrap
  rfl

/-- The input features' rows at the destination indices of the true edges. -/
theorem take_v9 :
    StableHlo.after (hostOps0_4 (F := Ideal)) v (Proc.devRef .tc main_v9)
      = KVal.take (v (Proc.devRef .tc main_arg0)) (v (Proc.devRef .tc main_arg12)) := by
  dsimp only [hostOps0_4]
  after_results_simp
  simp only [ofBuf_toBuf]
  simp only [StableHlo.TRef.ofBuf, StableHlo.TRef.toBuf, cast_eq]
  unfold KVal.take KVal.inb KVal.rows KVal.wrap
  rfl

/-- The upper half of the embedding weight, rows 0–63, for the first region. -/
theorem w_v10 :
    StableHlo.after (hostOps0_5 (F := Ideal)) v (Proc.devRef .tc main_v10)
      = KVal.we1 (v (Proc.devRef .tc main_arg5)) := by
  dsimp only [hostOps0_5]
  after_results_simp
  unfold KVal.we1
  rfl

/-- The lower half of the embedding weight, rows 64–127, for the first region. -/
theorem w_v11 :
    StableHlo.after (hostOps0_5 (F := Ideal)) v (Proc.devRef .tc main_v11)
      = KVal.we2 (v (Proc.devRef .tc main_arg5)) := by
  dsimp only [hostOps0_5]
  after_results_simp
  unfold KVal.we2
  rfl

/-- The embedding bias as a 1×64 row, for the first region. -/
theorem w_v12 :
    StableHlo.after (hostOps0_5 (F := Ideal)) v (Proc.devRef .tc main_v12)
      = KVal.row1 (v (Proc.devRef .tc main_arg6)) := by
  dsimp only [hostOps0_5]
  after_results_simp
  unfold KVal.row1
  rfl

/-- The mean head's bias as a 1×1 cell, for the first region. -/
theorem w_v13 :
    StableHlo.after (hostOps0_5 (F := Ideal)) v (Proc.devRef .tc main_v13)
      = KVal.cell (v (Proc.devRef .tc main_arg8)) := by
  dsimp only [hostOps0_5]
  after_results_simp
  unfold KVal.cell
  rfl

/-- The log-scale head's bias as a 1×1 cell, for the first region. -/
theorem w_v14 :
    StableHlo.after (hostOps0_5 (F := Ideal)) v (Proc.devRef .tc main_v14)
      = KVal.cell (v (Proc.devRef .tc main_arg10)) := by
  dsimp only [hostOps0_5]
  after_results_simp
  unfold KVal.cell
  rfl

/-! ## Between the first region and the first node layer -/

/-- The edge messages of the first layer summed into their destination rows and scaled by 1 / max(1, in-degree). -/
theorem agg_v20 :
    StableHlo.after (hostOps1 (F := Ideal)) v (Proc.devRef .tc main_v20)
      = KVal.agg (v (Proc.devRef .tc main_v15_2)) (v (Proc.devRef .tc main_arg12)) (v (Proc.devRef .tc main_v7)) := by
  dsimp only [hostOps1]
  after_results_simp
  unfold KVal.agg
  rfl

/-- The node layer's bias of the first layer as a 1×64 row. -/
theorem b_v21 :
    StableHlo.after (hostOps1 (F := Ideal)) v (Proc.devRef .tc main_v21)
      = KVal.row1 (v (Proc.devRef .tc main_arg2)) := by
  dsimp only [hostOps1]
  after_results_simp
  unfold KVal.row1
  rfl

end Cert.KernelIdeal.KStretch

end
-- ==== Proof.KValue1.lean ====
import proofs.«411890_j54623394070984_2_alg».proof.Proof.Gen.KernelIdeal.Frame
import proofs.«411890_j54623394070984_2_alg».proof.Proof.KVal
import proofs.«411890_j54623394070984_2_alg».proof.Proof.RegionEdge0
import proofs.«411890_j54623394070984_2_alg».proof.Proof.RegionDense1
import proofs.«411890_j54623394070984_2_alg».proof.Proof.KStretchA
import Idealize.ShloMosaic.Lib.StableHlo.Run

set_option maxRecDepth 16384

noncomputable section

namespace Cert.KernelIdeal.KValue1

open Idealize.ShloMosaic Idealize.ShloMosaic.TcCoe Idealize.SL.Sem Cert.KernelIdeal Cert.KernelIdeal.Gen

/-- A buffer that no operation of a host stretch writes keeps its contents through the stretch: the buffer is told apart,
    as a reference, from each operation's result. -/
macro "stretch_skip " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The fifteen argument buffers. -/
abbrev argRefs : List (Ref sig .tc) :=
  [main_arg0, main_arg1, main_arg2, main_arg3, main_arg4, main_arg5, main_arg6, main_arg7, main_arg8, main_arg9, main_arg10,
   main_arg11, main_arg12, main_arg13, main_arg14]

/-- Splitting a membership in `argRefs` into its fifteen cases. -/
macro "arg_cases " hb:ident : tactic => `(tactic|
  (simp only [argRefs, List.mem_cons, List.not_mem_nil, or_false] at $hb:ident
   rcases $hb:ident with h | h | h | h | h | h | h | h | h | h | h | h | h | h | h <;> subst h))

section Stretch

variable (v : Valuation τ sig (Elt Ideal))

/-! No host stretch of the first layer writes an argument buffer. -/

theorem skip0 : ∀ b ∈ argRefs, StableHlo.after (hostOps0 (F := Ideal)) v (Proc.devRef .tc b) = v (Proc.devRef .tc b) := by
  intro b hb; arg_cases hb
  all_goals stretch_skip hostOps0

theorem skip0_1 : ∀ b ∈ argRefs, StableHlo.after (hostOps0_1 (F := Ideal)) v (Proc.devRef .tc b) = v (Proc.devRef .tc b) := by
  intro b hb; arg_cases hb
  all_goals stretch_skip hostOps0_1

theorem skip0_2 : ∀ b ∈ argRefs, StableHlo.after (hostOps0_2 (F := Ideal)) v (Proc.devRef .tc b) = v (Proc.devRef .tc b) := by
  intro b hb; arg_cases hb
  all_goals stretch_skip hostOps0_2

theorem skip0_3 : ∀ b ∈ argRefs, StableHlo.after (hostOps0_3 (F := Ideal)) v (Proc.devRef .tc b) = v (Proc.devRef .tc b) := by
  intro b hb; arg_cases hb
  all_goals stretch_skip hostOps0_3

theorem skip0_4 : ∀ b ∈ argRefs, StableHlo.after (hostOps0_4 (F := Ideal)) v (Proc.devRef .tc b) = v (Proc.devRef .tc b) := by
  intro b hb; arg_cases hb
  all_goals stretch_skip hostOps0_4

theorem skip0_5 : ∀ b ∈ argRefs, StableHlo.after (hostOps0_5 (F := Ideal)) v (Proc.devRef .tc b) = v (Proc.devRef .tc b) := by
  intro b hb; arg_cases hb
  all_goals stretch_skip hostOps0_5

theorem skip1 : ∀ b ∈ argRefs, StableHlo.after (hostOps1 (F := Ideal)) v (Proc.devRef .tc b) = v (Proc.devRef .tc b) := by
  intro b hb; arg_cases hb
  all_goals stretch_skip hostOps1

end Stretch

variable (m : (ℓ : Loc nD τ sig) → Buf (Elt Ideal) ℓ) (ρ : Dev nD → PrngReg)

/-! ## The argument buffers hold their launch contents at every boundary of the first layer

A host stretch writes none of them; a region either does not own the buffer or reads it through an input window, and an
input window's array is left as entered. -/

theorem args0 (c : Dev nD) : ∀ b ∈ argRefs, W0 (F := Ideal) m ρ c (Proc.devRef .tc b) = m ((c : Thread nD τ).loc b) :=
  fun _ _ => rfl

theorem args1 (c : Dev nD) : ∀ b ∈ argRefs, W1 (F := Ideal) m ρ c (Proc.devRef .tc b) = m ((c : Thread nD τ).loc b) :=
  fun b hb => (skip0 _ b hb).trans (args0 m ρ c b hb)

theorem args2 (c : Dev nD) : ∀ b ∈ argRefs, W2 (F := Ideal) m ρ c (Proc.devRef .tc b) = m ((c : Thread nD τ).loc b) :=
  fun b hb => (skip0_1 _ b hb).trans (args1 m ρ c b hb)

theorem args3 (c : Dev nD) : ∀ b ∈ argRefs, W3 (F := Ideal) m ρ c (Proc.devRef .tc b) = m ((c : Thread nD τ).loc b) :=
  fun b hb => (skip0_2 _ b hb).trans (args2 m ρ c b hb)

theorem args4 (c : Dev nD) : ∀ b ∈ argRefs, W4 (F := Ideal) m ρ c (Proc.devRef .tc b) = m ((c : Thread nD τ).loc b) :=
  fun b hb => (skip0_3 _ b hb).trans (args3 m ρ c b hb)

theorem args5 (c : Dev nD) : ∀ b ∈ argRefs, W5 (F := Ideal) m ρ c (Proc.devRef .tc b) = m ((c : Thread nD τ).loc b) :=
  fun b hb => (skip0_4 _ b hb).trans (args4 m ρ c b hb)

theorem args6 (c : Dev nD) : ∀ b ∈ argRefs, W6 (F := Ideal) m ρ c (Proc.devRef .tc b) = m ((c : Thread nD τ).loc b) :=
  fun b hb => (skip0_5 _ b hb).trans (args5 m ρ c b hb)

/-- Region 0 reads two arguments (its windows 5 and 7, the two heads' weight columns) and owns no other. -/
theorem args7 (c : Dev nD) : ∀ b ∈ argRefs, W7 (F := Ideal) m ρ c (Proc.devRef .tc b) = m ((c : Thread nD τ).loc b) := by
  intro b hb
  refine Eq.trans ?_ (args6 m ρ c b hb)
  arg_cases hb
  all_goals first
    | exact W7_of_ne m ρ c _ (by decide)
    | exact (W7_arr m ρ c 5).trans (((dat0 (V6 m ρ) c).arrAt_in 5 rfl _).trans (A_eq0 (V6 m ρ) c 5))
    | exact (W7_arr m ρ c 7).trans (((dat0 (V6 m ρ) c).arrAt_in 7 rfl _).trans (A_eq0 (V6 m ρ) c 7))

theorem args8 (c : Dev nD) : ∀ b ∈ argRefs, W8 (F := Ideal) m ρ c (Proc.devRef .tc b) = m ((c : Thread nD τ).loc b) :=
  fun b hb => (skip1 _ b hb).trans (args7 m ρ c b hb)

/-- Region 1 reads one argument (its window 1, the node layer's weight) and owns no other. -/
theorem args9 (c : Dev nD) : ∀ b ∈ argRefs, W9 (F := Ideal) m ρ c (Proc.devRef .tc b) = m ((c : Thread nD τ).loc b) := by
  intro b hb
  refine Eq.trans ?_ (args8 m ρ c b hb)
  arg_cases hb
  all_goals first
    | exact W9_of_ne m ρ c _ (by decide)
    | exact (W9_arr m ρ c 1).trans (((dat1 (V8 m ρ) c).arrAt_in 1 rfl _).trans (A_eq1 (V8 m ρ) c 1))

/-! ## The degree normalisation: written by the third stretch, then untouched -/

theorem norm3 (c : Dev nD) : W3 (F := Ideal) m ρ c (Proc.devRef .tc main_v7) = KVal.norm (m ((c : Thread nD τ).loc main_arg12)) :=
  KStretch.norm_v7 (W0 (F := Ideal) m ρ c)

theorem norm4 (c : Dev nD) : W4 (F := Ideal) m ρ c (Proc.devRef .tc main_v7) = KVal.norm (m ((c : Thread nD τ).loc main_arg12)) :=
  Eq.trans (by stretch_skip hostOps0_3) (norm3 m ρ c)

theorem norm5 (c : Dev nD) : W5 (F := Ideal) m ρ c (Proc.devRef .tc main_v7) = KVal.norm (m ((c : Thread nD τ).loc main_arg12)) :=
  Eq.trans (by stretch_skip hostOps0_4) (norm4 m ρ c)

theorem norm6 (c : Dev nD) : W6 (F := Ideal) m ρ c (Proc.devRef .tc main_v7) = KVal.norm (m ((c : Thread nD τ).loc main_arg12)) :=
  Eq.trans (by stretch_skip hostOps0_5) (norm5 m ρ c)

theorem norm7 (c : Dev nD) : W7 (F := Ideal) m ρ c (Proc.devRef .tc main_v7) = KVal.norm (m ((c : Thread nD τ).loc main_arg12)) :=
  (W7_of_ne m ρ c main_v7 (by decide)).trans (norm6 m ρ c)

theorem norm8 (c : Dev nD) : W8 (F := Ideal) m ρ c (Proc.devRef .tc main_v7) = KVal.norm (m ((c : Thread nD τ).loc main_arg12)) :=
  Eq.trans (by stretch_skip hostOps1) (norm7 m ρ c)

theorem norm9 (c : Dev nD) : W9 (F := Ideal) m ρ c (Proc.devRef .tc main_v7) = KVal.norm (m ((c : Thread nD τ).loc main_arg12)) :=
  (W9_of_ne m ρ c main_v7 (by decide)).trans (norm8 m ρ c)

/-! ## Region 0's entry: the gathered rows, the halves of the embedding weight, its bias row, the head's bias cell -/

theorem v8_4 (c : Dev nD) : W4 (F := Ideal) m ρ c (Proc.devRef .tc main_v8)
    = KVal.take (m ((c : Thread nD τ).loc main_arg0)) (m ((c : Thread nD τ).loc main_arg11)) :=
  (KStretch.take_v8 (W3 (F := Ideal) m ρ c)).trans
    (congrArg₂ KVal.take (args3 m ρ c main_arg0 (by decide)) (args3 m ρ c main_arg11 (by decide)))

theorem v8_5 (c : Dev nD) : W5 (F := Ideal) m ρ c (Proc.devRef .tc main_v8)
    = KVal.take (m ((c : Thread nD τ).loc main_arg0)) (m ((c : Thread nD τ).loc main_arg11)) :=
  Eq.trans (by stretch_skip hostOps0_4) (v8_4 m ρ c)

theorem v8_6 (c : Dev nD) : W6 (F := Ideal) m ρ c (Proc.devRef .tc main_v8)
    = KVal.take (m ((c : Thread nD τ).loc main_arg0)) (m ((c : Thread nD τ).loc main_arg11)) :=
  Eq.trans (by stretch_skip hostOps0_5) (v8_5 m ρ c)

theorem v9_5 (c : Dev nD) : W5 (F := Ideal) m ρ c (Proc.devRef .tc main_v9)
    = KVal.take (m ((c : Thread nD τ).loc main_arg0)) (m ((c : Thread nD τ).loc main_arg12)) :=
  (KStretch.take_v9 (W4 (F := Ideal) m ρ c)).trans
    (congrArg₂ KVal.take (args4 m ρ c main_arg0 (by decide)) (args4 m ρ c main_arg12 (by decide)))

theorem v9_6 (c : Dev nD) : W6 (F := Ideal) m ρ c (Proc.devRef .tc main_v9)
    = KVal.take (m ((c : Thread nD τ).loc main_arg0)) (m ((c : Thread nD τ).loc main_arg12)) :=
  Eq.trans (by stretch_skip hostOps0_5) (v9_5 m ρ c)

theorem v10_6 (c : Dev nD) : W6 (F := Ideal) m ρ c (Proc.devRef .tc main_v10) = KVal.we1 (m ((c : Thread nD τ).loc main_arg5)) :=
  (KStretch.w_v10 (W5 (F := Ideal) m ρ c)).trans (congrArg KVal.we1 (args5 m ρ c main_arg5 (by decide)))

theorem v11_6 (c : Dev nD) : W6 (F := Ideal) m ρ c (Proc.devRef .tc main_v11) = KVal.we2 (m ((c : Thread nD τ).loc main_arg5)) :=
  (KStretch.w_v11 (W5 (F := Ideal) m ρ c)).trans (congrArg KVal.we2 (args5 m ρ c main_arg5 (by decide)))

theorem v12_6 (c : Dev nD) : W6 (F := Ideal) m ρ c (Proc.devRef .tc main_v12) = KVal.row1 (m ((c : Thread nD τ).loc main_arg6)) :=
  (KStretch.w_v12 (W5 (F := Ideal) m ρ c)).trans (congrArg KVal.row1 (args5 m ρ c main_arg6 (by decide)))

theorem v13_6 (c : Dev nD) : W6 (F := Ideal) m ρ c (Proc.devRef .tc main_v13) = KVal.cell (m ((c : Thread nD τ).loc main_arg8)) :=
  (KStretch.w_v13 (W5 (F := Ideal) m ρ c)).trans (congrArg KVal.cell (args5 m ρ c main_arg8 (by decide)))

/-! ## Region 0's message output, the aggregation, and region 1's output -/

/-- The messages along the true edges: region 0's third output is `edgeMsg` of its first seven windows as entered. -/
theorem msg7 (c : Dev nD) : W7 (F := Ideal) m ρ c (Proc.devRef .tc main_v15_2)
    = Cert.Spec.edgeMsg (KVal.take (m ((c : Thread nD τ).loc main_arg0)) (m ((c : Thread nD τ).loc main_arg11)))
        (KVal.take (m ((c : Thread nD τ).loc main_arg0)) (m ((c : Thread nD τ).loc main_arg12)))
        (KVal.we1 (m ((c : Thread nD τ).loc main_arg5))) (KVal.we2 (m ((c : Thread nD τ).loc main_arg5)))
        (KVal.row1 (m ((c : Thread nD τ).loc main_arg6))) (m ((c : Thread nD τ).loc main_arg7))
        (KVal.cell (m ((c : Thread nD τ).loc main_arg8))) := by
  refine (W7_arr m ρ c 11).trans ((RegionEdge0.msg_arr (V6 (F := Ideal) m ρ) c).trans ?_)
  show Cert.Spec.edgeMsg (W6 (F := Ideal) m ρ c (Proc.devRef .tc main_v8)) (W6 (F := Ideal) m ρ c (Proc.devRef .tc main_v9))
      (W6 (F := Ideal) m ρ c (Proc.devRef .tc main_v10)) (W6 (F := Ideal) m ρ c (Proc.devRef .tc main_v11))
      (W6 (F := Ideal) m ρ c (Proc.devRef .tc main_v12)) (W6 (F := Ideal) m ρ c (Proc.devRef .tc main_arg7))
      (W6 (F := Ideal) m ρ c (Proc.devRef .tc main_v13)) = _
  rw [v8_6 m ρ c, v9_6 m ρ c, v10_6 m ρ c, v11_6 m ρ c, v12_6 m ρ c, args6 m ρ c main_arg7 (by decide), v13_6 m ρ c]

theorem v20_8 (c : Dev nD) : W8 (F := Ideal) m ρ c (Proc.devRef .tc main_v20)
    = KVal.agg (Cert.Spec.edgeMsg (KVal.take (m ((c : Thread nD τ).loc main_arg0)) (m ((c : Thread nD τ).loc main_arg11)))
        (KVal.take (m ((c : Thread nD τ).loc main_arg0)) (m ((c : Thread nD τ).loc main_arg12)))
        (KVal.we1 (m ((c : Thread nD τ).loc main_arg5))) (KVal.we2 (m ((c : Thread nD τ).loc main_arg5)))
        (KVal.row1 (m ((c : Thread nD τ).loc main_arg6))) (m ((c : Thread nD τ).loc main_arg7))
        (KVal.cell (m ((c : Thread nD τ).loc main_arg8))))
      (m ((c : Thread nD τ).loc main_arg12)) (KVal.norm (m ((c : Thread nD τ).loc main_arg12))) := by
  refine (KStretch.agg_v20 (W7 (F := Ideal) m ρ c)).trans ?_
  rw [msg7 m ρ c, args7 m ρ c main_arg12 (by decide), norm7 m ρ c]

theorem v21_8 (c : Dev nD) : W8 (F := Ideal) m ρ c (Proc.devRef .tc main_v21) = KVal.row1 (m ((c : Thread nD τ).loc main_arg2)) :=
  (KStretch.b_v21 (W7 (F := Ideal) m ρ c)).trans (congrArg KVal.row1 (args7 m ρ c main_arg2 (by decide)))

/-- The first layer's output: region 1's output is the node layer of its three windows as entered. -/
theorem h1_9 (c : Dev nD) :
    W9 (F := Ideal) m ρ c (Proc.devRef .tc main_v22) = KVal.layer (m ((c : Thread nD τ).loc main_arg5)) (m ((c : Thread nD τ).loc main_arg6)) (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg11)) (m ((c : Thread nD τ).loc main_arg12)) := by
  refine (W9_arr m ρ c 3).trans ((RegionDense1.out_arr (V8 (F := Ideal) m ρ) c).trans ?_)
  show Cert.Spec.dense (W8 (F := Ideal) m ρ c (Proc.devRef .tc main_v20)) (W8 (F := Ideal) m ρ c (Proc.devRef .tc main_arg1))
      (W8 (F := Ideal) m ρ c (Proc.devRef .tc main_v21)) = _
  rw [v20_8 m ρ c, args8 m ρ c main_arg1 (by decide), v21_8 m ρ c]
  rfl

end Cert.KernelIdeal.KValue1

end
-- ==== Proof.KStretchB.lean ====
/-
  The host operations around the third and fourth regions, read buffer by buffer for an arbitrary assignment `v` of
  contents to the buffers.

  Before the third region the first layer's output is gathered at the source and at the destination indices of the true
  edges (`take`), and the embedding weight and the biases are re-laid (`we1`, `we2`, `row1`, `cell`). After it, the edge
  messages are summed into their destination rows and scaled by the reciprocal clamped in-degree (`agg`), and the second
  node layer's bias is laid out as a row. Each stretch is a straight line of operations, every one writing a buffer of
  its own, so a buffer's contents after the stretch are the composition of the operations on the path that leads to it.
-/
import proofs.«411890_j54623394070984_2_alg».proof.Proof.KStretchBase

set_option maxRecDepth 16384

noncomputable section

namespace Cert.KernelIdeal.KStretch

open Idealize.ShloMosaic Cert.KernelIdeal Cert.KernelIdeal.Gen
open Facts₀ Facts

variable (v : Valuation τ sig (Elt Ideal))

/-! ## Before the third region -/

/-- The first layer's rows at the source indices of the true edges. -/
theorem take_v23 :
    StableHlo.after (hostOps2 (F := Ideal)) v (Proc.devRef .tc main_v23)
      = KVal.take (v (Proc.devRef .tc main_v22)) (v (Proc.devRef .tc main_arg11)) := by
  dsimp only [hostOps2]
  after_results_simp
  simp only [ofBuf_toBuf]
  simp only [StableHlo.TRef.ofBuf, StableHlo.TRef.toBuf, cast_eq]
  unfold KVal.take KVal.inb KVal.rows KVal.wrap
  rfl

/-- The first layer's rows at the destination indices of the true edges. -/
theorem take_v24 :
    StableHlo.after (hostOps2_1 (F := Ideal)) v (Proc.devRef .tc main_v24)
      = KVal.take (v (Proc.devRef .tc main_v22)) (v (Proc.devRef .tc main_arg12)) := by
  dsimp only [hostOps2_1]
  after_results_simp
  simp only [ofBuf_toBuf]
  simp only [StableHlo.TRef.ofBuf, StableHlo.TRef.toBuf, cast_eq]
  unfold KVal.take KVal.inb KVal.rows KVal.wrap
  rfl

/-- The upper half of the embedding weight, rows 0–63, for the third region. -/
theorem w_v25 :
    StableHlo.after (hostOps2_2 (F := Ideal)) v (Proc.devRef .tc main_v25)
      = KVal.we1 (v (Proc.devRef .tc main_arg5)) := by
  dsimp only [hostOps2_2]
  after_results_simp
  unfold KVal.we1
  rfl

/-- The lower half of the embedding weight, rows 64–127, for the third region. -/
theorem w_v26 :
    StableHlo.after (hostOps2_2 (F := Ideal)) v (Proc.devRef .tc main_v26)
      = KVal.we2 (v (Proc.devRef .tc main_arg5)) := by
  dsimp only [hostOps2_2]
  after_results_simp
  unfold KVal.we2
  rfl

/-- The embedding bias as a 1×64 row, for the third region. -/
theorem w_v27 :
    StableHlo.after (hostOps2_2 (F := Ideal)) v (Proc.devRef .tc main_v27)
      = KVal.row1 (v (Proc.devRef .tc main_arg6)) := by
  dsimp only [hostOps2_2]
  after_results_simp
  unfold KVal.row1
  rfl

/-- The mean head's bias as a 1×1 cell, for the third region. -/
theorem w_v28 :
    StableHlo.after (hostOps2_2 (F := Ideal)) v (Proc.devRef .tc main_v28)
      = KVal.cell (v (Proc.devRef .tc main_arg8)) := by
  dsimp only [hostOps2_2]
  after_results_simp
  unfold KVal.cell
  rfl

/-- The log-scale head's bias as a 1×1 cell, for the third region. -/
theorem w_v29 :
    StableHlo.after (hostOps2_2 (F := Ideal)) v (Proc.devRef .tc main_v29)
      = KVal.cell (v (Proc.devRef .tc main_arg10)) := by
  dsimp only [hostOps2_2]
  after_results_simp
  unfold KVal.cell
  rfl

/-! ## Between the third region and the second node layer -/

/-- The edge messages of the second layer summed into their destination rows and scaled by 1 / max(1, in-degree). -/
theorem agg_v35 :
    StableHlo.after (hostOps3 (F := Ideal)) v (Proc.devRef .tc main_v35)
      = KVal.agg (v (Proc.devRef .tc main_v30_2)) (v (Proc.devRef .tc main_arg12)) (v (Proc.devRef .tc main_v7)) := by
  dsimp only [hostOps3]
  after_results_simp
  unfold KVal.agg
  rfl

/-- The node layer's bias of the second layer as a 1×64 row. -/
theorem b_v36 :
    StableHlo.after (hostOps3 (F := Ideal)) v (Proc.devRef .tc main_v36)
      = KVal.row1 (v (Proc.devRef .tc main_arg4)) := by
  dsimp only [hostOps3]
  after_results_simp
  unfold KVal.row1
  rfl

end Cert.KernelIdeal.KStretch

end
-- ==== Proof.RegionEdge2Pay.lean ====
/-
  One block of 4000 edges through the edge network, read index by index over the extended reals.

  The body's value at row p of the block: the hidden layer
    h(p, q) = max (Σ_k x0[p,k]·x2[k,q] + Σ_k x1[p,k]·x3[k,q] + x4[0,q]) 0,
  and a head  Σ_k h(p,k)·w[k,0] + g[0,0]  (once with the mean's weight column, once with the log-scale's).
  A product of a [4000,64] block with a [64,n] matrix into a zero accumulator is the plain sum over the 64 contracted
  coordinates; a change of float format is the identity; a [1,n] row spread over the block reads its one row.
-- [the message part: only the kernel that also writes the messages has it]
  The message is x0[p,q] · head(p): the [4000,1] column of heads spread over the 64 lanes reads its one column.
-- [end of the message part]
-/
import proofs.«411890_j54623394070984_2_alg».proof.Proof.Gen.KernelIdeal.Skeleton
import proofs.«411890_j54623394070984_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionEdge2

open Idealize.ShloMosaic Idealize.ShloMosaic.ValueIdx Cert.KernelIdeal Cert.KernelIdeal.Gen

/-! ## The two contractions, coordinate by coordinate -/

theorem lhs_sq_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_sq_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_sq_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_sq_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A [4000,64] block times a [64,64] matrix into the zero accumulator, at row `p`, column `q`. -/
theorem mm_sq_apply (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

theorem lhs_col_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs_col_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhs_col_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhs_col_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- A [4000,64] block times a [64,1] column into the zero accumulator, at row `p`. -/
theorem mm_col_apply (l : FVec Ideal S4000x64 .bf16) (r : FVec Ideal S64x1 .bf16) (p : Fin 4000) (q : Fin 1) :
    matmul dot_S4000x64_S64x1_S4000x1_1_0_0_1_n_n none l r (constant (F := Ideal) S4000x1 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x1_S4000x1_1_0_0_1_n_n 64 rfl rfl).symm]
  refine Finset.sum_congr rfl fun k _ => ?_
  have hk := ValueIdx.contrEquiv1_symm_val dot_S4000x64_S64x1_S4000x1_1_0_0_1_n_n 64 rfl rfl k
  have el : dot_S4000x64_S64x1_S4000x1_1_0_0_1_n_n.lhsIdx (ix2 p q) ((ValueIdx.contrEquiv1 dot_S4000x64_S64x1_S4000x1_1_0_0_1_n_n 64 rfl rfl).symm k) = ix2 p k := funext fun a => Fin.ext (by
    match a with
    | ⟨0, _⟩ => exact lhs_col_0 _ _
    | ⟨1, _⟩ => exact (lhs_col_1 _ _).trans hk)
  have er : dot_S4000x64_S64x1_S4000x1_1_0_0_1_n_n.rhsIdx (ix2 p q) ((ValueIdx.contrEquiv1 dot_S4000x64_S64x1_S4000x1_1_0_0_1_n_n 64 rfl rfl).symm k) = ix2 k q := funext fun a => Fin.ext (by
    match a with
    | ⟨0, _⟩ => exact (rhs_col_0 _ _).trans hk
    | ⟨1, _⟩ => exact rhs_col_1 _ _)
  rw [el, er]

-- [the message part: only the kernel that also writes the messages has it]
/-! ## A column spread over the lanes -/

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
-- [end of the message part]

/-! ## The body's values at an index -/

/-- The hidden layer of the block, at row `p`, unit `q`. -/
theorem hidden_apply (x0 x1 : Vec Ideal S4000x64 .f32) (x2 x3 : Vec Ideal S64x64 .f32) (x4 : Vec Ideal S1x64 .f32) (p : Fin 4000) (q : Fin 64) :
    k2_pay3 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q)) 0 := by
  unfold k2_pay3
  -- [the message part: only the kernel that also writes the messages has it]
  unfold k2_pay2
  dsimp only
  -- [end of the message part]
  simp only [shapeCast_self]
  rw [truncf_apply, maximumf_apply, addf_apply, addf_apply, mm_sq_apply, mm_sq_apply, broadcastTo_1b_ab_apply, broadcast_apply]
  simp only [truncf_apply, Ideal.ofBits_def, Ideal.ofBits_zero_f32]

/-- The mean head of the block, at row `p`. -/
theorem head_apply (x0 x1 : Vec Ideal S4000x64 .f32) (x2 x3 : Vec Ideal S64x64 .f32) (x4 : Vec Ideal S1x64 .f32) (x5 : Vec Ideal S64x1 .f32) (x6 : Vec Ideal S1x1 .f32) (p : Fin 4000) (r : Fin 1) :
    k2_pay4 (F := Ideal) x0 x1 x2 x3 x4 x5 x6 (ix2 p r)
      = (∑ k : Fin 64, k2_pay3 (F := Ideal) x0 x1 x2 x3 x4 (ix2 p k) * x5 (ix2 k r)) + x6 (ix2 (0 : Fin 1) r) := by
  unfold k2_pay4
  simp only [shapeCast_self]
  rw [addf_apply, mm_col_apply, broadcastTo_1b_ab_apply]
  simp only [truncf_apply]

/-- The log-scale head of the block, at row `p`. -/
theorem head2_apply (x0 x1 : Vec Ideal S4000x64 .f32) (x2 x3 : Vec Ideal S64x64 .f32) (x4 : Vec Ideal S1x64 .f32) (x7 : Vec Ideal S64x1 .f32) (x8 : Vec Ideal S1x1 .f32) (p : Fin 4000) (r : Fin 1) :
    k2_pay5 (F := Ideal) x0 x1 x2 x3 x4 x7 x8 (ix2 p r)
      = (∑ k : Fin 64, k2_pay3 (F := Ideal) x0 x1 x2 x3 x4 (ix2 p k) * x7 (ix2 k r)) + x8 (ix2 (0 : Fin 1) r) := by
  unfold k2_pay5
  simp only [shapeCast_self]
  rw [addf_apply, mm_col_apply, broadcastTo_1b_ab_apply]
  simp only [truncf_apply]

-- [the message part: only the kernel that also writes the messages has it]
/-- The message of the block, at row `p`, lane `q`: the source entry times the row's head. -/
theorem msg_apply (x0 : Vec Ideal S4000x64 .f32) (v30 : FVec Ideal S4000x1 .f32) (p : Fin 4000) (q : Fin 64) :
    k2_pay1 (F := Ideal) (k2_pay2 (F := Ideal) x0) v30 (ix2 p q) = x0 (ix2 p q) * v30 (ix2 p (0 : Fin 1)) := by
  unfold k2_pay1 k2_pay2
  dsimp only
  simp only [shapeCast_self]
  rw [mulf_apply, broadcastTo_a1_ab_apply]
-- [end of the message part]

/-! ## A block's values as the specification's, given where the block's rows sit in the arrays

Stated at any index `j` of the block and any index `i` of the array whose row coordinates are `p` and `e`. -/

/-- A head of the block at row `p` is the specification's head at edge `e`, when rows `p` of the two row blocks are
    rows `e` of the two gathered arrays and the whole-array windows hold their arrays. -/
theorem head_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x5 : Vec Ideal S64x1 .f32) (x6 : Vec Ideal S1x1 .f32)
    (j : S4000x1.Idx) (i : Cert.Spec.SE1.Idx) (p : Fin 4000) (e : Fin 800000) (hp : (j 0).val = p.val) (he : (i 0).val = e.val)
    (h0 : ∀ k : Fin 64, x0 (ix2 p k) = hs (ix2 e k)) (h1 : ∀ k : Fin 64, x1 (ix2 p k) = hd (ix2 e k))
    (h2 : x2 = a) (h3 : x3 = b) (h4 : x4 = β) (h5 : x5 = w) (h6 : x6 = γ) :
    k2_pay4 (F := Ideal) x0 x1 x2 x3 x4 x5 x6 j = Cert.Spec.edgeHead hs hd a b β w γ i := by
  subst h2 h3 h4 h5 h6
  obtain ⟨p', r, rfl⟩ : ∃ (p' : Fin 4000) (r : Fin 1), j = ix2 p' r := ⟨j 0, j 1, eq_ix2 j⟩
  obtain ⟨e', r', rfl⟩ : ∃ (e' : Fin 800000) (r' : Fin 1), i = ix2 e' r' := ⟨i 0, i 1, eq_ix2 i⟩
  obtain rfl : p' = p := Fin.ext hp
  obtain rfl : e' = e := Fin.ext he
  obtain rfl : r = 0 := Subsingleton.elim _ _
  obtain rfl : r' = 0 := Subsingleton.elim _ _
  rw [head_apply]
  simp only [hidden_apply, h0, h1]
  rfl

/-- The same for the second head (the kernel names it by another payload; the arithmetic is the same). -/
theorem head2_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x7 : Vec Ideal S64x1 .f32) (x8 : Vec Ideal S1x1 .f32)
    (j : S4000x1.Idx) (i : Cert.Spec.SE1.Idx) (p : Fin 4000) (e : Fin 800000) (hp : (j 0).val = p.val) (he : (i 0).val = e.val)
    (h0 : ∀ k : Fin 64, x0 (ix2 p k) = hs (ix2 e k)) (h1 : ∀ k : Fin 64, x1 (ix2 p k) = hd (ix2 e k))
    (h2 : x2 = a) (h3 : x3 = b) (h4 : x4 = β) (h7 : x7 = w) (h8 : x8 = γ) :
    k2_pay5 (F := Ideal) x0 x1 x2 x3 x4 x7 x8 j = Cert.Spec.edgeHead hs hd a b β w γ i := by
  subst h2 h3 h4 h7 h8
  obtain ⟨p', r, rfl⟩ : ∃ (p' : Fin 4000) (r : Fin 1), j = ix2 p' r := ⟨j 0, j 1, eq_ix2 j⟩
  obtain ⟨e', r', rfl⟩ : ∃ (e' : Fin 800000) (r' : Fin 1), i = ix2 e' r' := ⟨i 0, i 1, eq_ix2 i⟩
  obtain rfl : p' = p := Fin.ext hp
  obtain rfl : e' = e := Fin.ext he
  obtain rfl : r = 0 := Subsingleton.elim _ _
  obtain rfl : r' = 0 := Subsingleton.elim _ _
  rw [head2_apply]
  simp only [hidden_apply, h0, h1]
  rfl

-- [the message part: only the kernel that also writes the messages has it]
/-- The message of the block at row `p`, lane `q` is the specification's message at edge `e`, lane `q`. -/
theorem msg_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x5 : Vec Ideal S64x1 .f32) (x6 : Vec Ideal S1x1 .f32)
    (j : S4000x64.Idx) (i : Cert.Spec.SE64.Idx) (p : Fin 4000) (e : Fin 800000) (hp : (j 0).val = p.val) (he : (i 0).val = e.val)
    (hq : (j 1).val = (i 1).val)
    (h0 : ∀ k : Fin 64, x0 (ix2 p k) = hs (ix2 e k)) (h1 : ∀ k : Fin 64, x1 (ix2 p k) = hd (ix2 e k))
    (h2 : x2 = a) (h3 : x3 = b) (h4 : x4 = β) (h5 : x5 = w) (h6 : x6 = γ) :
    k2_pay1 (F := Ideal) (k2_pay2 (F := Ideal) x0) (k2_pay4 (F := Ideal) x0 x1 x2 x3 x4 x5 x6) j
      = Cert.Spec.edgeMsg hs hd a b β w γ i := by
  obtain ⟨p', q, rfl⟩ : ∃ (p' : Fin 4000) (q : Fin 64), j = ix2 p' q := ⟨j 0, j 1, eq_ix2 j⟩
  obtain ⟨e', q', rfl⟩ : ∃ (e' : Fin 800000) (q' : Fin 64), i = ix2 e' q' := ⟨i 0, i 1, eq_ix2 i⟩
  obtain rfl : p' = p := Fin.ext hp
  obtain rfl : e' = e := Fin.ext he
  obtain rfl : q = q' := Fin.ext hq
  rw [msg_apply, head_at hs hd a b β w γ x0 x1 x2 x3 x4 x5 x6 (ix2 p' 0) (ix2 e' 0) p' e' rfl rfl h0 h1 h2 h3 h4 h5 h6, h0]
  rfl
-- [end of the message part]

end Cert.KernelIdeal.RegionEdge2

end
-- ==== Proof.RegionEdge2.lean ====
/-
  The edge network's region: a grid of 200 points over the 800000 edges, 4000 edge rows per point.

  At each point the body reads rows 4000·t … 4000·t + 3999 of the two gathered arrays and the whole of the seven small
  arrays (two 64×64 weights, a bias row, two weight columns with their 1×1 biases), and writes blocks of rows
  4000·t …: the mean head and the log-scale head. A block's value at row p is the specification's at edge
  4000·t + p, so what point t writes back is block t of `Cert.Spec.edgeHead` (once per head) of the arrays the
  region is entered with; the 200 blocks cover each output array (row r is in the block of point r / 4000).
-- [the message part: only the kernel that also writes the messages has it]
  The third output is the message, `Cert.Spec.edgeMsg` of the same arrays, written back block by block in the same way.
-- [end of the message part]
-/
import proofs.«411890_j54623394070984_2_alg».proof.Proof.Gen.KernelIdeal.Frame
import proofs.«411890_j54623394070984_2_alg».proof.Proof.Spec
import proofs.«411890_j54623394070984_2_alg».proof.Proof.RegionEdge2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionEdge2

open Idealize.ShloMosaic Idealize.ShloMosaic.TcCoe Idealize.SL.Sem Cert.KernelIdeal Cert.KernelIdeal.Gen
open Idealize.ShloMosaic.ValueIdx
open Idealize.ShloMosaic.Pipeline (Dat)

theorem hz : (![0, 0] : Fin 2 → Nat) = fun _ => 0 := funext fun a => by fin_cases a <;> rfl

/-! ## Where each window's block sits, at every point of the grid -/

/-- The row windows of the two gathered inputs and of the two heads sit at block (t, 0). -/
theorem row_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

-- [the message part: only the kernel that also writes the messages has it]
/-- The message's row window sits at block (t, 0) too. -/
theorem msg_row_facts : ∀ t : Fin cfg2.N,
    win2_11.index t (0 : Fin 2) = t.val ∧ win2_11.index t (1 : Fin 2) = 0 :=
  (by decide +kernel : ∀ t : Fin grid2.N, _)
-- [end of the message part]

/-- The seven small windows are their whole arrays: block (0, 0) at every point. -/
theorem whole_facts : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

variable (V : (c : Dev nD) → (b : Ref sig .tc) → Buf (Elt Ideal) ((c : Thread nD τ).loc b))

/-! ## The input blocks, read off their arrays -/

/-- The source window's block at point `t` holds rows 4000·t … of the gathered source rows. -/
theorem src_block (c : Dev nD) (t : Fin cfg2.N) (y : S4000x64.Idx) (i : S800000x64.Idx)
    (h0 : (i 0).val = t.val * 4000 + (y 0).val) (h1 : (i 1).val = (y 1).val) :
    (iblk2 V c 0 t : Vec Ideal S4000x64 .f32) y = (V c (Pipeline.arrRef spec2 0) : S800000x64.Idx → Elt Ideal .f32) i := by
  obtain ⟨e0, e1, -⟩ := row_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 4000 + 1 * (y 0).val = (i 0).val; omega
  | ⟨1, _⟩ => show win2_0.index t (1 : Fin 2) * 64 + 1 * (y 1).val = (i 1).val; omega

/-- The destination window's block at point `t` holds rows 4000·t … of the gathered destination rows. -/
theorem dst_block (c : Dev nD) (t : Fin cfg2.N) (y : S4000x64.Idx) (i : S800000x64.Idx)
    (h0 : (i 0).val = t.val * 4000 + (y 0).val) (h1 : (i 1).val = (y 1).val) :
    (iblk2 V c 1 t : Vec Ideal S4000x64 .f32) y = (V c (Pipeline.arrRef spec2 1) : S800000x64.Idx → Elt Ideal .f32) i := by
  obtain ⟨-, -, e0, e1, -⟩ := row_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 4000 + 1 * (y 0).val = (i 0).val; omega
  | ⟨1, _⟩ => show win2_1.index t (1 : Fin 2) * 64 + 1 * (y 1).val = (i 1).val; omega

/-- Window 2's block at every point is its whole array: the first half of the embedding weight. -/
theorem whole2 (c : Dev nD) (t : Fin cfg2.N) :
    (iblk2 V c 2 t : Vec Ideal S64x64 .f32) = (V c (Pipeline.arrRef spec2 2) : S64x64.Idx → Elt Ideal .f32) := by
  obtain ⟨e0, e1, -⟩ := whole_facts t
  funext y
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's block at every point is its whole array: the second half of the embedding weight. -/
theorem whole3 (c : Dev nD) (t : Fin cfg2.N) :
    (iblk2 V c 3 t : Vec Ideal S64x64 .f32) = (V c (Pipeline.arrRef spec2 3) : S64x64.Idx → Elt Ideal .f32) := by
  obtain ⟨-, -, e0, e1, -⟩ := whole_facts t
  funext y
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4's block at every point is its whole array: the embedding bias row. -/
theorem whole4 (c : Dev nD) (t : Fin cfg2.N) :
    (iblk2 V c 4 t : Vec Ideal S1x64 .f32) = (V c (Pipeline.arrRef spec2 4) : S1x64.Idx → Elt Ideal .f32) := by
  obtain ⟨-, -, -, -, e0, e1, -⟩ := whole_facts t
  funext y
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Window 5's block at every point is its whole array: the mean head's weight column. -/
theorem whole5 (c : Dev nD) (t : Fin cfg2.N) :
    (iblk2 V c 5 t : Vec Ideal S64x1 .f32) = (V c (Pipeline.arrRef spec2 5) : S64x1.Idx → Elt Ideal .f32) := by
  obtain ⟨-, -, -, -, -, -, e0, e1, -⟩ := whole_facts t
  funext y
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 64 + 1 * (y 0).val = (y 0).val; omega
  | ⟨1, _⟩ => show win2_5.index t (1 : Fin 2) * 1 + 1 * (y 1).val = (y 1).val; omega

/-- Window 6's block at every point is its whole array: the mean head's bias. -/
theorem whole6 (c : Dev nD) (t : Fin cfg2.N) :
    (iblk2 V c 6 t : Vec Ideal S1x1 .f32) = (V c (Pipeline.arrRef spec2 6) : S1x1.Idx → Elt Ideal .f32) := by
  obtain ⟨-, -, -, -, -, -, -, -, e0, e1, -⟩ := whole_facts t
  funext y
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- Window 7's block at every point is its whole array: the log-scale head's weight column. -/
theorem whole7 (c : Dev nD) (t : Fin cfg2.N) :
    (iblk2 V c 7 t : Vec Ideal S64x1 .f32) = (V c (Pipeline.arrRef spec2 7) : S64x1.Idx → Elt Ideal .f32) := by
  obtain ⟨-, -, -, -, -, -, -, -, -, -, e0, e1, -⟩ := whole_facts t
  funext y
  unfold iblk2
  rw [View.read_apply]
  show V c (Pipeline.arrRef spec2 7) _ = V c (Pipeline.arrRef spec2 7) _
  congr 1
  funext a
  apply Fin.ext
  match a with
  | ⟨0, _⟩ => show win2_7.index t (0 : Fin 2) * 64 + 1 * (y 0).val = (y 0).val; omega
  | ⟨1, _⟩ => show win2_7.index t (1 : Fin 2) * 1 + 1 * (y 1).val = (y 1).val; omega

/-- Window 8's block at every point is its whole array: the log-scale head's bias. -/
theorem whole8 (c : Dev nD) (t : Fin cfg2.N) :
    (iblk2 V c 8 t : Vec Ideal S1x1 .f32) = (V c (Pipeline.arrRef spec2 8) : S1x1.Idx → Elt Ideal .f32) := by
  obtain ⟨-, -, -, -, -, -, -, -, -, -, -, -, e0, e1⟩ := whole_facts t
  funext y
  unfold iblk2
  rw [View.read_apply]
  show V c (Pipeline.arrRef spec2 8) _ = V c (Pipeline.arrRef spec2 8) _
  congr 1
  funext a
  apply Fin.ext
  match a with
  | ⟨0, _⟩ => show win2_8.index t (0 : Fin 2) * 1 + 1 * (y 0).val = (y 0).val; omega
  | ⟨1, _⟩ => show win2_8.index t (1 : Fin 2) * 1 + 1 * (y 1).val = (y 1).val; omega

/-! ## Output window 9: the mean head -/

/-- Window 9's block at point `t`, read off any array, holds the array's rows 4000·t … . -/
theorem out9_block (G : S800000x1.Idx → Elt Ideal .f32) (t : Fin cfg2.N) (y : S4000x1.Idx) (i : S800000x1.Idx)
    (h0 : (i 0).val = t.val * 4000 + (y 0).val) (h1 : (i 1).val = (y 1).val) :
    (((cfg2.win 9).blk t).view.read (Elt Ideal) G : Vec Ideal S4000x1 .f32) y = G i := by
  obtain ⟨-, -, -, -, e0, e1, -⟩ := row_facts t
  rw [View.read_apply]
  show G _ = G _
  congr 1
  funext a
  apply Fin.ext
  match a with
  | ⟨0, _⟩ => show win2_9.index t (0 : Fin 2) * 4000 + 1 * (y 0).val = (i 0).val; omega
  | ⟨1, _⟩ => show win2_9.index t (1 : Fin 2) * 1 + 1 * (y 1).val = (i 1).val; omega

/-- What point `t` writes back to window 9 is block `t` of the mean head of the arrays as the region finds them. -/
theorem flushed9_eq (c : Dev nD) (t : Fin cfg2.N) :
    (dat2 (F := Ideal) V c).flushed 9 t = ((cfg2.win 9).blk t).view.read (Elt Ideal)
      (Cert.Spec.edgeHead (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))) := by
  show (cfg2.win 9).cut (grid2.coords t) ((dat2 V c).after 9 t) = _
  rw [after2_9]
  unfold out2_9
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid2.N := t.isLt
  rw [N_2] at ht
  funext j
  have hj0 : (j 0).val < 4000 := (j 0).isLt
  have hj1 : (j 1).val < 1 := (j 1).isLt
  refine (head_at (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5)) (V c (Pipeline.arrRef spec2 6))
      (iblk2 V c 0 t) (iblk2 V c 1 t) (iblk2 V c 2 t) (iblk2 V c 3 t) (iblk2 V c 4 t) (iblk2 V c 5 t) (iblk2 V c 6 t)
      ((cfg2.win 9).xinj (grid2.coords t) j) (ix2 (⟨t.val * 4000 + (j 0).val, by omega⟩ : Fin 800000) (⟨(j 1).val, hj1⟩ : Fin 1))
      ⟨(j 0).val, hj0⟩ ⟨t.val * 4000 + (j 0).val, by omega⟩ rfl rfl
      (fun k => src_block V c t _ _ rfl rfl) (fun k => dst_block V c t _ _ rfl rfl)
      (whole2 V c t) (whole3 V c t) (whole4 V c t) (whole5 V c t) (whole6 V c t)).trans ?_
  exact (out9_block _ t j _ rfl rfl).symm

/-- An index of window 9's array is in point `t`'s block iff each coordinate is in the block's range on its axis. -/
theorem mem_blk9 (t : Fin cfg2.N) (i : S800000x1.Idx) :
    i ∈ ((cfg2.win 9).blk t).view.set ↔ ∀ a : Fin 2, win2_9.index t a * S4000x1.size a ≤ (i a).val ∧ (i a).val < win2_9.index t a * S4000x1.size a + S4000x1.size a := by
  show i ∈ ((View.whole main_v30_0).slice (win2_9.rect t)).set ↔ _
  rw [View.set_slice_whole, Rect.mem_set_unit]
  exact Iff.rfl

/-- Row `r` of window 9's array lies in the block of point `r / 4000`, and every point writes back. -/
theorem cover9 (i : S800000x1.Idx) : ∃ t : Fin cfg2.N, (cfg2.win 9).flush t = true ∧ i ∈ ((cfg2.win 9).blk t).view.set := by
  have hi0 : (i 0).val < 800000 := (i 0).isLt
  have hi1 : (i 1).val < 1 := (i 1).isLt
  have hN : grid2.N = 200 := N_2
  have hlt : (i 0).val / 4000 < grid2.N := by rw [hN]; omega
  obtain ⟨-, -, -, -, e0, e1, -⟩ := row_facts ⟨(i 0).val / 4000, hlt⟩
  refine ⟨⟨(i 0).val / 4000, hlt⟩, flush2_9 _, ?_⟩
  rw [mem_blk9]
  intro a
  match a with
  | ⟨0, _⟩ =>
    show win2_9.index ⟨(i 0).val / 4000, hlt⟩ (0 : Fin 2) * 4000 ≤ (i 0).val ∧ (i 0).val < win2_9.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_9.index ⟨(i 0).val / 4000, hlt⟩ (1 : Fin 2) * 1 ≤ (i 1).val ∧ (i 1).val < win2_9.index ⟨(i 0).val / 4000, hlt⟩ (1 : Fin 2) * 1 + 1
    rw [e1]; omega

/-- After the region window 9's array is the mean head of the region's entry arrays: every point writes its block of it,
    and the 200 blocks cover the array. -/
theorem loc_arr (c : Dev nD) :
    (dat2 (F := Ideal) V c).arrAt 9 cfg2.N
      = Cert.Spec.edgeHead (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)) :=
  (dat2 (F := Ideal) V c).arrAt_eq_of_cover 9
    (Cert.Spec.edgeHead (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)))
    (fun t _ => flushed9_eq V c t) cover9

/-! ## Output window 10: the log-scale head -/

/-- Window 10's block at point `t`, read off any array, holds the array's rows 4000·t … . -/
theorem out10_block (G : S800000x1.Idx → Elt Ideal .f32) (t : Fin cfg2.N) (y : S4000x1.Idx) (i : S800000x1.Idx)
    (h0 : (i 0).val = t.val * 4000 + (y 0).val) (h1 : (i 1).val = (y 1).val) :
    (((cfg2.win 10).blk t).view.read (Elt Ideal) G : Vec Ideal S4000x1 .f32) y = G i := by
  obtain ⟨-, -, -, -, -, -, e0, e1⟩ := row_facts t
  rw [View.read_apply]
  show G _ = G _
  congr 1
  funext a
  apply Fin.ext
  match a with
  | ⟨0, _⟩ => show win2_10.index t (0 : Fin 2) * 4000 + 1 * (y 0).val = (i 0).val; omega
  | ⟨1, _⟩ => show win2_10.index t (1 : Fin 2) * 1 + 1 * (y 1).val = (i 1).val; omega

/-- What point `t` writes back to window 10 is block `t` of the log-scale head of the arrays as the region finds them. -/
theorem flushed10_eq (c : Dev nD) (t : Fin cfg2.N) :
    (dat2 (F := Ideal) V c).flushed 10 t = ((cfg2.win 10).blk t).view.read (Elt Ideal)
      (Cert.Spec.edgeHead (V c (Pipeline.arrRef spec2 0)) (V c (Pipeline.arrRef spec2 1)) (V c (Pipeline.arrRef spec2 2))
        (V c (Pipeline.arrRef spec2 3)) (V c (Pipeline.arrRef spec2 4)) (V c (Pipeline.arrRef spec2 7)) (V c (Pipeline.arrRef spec2 8))) := by
  show (cfg2.win 10).cut (grid2.coords t) ((dat2 V c).after 10 t) = _
  rw [after2_10]
  unfold out2_10
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid2.N := t.isLt
  rw [N_2] at ht
  funext j
  have hj0 : (j 0).val < 4000 := (j 0).isLt
  have hj1 : (j 1).val < 1 := (j 1).isLt
  refine (head2_at (V c (Pipeline.arrRef spec2 0)) (V c (Pipeline.arrRef spec2 1)) (V c (Pipeline.arrRef spec2 2))
      (V c (Pipeline.arrRef spec2 3)) (V c (Pipeline.arrRef spec2 4)) (V c (Pipeline.arrRef spec2 7)) (V c (Pipeline.arrRef spec2 8))
      (iblk2 V c 0 t) (iblk2 V c 1 t) (iblk2 V c 2 t) (iblk2 V c 3 t) (iblk2 V c 4 t) (iblk2 V c 7 t) (iblk2 V c 8 t)
      ((cfg2.win 10).xinj (grid2.coords t) j) (ix2 (⟨t.val * 4000 + (j 0).val, by omega⟩ : Fin 800000) (⟨(j 1).val, hj1⟩ : Fin 1))
      ⟨(j 0).val, hj0⟩ ⟨t.val * 4000 + (j 0).val, by omega⟩ rfl rfl
      (fun k => src_block V c t _ _ rfl rfl) (fun k => dst_block V c t _ _ rfl rfl)
      (whole2 V c t) (whole3 V c t) (whole4 V c t) (whole7 V c t) (whole8 V c t)).trans ?_
  exact (out10_block _ t j _ rfl rfl).symm

/-- An index of window 10's array is in point `t`'s block iff each coordinate is in the block's range on its axis. -/
theorem mem_blk10 (t : Fin cfg2.N) (i : S800000x1.Idx) :
    i ∈ ((cfg2.win 10).blk t).view.set ↔ ∀ a : Fin 2, win2_10.index t a * S4000x1.size a ≤ (i a).val ∧ (i a).val < win2_10.index t a * S4000x1.size a + S4000x1.size a := by
  show i ∈ ((View.whole main_v30_1).slice (win2_10.rect t)).set ↔ _
  rw [View.set_slice_whole, Rect.mem_set_unit]
  exact Iff.rfl

/-- Row `r` of window 10's array lies in the block of point `r / 4000`, and every point writes back. -/
theorem cover10 (i : S800000x1.Idx) : ∃ t : Fin cfg2.N, (cfg2.win 10).flush t = true ∧ i ∈ ((cfg2.win 10).blk t).view.set := by
  have hi0 : (i 0).val < 800000 := (i 0).isLt
  have hi1 : (i 1).val < 1 := (i 1).isLt
  have hN : grid2.N = 200 := N_2
  have hlt : (i 0).val / 4000 < grid2.N := by rw [hN]; omega
  obtain ⟨-, -, -, -, -, -, e0, e1⟩ := row_facts ⟨(i 0).val / 4000, hlt⟩
  refine ⟨⟨(i 0).val / 4000, hlt⟩, flush2_10 _, ?_⟩
  rw [mem_blk10]
  intro a
  match a with
  | ⟨0, _⟩ =>
    show win2_10.index ⟨(i 0).val / 4000, hlt⟩ (0 : Fin 2) * 4000 ≤ (i 0).val ∧ (i 0).val < win2_10.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_10.index ⟨(i 0).val / 4000, hlt⟩ (1 : Fin 2) * 1 ≤ (i 1).val ∧ (i 1).val < win2_10.index ⟨(i 0).val / 4000, hlt⟩ (1 : Fin 2) * 1 + 1
    rw [e1]; omega

/-- After the region window 10's array is the log-scale head of the region's entry arrays: every point writes its block of it,
    and the 200 blocks cover the array. -/
theorem ls_arr (c : Dev nD) :
    (dat2 (F := Ideal) V c).arrAt 10 cfg2.N
      = Cert.Spec.edgeHead (V c (Pipeline.arrRef spec2 0)) (V c (Pipeline.arrRef spec2 1)) (V c (Pipeline.arrRef spec2 2))
          (V c (Pipeline.arrRef spec2 3)) (V c (Pipeline.arrRef spec2 4)) (V c (Pipeline.arrRef spec2 7)) (V c (Pipeline.arrRef spec2 8)) :=
  (dat2 (F := Ideal) V c).arrAt_eq_of_cover 10
    (Cert.Spec.edgeHead (V c (Pipeline.arrRef spec2 0)) (V c (Pipeline.arrRef spec2 1)) (V c (Pipeline.arrRef spec2 2))
        (V c (Pipeline.arrRef spec2 3)) (V c (Pipeline.arrRef spec2 4)) (V c (Pipeline.arrRef spec2 7)) (V c (Pipeline.arrRef spec2 8)))
    (fun t _ => flushed10_eq V c t) cover10

-- [the message part: only the kernel that also writes the messages has it]
/-! ## Output window 11: the message -/

/-- Window 11's block at point `t`, read off any array, holds the array's rows 4000·t … . -/
theorem out11_block (G : S800000x64.Idx → Elt Ideal .f32) (t : Fin cfg2.N) (y : S4000x64.Idx) (i : S800000x64.Idx)
    (h0 : (i 0).val = t.val * 4000 + (y 0).val) (h1 : (i 1).val = (y 1).val) :
    (((cfg2.win 11).blk t).view.read (Elt Ideal) G : Vec Ideal S4000x64 .f32) y = G i := by
  obtain ⟨e0, e1⟩ := msg_row_facts t
  rw [View.read_apply]
  show G _ = G _
  congr 1
  funext a
  apply Fin.ext
  match a with
  | ⟨0, _⟩ => show win2_11.index t (0 : Fin 2) * 4000 + 1 * (y 0).val = (i 0).val; omega
  | ⟨1, _⟩ => show win2_11.index t (1 : Fin 2) * 64 + 1 * (y 1).val = (i 1).val; omega

/-- What point `t` writes back to window 11 is block `t` of the message of the arrays as the region finds them. -/
theorem flushed11_eq (c : Dev nD) (t : Fin cfg2.N) :
    (dat2 (F := Ideal) V c).flushed 11 t = ((cfg2.win 11).blk t).view.read (Elt Ideal)
      (Cert.Spec.edgeMsg (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))) := by
  show (cfg2.win 11).cut (grid2.coords t) ((dat2 V c).after 11 t) = _
  rw [after2_11]
  unfold out2_11
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid2.N := t.isLt
  rw [N_2] at ht
  funext j
  have hj0 : (j 0).val < 4000 := (j 0).isLt
  have hj1 : (j 1).val < 64 := (j 1).isLt
  refine (msg_at (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5)) (V c (Pipeline.arrRef spec2 6))
      (iblk2 V c 0 t) (iblk2 V c 1 t) (iblk2 V c 2 t) (iblk2 V c 3 t) (iblk2 V c 4 t) (iblk2 V c 5 t) (iblk2 V c 6 t)
      ((cfg2.win 11).xinj (grid2.coords t) j) (ix2 (⟨t.val * 4000 + (j 0).val, by omega⟩ : Fin 800000) (⟨(j 1).val, hj1⟩ : Fin 64))
      ⟨(j 0).val, hj0⟩ ⟨t.val * 4000 + (j 0).val, by omega⟩ rfl rfl rfl
      (fun k => src_block V c t _ _ rfl rfl) (fun k => dst_block V c t _ _ rfl rfl)
      (whole2 V c t) (whole3 V c t) (whole4 V c t) (whole5 V c t) (whole6 V c t)).trans ?_
  exact (out11_block _ t j _ rfl rfl).symm

/-- An index of window 11's array is in point `t`'s block iff each coordinate is in the block's range on its axis. -/
theorem mem_blk11 (t : Fin cfg2.N) (i : S800000x64.Idx) :
    i ∈ ((cfg2.win 11).blk t).view.set ↔ ∀ a : Fin 2, win2_11.index t a * S4000x64.size a ≤ (i a).val ∧ (i a).val < win2_11.index t a * S4000x64.size a + S4000x64.size a := by
  show i ∈ ((View.whole main_v30_2).slice (win2_11.rect t)).set ↔ _
  rw [View.set_slice_whole, Rect.mem_set_unit]
  exact Iff.rfl

/-- Row `r` of window 11's array lies in the block of point `r / 4000`, and every point writes back. -/
theorem cover11 (i : S800000x64.Idx) : ∃ t : Fin cfg2.N, (cfg2.win 11).flush t = true ∧ i ∈ ((cfg2.win 11).blk t).view.set := by
  have hi0 : (i 0).val < 800000 := (i 0).isLt
  have hi1 : (i 1).val < 64 := (i 1).isLt
  have hN : grid2.N = 200 := N_2
  have hlt : (i 0).val / 4000 < grid2.N := by rw [hN]; omega
  obtain ⟨e0, e1⟩ := msg_row_facts ⟨(i 0).val / 4000, hlt⟩
  refine ⟨⟨(i 0).val / 4000, hlt⟩, flush2_11 _, ?_⟩
  rw [mem_blk11]
  intro a
  match a with
  | ⟨0, _⟩ =>
    show win2_11.index ⟨(i 0).val / 4000, hlt⟩ (0 : Fin 2) * 4000 ≤ (i 0).val ∧ (i 0).val < win2_11.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_11.index ⟨(i 0).val / 4000, hlt⟩ (1 : Fin 2) * 64 ≤ (i 1).val ∧ (i 1).val < win2_11.index ⟨(i 0).val / 4000, hlt⟩ (1 : Fin 2) * 64 + 64
    rw [e1]; omega

/-- After the region window 11's array is the message of the region's entry arrays: every point writes its block of it,
    and the 200 blocks cover the array. -/
theorem msg_arr (c : Dev nD) :
    (dat2 (F := Ideal) V c).arrAt 11 cfg2.N
      = Cert.Spec.edgeMsg (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)) :=
  (dat2 (F := Ideal) V c).arrAt_eq_of_cover 11
    (Cert.Spec.edgeMsg (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)))
    (fun t _ => flushed11_eq V c t) cover11
-- [end of the message part]

end Cert.KernelIdeal.RegionEdge2

end
-- ==== Proof.RegionDense3.lean ====
/-
  The node layer's region: a grid of 5 points over the 50000 node rows, 10000 rows per point.

  At each point the body multiplies its block of rows by the whole 64×64 weight (one product into a zero accumulator),
  adds the bias row to every row and clips below at zero. Read at row p, column q of the block this is
    max (Σ_k x[p,k]·w[k,q] + β[0,q]) 0,
  and row p of the block at point t is row 10000·t + p of the node array, so what point t writes back is block t of
  the node layer `Cert.Spec.dense` of the arrays the region is entered with. The five blocks cover the output array
  (row r is in the block of point r / 10000), hence the array after the region is `Cert.Spec.dense` of those arrays.
-/
import proofs.«411890_j54623394070984_2_alg».proof.Proof.Gen.KernelIdeal.Frame
import proofs.«411890_j54623394070984_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionDense3

open Idealize.ShloMosaic Idealize.ShloMosaic.TcCoe Idealize.SL.Sem Cert.KernelIdeal Cert.KernelIdeal.Gen
open Idealize.ShloMosaic.ValueIdx
open Idealize.ShloMosaic.Pipeline (Dat)

/-! ## The block product at an index

The body multiplies a block of 10000 rows by the 64×64 weight, contracting the rows' axis 1 with the weight's axis 0.
Its left operand index at output index `i` and contraction index `q` is (i 0, q), its right operand index (q, i 1). -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at row `p` and column `q`: the row against the weight's column. -/
theorem product_apply {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of its block: the row of the node block against the weight's
    column, plus the bias row's entry, clipped below at zero (the format changes are the identity on extended reals). -/
theorem payload_apply (x0 : Vec Ideal S10000x64 .f32) (x1 : Vec Ideal S64x64 .f32) (x2 : Vec Ideal S1x64 .f32)
    (p : Fin 10000) (q : Fin 64) :
    k3_pay1 (F := Ideal) x0 x1 x2 (ix2 p q)
      = max ((∑ k : Fin 64, x0 (ix2 p k) * x1 (ix2 k q)) + x2 (ix2 (0 : Fin 1) q)) 0 := by
  unfold k3_pay1
  simp only [shapeCast_self]
  rw [maximumf_apply, addf_apply, broadcast_apply, product_apply, broadcastTo_1b_ab_apply]
  simp only [truncf_apply]
  rw [show (Scalar.ofBits (F := Ideal) .f32 0x00000000#32 : Ideal .f32) = 0 from Ideal.ofBits_zero_f32]

/-- One entry of the body's block, from the blocks' entries it depends on: if row `p` of the node block is row `r`
    of the node array, and the weight and bias blocks are the weight and bias arrays, the stored value at (`p`, `q`)
    is the node layer at (`r`, `q`). -/
theorem entry_eq (X : FVec Ideal Cert.Spec.SN64 .f32) (W : FVec Ideal Cert.Spec.SDD .f32) (B : FVec Ideal Cert.Spec.S1D .f32)
    (x0 : Vec Ideal S10000x64 .f32) (x1 : Vec Ideal S64x64 .f32) (x2 : Vec Ideal S1x64 .f32)
    (p : Fin 10000) (q : Fin 64) (r : Fin 50000)
    (h0 : ∀ k : Fin 64, x0 (ix2 p k) = X (ix2 r k))
    (h1 : ∀ k : Fin 64, x1 (ix2 k q) = W (ix2 k q))
    (h2 : x2 (ix2 (0 : Fin 1) q) = B (ix2 (0 : Fin 1) q)) :
    k3_pay1 (F := Ideal) x0 x1 x2 (ix2 p q) = Cert.Spec.dense X W B (ix2 r q) := by
  rw [payload_apply]
  simp only [h0, h1, h2]
  rfl

/-! ## From blocks to the array

Point `t` of the grid of 5 handles rows 10000·t … 10000·t + 9999: the node window and the output window sit at block
(t, 0), the weight and the bias windows are their whole arrays at every point. -/

theorem hz : (![0, 0] : Fin 2 → Nat) = fun _ => 0 := funext fun a => by fin_cases a <;> rfl

/-- The four windows' block indices at every point of the grid. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The node window's block at point `t` holds rows 10000·t … of the node array. -/
theorem rows_block (c : Dev nD) (t : Fin cfg3.N) (y : S10000x64.Idx) (i : S50000x64.Idx)
    (h0 : (i 0).val = t.val * 10000 + (y 0).val) (h1 : (i 1).val = (y 1).val) :
    (iblk3 V c 0 t : Vec Ideal S10000x64 .f32) y = (V c (Pipeline.arrRef spec3 0) : S50000x64.Idx → Elt Ideal .f32) i := by
  obtain ⟨e00, e01, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 10000 + 1 * (y 0).val = (i 0).val; omega
  | ⟨1, _⟩ => show win3_0.index t (1 : Fin 2) * 64 + 1 * (y 1).val = (i 1).val; omega

/-- The weight window's block at every point is the whole weight. -/
theorem weight_block (c : Dev nD) (t : Fin cfg3.N) (y : S64x64.Idx) :
    (iblk3 V c 1 t : Vec Ideal S64x64 .f32) y = (V c (Pipeline.arrRef spec3 1) : S64x64.Idx → Elt Ideal .f32) y := by
  obtain ⟨-, -, e10, e11, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The bias window's block at every point is the whole bias row. -/
theorem bias_block (c : Dev nD) (t : Fin cfg3.N) (y : S1x64.Idx) :
    (iblk3 V c 2 t : Vec Ideal S1x64 .f32) y = (V c (Pipeline.arrRef spec3 2) : S1x64.Idx → Elt Ideal .f32) y := by
  obtain ⟨-, -, -, -, e20, e21, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The output window's block at point `t`, read off any array, holds the array's rows 10000·t … . -/
theorem out_block (G : S50000x64.Idx → Elt Ideal .f32) (t : Fin cfg3.N) (y : S10000x64.Idx) (i : S50000x64.Idx)
    (h0 : (i 0).val = t.val * 10000 + (y 0).val) (h1 : (i 1).val = (y 1).val) :
    (((cfg3.win 3).blk t).view.read (Elt Ideal) G : Vec Ideal S10000x64 .f32) y = G i := by
  obtain ⟨-, -, -, -, -, -, e30, e31⟩ := idx_facts t
  rw [View.read_apply]
  show G _ = G _
  congr 1
  funext a
  apply Fin.ext
  match a with
  | ⟨0, _⟩ => show win3_3.index t (0 : Fin 2) * 10000 + 1 * (y 0).val = (i 0).val; omega
  | ⟨1, _⟩ => show win3_3.index t (1 : Fin 2) * 64 + 1 * (y 1).val = (i 1).val; omega

/-- What point `t` writes back is block `t` of the node layer of the arrays as the region finds them. -/
theorem flushed_eq (c : Dev nD) (t : Fin cfg3.N) :
    (dat3 (F := Ideal) V c).flushed 3 t = ((cfg3.win 3).blk t).view.read (Elt Ideal)
      (Cert.Spec.dense (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x64) hz, View.ld_unit_zero (S := S1x64) hz]
  have ht : t.val < grid3.N := t.isLt
  rw [N_3] at ht
  funext j
  have hj0 : (j 0).val < 10000 := (j 0).isLt
  have hj1 : (j 1).val < 64 := (j 1).isLt
  refine Eq.trans (b := k3_pay1 (F := Ideal) (iblk3 V c 0 t) (iblk3 V c 1 t) (iblk3 V c 2 t) (ix2 (⟨(j 0).val, hj0⟩ : Fin 10000) (⟨(j 1).val, hj1⟩ : Fin 64))) ?_ ?_
  · exact congrArg (k3_pay1 (F := Ideal) (iblk3 V c 0 t) (iblk3 V c 1 t) (iblk3 V c 2 t)) (funext fun a => by
      match a with
      | ⟨0, _⟩ => rfl
      | ⟨1, _⟩ => rfl)
  refine (entry_eq (V c (Pipeline.arrRef spec3 0)) (V c (Pipeline.arrRef spec3 1)) (V c (Pipeline.arrRef spec3 2))
    (iblk3 V c 0 t) (iblk3 V c 1 t) (iblk3 V c 2 t) ⟨(j 0).val, hj0⟩ ⟨(j 1).val, hj1⟩ ⟨t.val * 10000 + (j 0).val, by omega⟩ ?_ ?_ ?_).trans ?_
  · intro k; exact rows_block V c t _ _ rfl rfl
  · intro k; exact weight_block V c t _
  · exact bias_block V c t _
  · exact (out_block _ t j _ rfl rfl).symm

/-- An index of the output array is in point `t`'s block iff each coordinate is in the block's range on its axis. -/
theorem mem_blk (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v37).slice (win3_3.rect t)).set ↔ _
  rw [View.set_slice_whole, Rect.mem_set_unit]
  exact Iff.rfl

/-- Row `r` of the output array lies in the block of point `r / 10000`, and every point writes back. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 5 := N_3
  have hlt : (i 0).val / 10000 < grid3.N := by rw [hN]; omega
  obtain ⟨-, -, -, -, -, -, e30, e31⟩ := idx_facts ⟨(i 0).val / 10000, hlt⟩
  refine ⟨⟨(i 0).val / 10000, hlt⟩, flush3_3 _, ?_⟩
  rw [mem_blk]
  intro a
  match a with
  | ⟨0, _⟩ =>
    show win3_3.index ⟨(i 0).val / 10000, hlt⟩ (0 : Fin 2) * 10000 ≤ (i 0).val ∧ (i 0).val < win3_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win3_3.index ⟨(i 0).val / 10000, hlt⟩ (1 : Fin 2) * 64 ≤ (i 1).val ∧ (i 1).val < win3_3.index ⟨(i 0).val / 10000, hlt⟩ (1 : Fin 2) * 64 + 64
    rw [e31]; omega

/-- After the region the output array is the node layer of the region's entry arrays: every point writes its block of
    it, and the five blocks cover the array. -/
theorem out_arr (c : Dev nD) :
    (dat3 (F := Ideal) V c).arrAt 3 cfg3.N
      = Cert.Spec.dense (V c (Pipeline.arrRef spec3 0)) (V c (Pipeline.arrRef spec3 1)) (V c (Pipeline.arrRef spec3 2)) :=
  (dat3 (F := Ideal) V c).arrAt_eq_of_cover 3
    (Cert.Spec.dense (V c (Pipeline.arrRef spec3 0)) (V c (Pipeline.arrRef spec3 1)) (V c (Pipeline.arrRef spec3 2)))
    (fun t _ => flushed_eq V c t) cover

end Cert.KernelIdeal.RegionDense3

end
-- ==== Proof.KValue2.lean ====
/-
  The second layer of the kernel program's run: the buffer contents at boundaries 10 … 15, relative to boundary 9.

  Nothing after boundary 9 writes an argument, the first layer's output h1 or the normaliser 1 / max(1, in-degree): a host
  stretch leaves every buffer outside its own results alone, and a region leaves alone what it does not own and what it
  only reads. The edge region therefore meets the rows of h1 taken at the true edges' source and destination indices, the
  two halves of the embedding weight, its bias row and the two heads' weights, and leaves the mean head, the log-scale
  head and the messages  msg(e, j) = hs[e, j] · head(e);  the messages are summed into their destination rows and scaled
  by the normaliser, and the node region leaves  h2(n, j) = max (Σ_k agg[n, k] · W[k, j] + b[j]) 0.
-/
import proofs.«411890_j54623394070984_2_alg».proof.Proof.Gen.KernelIdeal.Frame
import proofs.«411890_j54623394070984_2_alg».proof.Proof.KVal
import proofs.«411890_j54623394070984_2_alg».proof.Proof.KValue1
import proofs.«411890_j54623394070984_2_alg».proof.Proof.KStretchB
import proofs.«411890_j54623394070984_2_alg».proof.Proof.RegionEdge2
import proofs.«411890_j54623394070984_2_alg».proof.Proof.RegionDense3

set_option maxRecDepth 16384

noncomputable section

namespace Cert.KernelIdeal.KValue2

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

open Cert.KernelIdeal.KValue1 (argRefs)

open Cert.KernelIdeal.KStretch (take_v23 take_v24 w_v25 w_v26 w_v27 w_v28 w_v29 agg_v35 b_v36)

/-! ## What the four host stretches of the second layer write

Each stretch writes only its own temporaries and results; a buffer outside the list keeps its contents. -/

/-- The buffers written between boundaries 9 and 10 (the guarded gather at the source indices). -/
abbrev wr10 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v23]

/-- The buffers written between boundaries 10 and 11 (the guarded gather at the destination indices). -/
abbrev wr11 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v24]

/-- The buffers written between boundaries 11 and 12 (the re-laid weights). -/
abbrev wr12 : List (Ref sig .tc) := [main_v25, main_v26, main_v27, main_v28, main_v29]

/-- The buffers written between boundaries 13 and 14 (the aggregation and the bias row). -/
abbrev wr14 : List (Ref sig .tc) := [main_cst_4, main_v31, main_v32, main_v33, main_v34, main_v35, main_v36]

theorem wr10_sub : (hostOps2 : List (HloOp τ sig (Elt Ideal))).Forall
    fun op => op.writes ⊆ (wr10.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

theorem wr11_sub : (hostOps2_1 : List (HloOp τ sig (Elt Ideal))).Forall
    fun op => op.writes ⊆ (wr11.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

theorem wr12_sub : (hostOps2_2 : List (HloOp τ sig (Elt Ideal))).Forall
    fun op => op.writes ⊆ (wr12.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

theorem wr14_sub : (hostOps3 : List (HloOp τ sig (Elt Ideal))).Forall
    fun op => op.writes ⊆ (wr14.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write is the same at boundaries 9 and 10. -/
theorem W10_of (c : Dev nD) (b : Ref sig .tc) (hb : b ∉ wr10) :
    W10 (F := Ideal) m ρ c (Proc.devRef .tc b) = W9 (F := Ideal) m ρ c (Proc.devRef .tc b) :=
  StableHlo.after_of_writes_sub hostOps2 _ wr10_sub hb

theorem W11_of (c : Dev nD) (b : Ref sig .tc) (hb : b ∉ wr11) :
    W11 (F := Ideal) m ρ c (Proc.devRef .tc b) = W10 (F := Ideal) m ρ c (Proc.devRef .tc b) :=
  StableHlo.after_of_writes_sub hostOps2_1 _ wr11_sub hb

theorem W12_of (c : Dev nD) (b : Ref sig .tc) (hb : b ∉ wr12) :
    W12 (F := Ideal) m ρ c (Proc.devRef .tc b) = W11 (F := Ideal) m ρ c (Proc.devRef .tc b) :=
  StableHlo.after_of_writes_sub hostOps2_2 _ wr12_sub hb

theorem W14_of (c : Dev nD) (b : Ref sig .tc) (hb : b ∉ wr14) :
    W14 (F := Ideal) m ρ c (Proc.devRef .tc b) = W13 (F := Ideal) m ρ c (Proc.devRef .tc b) :=
  StableHlo.after_of_writes_sub hostOps3 _ wr14_sub hb

/-! ## The arguments through the second layer

No stretch writes an argument; a region either does not own it or reads it through an input window, which it leaves as
entered. -/

theorem args10 (c : Dev nD) : ∀ b ∈ argRefs, W10 (F := Ideal) m ρ c (Proc.devRef .tc b) = m ((c : Thread nD τ).loc b) :=
  fun b hb => (W10_of m ρ c b ((by decide : ∀ b ∈ argRefs, b ∉ wr10) b hb)).trans (KValue1.args9 m ρ c b hb)

theorem args11 (c : Dev nD) : ∀ b ∈ argRefs, W11 (F := Ideal) m ρ c (Proc.devRef .tc b) = m ((c : Thread nD τ).loc b) :=
  fun b hb => (W11_of m ρ c b ((by decide : ∀ b ∈ argRefs, b ∉ wr11) b hb)).trans (args10 m ρ c b hb)

theorem args12 (c : Dev nD) : ∀ b ∈ argRefs, W12 (F := Ideal) m ρ c (Proc.devRef .tc b) = m ((c : Thread nD τ).loc b) :=
  fun b hb => (W12_of m ρ c b ((by decide : ∀ b ∈ argRefs, b ∉ wr12) b hb)).trans (args11 m ρ c b hb)

/-- The edge region of the second layer leaves every argument as entered. -/
theorem args13_step (c : Dev nD) : ∀ b ∈ argRefs,
    W13 (F := Ideal) m ρ c (Proc.devRef .tc b) = W12 (F := Ideal) m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl
  all_goals first
    | exact W13_of_ne m ρ c _ (by decide)
    | exact (W13_arr m ρ c 5).trans (((dat2 (V12 m ρ) c).arrAt_in 5 rfl _).trans (A_eq2 (V12 m ρ) c 5))
    | exact (W13_arr m ρ c 7).trans (((dat2 (V12 m ρ) c).arrAt_in 7 rfl _).trans (A_eq2 (V12 m ρ) c 7))

theorem args13 (c : Dev nD) : ∀ b ∈ argRefs, W13 (F := Ideal) m ρ c (Proc.devRef .tc b) = m ((c : Thread nD τ).loc b) :=
  fun b hb => (args13_step m ρ c b hb).trans (args12 m ρ c b hb)

theorem args14 (c : Dev nD) : ∀ b ∈ argRefs, W14 (F := Ideal) m ρ c (Proc.devRef .tc b) = m ((c : Thread nD τ).loc b) :=
  fun b hb => (W14_of m ρ c b ((by decide : ∀ b ∈ argRefs, b ∉ wr14) b hb)).trans (args13 m ρ c b hb)

/-- The node region of the second layer leaves every argument as entered. -/
theorem args15_step (c : Dev nD) : ∀ b ∈ argRefs,
    W15 (F := Ideal) m ρ c (Proc.devRef .tc b) = W14 (F := Ideal) m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl
  all_goals first
    | exact W15_of_ne m ρ c _ (by decide)
    | exact (W15_arr m ρ c 1).trans (((dat3 (V14 m ρ) c).arrAt_in 1 rfl _).trans (A_eq3 (V14 m ρ) c 1))

theorem args15 (c : Dev nD) : ∀ b ∈ argRefs, W15 (F := Ideal) m ρ c (Proc.devRef .tc b) = m ((c : Thread nD τ).loc b) :=
  fun b hb => (args15_step m ρ c b hb).trans (args14 m ρ c b hb)

/-! ## The first layer's output and the normaliser are not written again -/

theorem h1_10 (c : Dev nD) : W10 (F := Ideal) m ρ c (Proc.devRef .tc main_v22) = W9 (F := Ideal) m ρ c (Proc.devRef .tc main_v22) :=
  W10_of m ρ c main_v22 (by decide)

theorem h1_13 (c : Dev nD) : W13 (F := Ideal) m ρ c (Proc.devRef .tc main_v22) = W9 (F := Ideal) m ρ c (Proc.devRef .tc main_v22) :=
  (W13_of_ne m ρ c main_v22 (by decide)).trans <| (W12_of m ρ c main_v22 (by decide)).trans <|
    (W11_of m ρ c main_v22 (by decide)).trans (h1_10 m ρ c)

theorem h1_15 (c : Dev nD) : W15 (F := Ideal) m ρ c (Proc.devRef .tc main_v22) = W9 (F := Ideal) m ρ c (Proc.devRef .tc main_v22) :=
  (W15_of_ne m ρ c main_v22 (by decide)).trans <| (W14_of m ρ c main_v22 (by decide)).trans (h1_13 m ρ c)

/-- The normaliser 1 / max(1, in-degree) still stands at the edge region's exit. -/
theorem norm13 (c : Dev nD) :
    W13 (F := Ideal) m ρ c (Proc.devRef .tc main_v7) = KVal.norm (m ((c : Thread nD τ).loc main_arg12)) :=
  (W13_of_ne m ρ c main_v7 (by decide)).trans <| (W12_of m ρ c main_v7 (by decide)).trans <|
    (W11_of m ρ c main_v7 (by decide)).trans <| (W10_of m ρ c main_v7 (by decide)).trans (KValue1.norm9 m ρ c)

/-! ## The edge region's inputs at its entry (boundary 12) -/

/-- Window 0: the rows of the first layer's output at the source indices. -/
theorem v23_12 (c : Dev nD) : W12 (F := Ideal) m ρ c (Proc.devRef .tc main_v23)
    = KVal.take (W9 (F := Ideal) m ρ c (Proc.devRef .tc main_v22)) (m ((c : Thread nD τ).loc main_arg11)) := by
  refine (W12_of m ρ c main_v23 (by decide)).trans <| (W11_of m ρ c main_v23 (by decide)).trans <|
    (take_v23 (W9 (F := Ideal) m ρ c)).trans ?_
  rw [KValue1.args9 m ρ c main_arg11 (by decide)]

/-- Window 1: the rows at the destination indices. -/
theorem v24_12 (c : Dev nD) : W12 (F := Ideal) m ρ c (Proc.devRef .tc main_v24)
    = KVal.take (W9 (F := Ideal) m ρ c (Proc.devRef .tc main_v22)) (m ((c : Thread nD τ).loc main_arg12)) := by
  refine (W12_of m ρ c main_v24 (by decide)).trans <| (take_v24 (W10 (F := Ideal) m ρ c)).trans ?_
  rw [h1_10 m ρ c, args10 m ρ c main_arg12 (by decide)]

theorem v25_12 (c : Dev nD) : W12 (F := Ideal) m ρ c (Proc.devRef .tc main_v25) = KVal.we1 (m ((c : Thread nD τ).loc main_arg5)) := by
  refine (w_v25 (W11 (F := Ideal) m ρ c)).trans ?_
  rw [args11 m ρ c main_arg5 (by decide)]

theorem v26_12 (c : Dev nD) : W12 (F := Ideal) m ρ c (Proc.devRef .tc main_v26) = KVal.we2 (m ((c : Thread nD τ).loc main_arg5)) := by
  refine (w_v26 (W11 (F := Ideal) m ρ c)).trans ?_
  rw [args11 m ρ c main_arg5 (by decide)]

theorem v27_12 (c : Dev nD) : W12 (F := Ideal) m ρ c (Proc.devRef .tc main_v27) = KVal.row1 (m ((c : Thread nD τ).loc main_arg6)) := by
  refine (w_v27 (W11 (F := Ideal) m ρ c)).trans ?_
  rw [args11 m ρ c main_arg6 (by decide)]

theorem v28_12 (c : Dev nD) : W12 (F := Ideal) m ρ c (Proc.devRef .tc main_v28) = KVal.cell (m ((c : Thread nD τ).loc main_arg8)) := by
  refine (w_v28 (W11 (F := Ideal) m ρ c)).trans ?_
  rw [args11 m ρ c main_arg8 (by decide)]

theorem v29_12 (c : Dev nD) : W12 (F := Ideal) m ρ c (Proc.devRef .tc main_v29) = KVal.cell (m ((c : Thread nD τ).loc main_arg10)) := by
  refine (w_v29 (W11 (F := Ideal) m ρ c)).trans ?_
  rw [args11 m ρ c main_arg10 (by decide)]

/-! ## The edge region's outputs at its exit (boundary 13)

Each output window holds the region's value at its nine inputs as they stood at entry. -/

/-- The mean head on the first layer's output at the true edges. -/
theorem loc2_13 (c : Dev nD) :
    W13 (F := Ideal) m ρ c (Proc.devRef .tc main_v30_0) = KVal.head (m ((c : Thread nD τ).loc main_arg5)) (m ((c : Thread nD τ).loc main_arg6)) (W9 (F := Ideal) m ρ c (Proc.devRef .tc main_v22)) (m ((c : Thread nD τ).loc main_arg11)) (m ((c : Thread nD τ).loc main_arg12)) (m ((c : Thread nD τ).loc main_arg7)) (m ((c : Thread nD τ).loc main_arg8)) := by
  have h : W13 (F := Ideal) m ρ c (Proc.devRef .tc main_v30_0)
      = Cert.Spec.edgeHead (W12 (F := Ideal) m ρ c (Proc.devRef .tc main_v23)) (W12 (F := Ideal) m ρ c (Proc.devRef .tc main_v24))
          (W12 (F := Ideal) m ρ c (Proc.devRef .tc main_v25)) (W12 (F := Ideal) m ρ c (Proc.devRef .tc main_v26))
          (W12 (F := Ideal) m ρ c (Proc.devRef .tc main_v27)) (W12 (F := Ideal) m ρ c (Proc.devRef .tc main_arg7))
          (W12 (F := Ideal) m ρ c (Proc.devRef .tc main_v28)) :=
    (W13_arr m ρ c 9).trans (RegionEdge2.loc_arr (V12 m ρ) c)
  rw [v23_12 m ρ c, v24_12 m ρ c, v25_12 m ρ c, v26_12 m ρ c, v27_12 m ρ c, args12 m ρ c main_arg7 (by decide), v28_12 m ρ c] at h
  exact h

/-- The log-scale head on the first layer's output at the true edges. -/
theorem ls2_13 (c : Dev nD) :
    W13 (F := Ideal) m ρ c (Proc.devRef .tc main_v30_1) = KVal.head (m ((c : Thread nD τ).loc main_arg5)) (m ((c : Thread nD τ).loc main_arg6)) (W9 (F := Ideal) m ρ c (Proc.devRef .tc main_v22)) (m ((c : Thread nD τ).loc main_arg11)) (m ((c : Thread nD τ).loc main_arg12)) (m ((c : Thread nD τ).loc main_arg9)) (m ((c : Thread nD τ).loc main_arg10)) := by
  have h : W13 (F := Ideal) m ρ c (Proc.devRef .tc main_v30_1)
      = Cert.Spec.edgeHead (W12 (F := Ideal) m ρ c (Proc.devRef .tc main_v23)) (W12 (F := Ideal) m ρ c (Proc.devRef .tc main_v24))
          (W12 (F := Ideal) m ρ c (Proc.devRef .tc main_v25)) (W12 (F := Ideal) m ρ c (Proc.devRef .tc main_v26))
          (W12 (F := Ideal) m ρ c (Proc.devRef .tc main_v27)) (W12 (F := Ideal) m ρ c (Proc.devRef .tc main_arg9))
          (W12 (F := Ideal) m ρ c (Proc.devRef .tc main_v29)) :=
    (W13_arr m ρ c 10).trans (RegionEdge2.ls_arr (V12 m ρ) c)
  rw [v23_12 m ρ c, v24_12 m ρ c, v25_12 m ρ c, v26_12 m ρ c, v27_12 m ρ c, args12 m ρ c main_arg9 (by decide), v29_12 m ρ c] at h
  exact h

/-- The messages along the true edges: each source row scaled by the mean head. -/
theorem msg2_13 (c : Dev nD) :
    W13 (F := Ideal) m ρ c (Proc.devRef .tc main_v30_2)
      = Cert.Spec.edgeMsg (KVal.take (W9 (F := Ideal) m ρ c (Proc.devRef .tc main_v22)) (m ((c : Thread nD τ).loc main_arg11)))
          (KVal.take (W9 (F := Ideal) m ρ c (Proc.devRef .tc main_v22)) (m ((c : Thread nD τ).loc main_arg12)))
          (KVal.we1 (m ((c : Thread nD τ).loc main_arg5))) (KVal.we2 (m ((c : Thread nD τ).loc main_arg5)))
          (KVal.row1 (m ((c : Thread nD τ).loc main_arg6))) (m ((c : Thread nD τ).loc main_arg7))
          (KVal.cell (m ((c : Thread nD τ).loc main_arg8))) := by
  have h : W13 (F := Ideal) m ρ c (Proc.devRef .tc main_v30_2)
      = Cert.Spec.edgeMsg (W12 (F := Ideal) m ρ c (Proc.devRef .tc main_v23)) (W12 (F := Ideal) m ρ c (Proc.devRef .tc main_v24))
          (W12 (F := Ideal) m ρ c (Proc.devRef .tc main_v25)) (W12 (F := Ideal) m ρ c (Proc.devRef .tc main_v26))
          (W12 (F := Ideal) m ρ c (Proc.devRef .tc main_v27)) (W12 (F := Ideal) m ρ c (Proc.devRef .tc main_arg7))
          (W12 (F := Ideal) m ρ c (Proc.devRef .tc main_v28)) :=
    (W13_arr m ρ c 11).trans (RegionEdge2.msg_arr (V12 m ρ) c)
  rw [v23_12 m ρ c, v24_12 m ρ c, v25_12 m ρ c, v26_12 m ρ c, v27_12 m ρ c, args12 m ρ c main_arg7 (by decide), v28_12 m ρ c] at h
  exact h

/-! ## The node region: its inputs at entry (boundary 14) and its output at exit (boundary 15) -/

/-- Window 0: the messages summed into their destination rows, each row scaled by the normaliser. -/
theorem v35_14 (c : Dev nD) :
    W14 (F := Ideal) m ρ c (Proc.devRef .tc main_v35)
      = KVal.agg (Cert.Spec.edgeMsg (KVal.take (W9 (F := Ideal) m ρ c (Proc.devRef .tc main_v22)) (m ((c : Thread nD τ).loc main_arg11)))
          (KVal.take (W9 (F := Ideal) m ρ c (Proc.devRef .tc main_v22)) (m ((c : Thread nD τ).loc main_arg12)))
          (KVal.we1 (m ((c : Thread nD τ).loc main_arg5))) (KVal.we2 (m ((c : Thread nD τ).loc main_arg5)))
          (KVal.row1 (m ((c : Thread nD τ).loc main_arg6))) (m ((c : Thread nD τ).loc main_arg7))
          (KVal.cell (m ((c : Thread nD τ).loc main_arg8))))
        (m ((c : Thread nD τ).loc main_arg12)) (KVal.norm (m ((c : Thread nD τ).loc main_arg12))) := by
  refine (agg_v35 (W13 (F := Ideal) m ρ c)).trans ?_
  rw [msg2_13 m ρ c, args13 m ρ c main_arg12 (by decide), norm13 m ρ c]

/-- Window 2: the second layer's bias as a row. -/
theorem v36_14 (c : Dev nD) :
    W14 (F := Ideal) m ρ c (Proc.devRef .tc main_v36) = KVal.row1 (m ((c : Thread nD τ).loc main_arg4)) := by
  refine (b_v36 (W13 (F := Ideal) m ρ c)).trans ?_
  rw [args13 m ρ c main_arg4 (by decide)]

theorem h2_15 (c : Dev nD) :
    W15 (F := Ideal) m ρ c (Proc.devRef .tc main_v37) = KVal.layer (m ((c : Thread nD τ).loc main_arg5)) (m ((c : Thread nD τ).loc main_arg6)) (m ((c : Thread nD τ).loc main_arg7)) (m ((c : Thread nD τ).loc main_arg8)) (W9 (F := Ideal) m ρ c (Proc.devRef .tc main_v22)) (m ((c : Thread nD τ).loc main_arg3)) (m ((c : Thread nD τ).loc main_arg4)) (m ((c : Thread nD τ).loc main_arg11)) (m ((c : Thread nD τ).loc main_arg12)) := by
  have h : W15 (F := Ideal) m ρ c (Proc.devRef .tc main_v37)
      = Cert.Spec.dense (W14 (F := Ideal) m ρ c (Proc.devRef .tc main_v35)) (W14 (F := Ideal) m ρ c (Proc.devRef .tc main_arg3))
          (W14 (F := Ideal) m ρ c (Proc.devRef .tc main_v36)) :=
    (W15_arr m ρ c 3).trans (RegionDense3.out_arr (V14 m ρ) c)
  rw [v35_14 m ρ c, args14 m ρ c main_arg3 (by decide), v36_14 m ρ c] at h
  exact h

theorem loc2_15 (c : Dev nD) :
    W15 (F := Ideal) m ρ c (Proc.devRef .tc main_v30_0) = KVal.head (m ((c : Thread nD τ).loc main_arg5)) (m ((c : Thread nD τ).loc main_arg6)) (W9 (F := Ideal) m ρ c (Proc.devRef .tc main_v22)) (m ((c : Thread nD τ).loc main_arg11)) (m ((c : Thread nD τ).loc main_arg12)) (m ((c : Thread nD τ).loc main_arg7)) (m ((c : Thread nD τ).loc main_arg8)) :=
  (W15_of_ne m ρ c main_v30_0 (by decide)).trans <| (W14_of m ρ c main_v30_0 (by decide)).trans (loc2_13 m ρ c)

theorem ls2_15 (c : Dev nD) :
    W15 (F := Ideal) m ρ c (Proc.devRef .tc main_v30_1) = KVal.head (m ((c : Thread nD τ).loc main_arg5)) (m ((c : Thread nD τ).loc main_arg6)) (W9 (F := Ideal) m ρ c (Proc.devRef .tc main_v22)) (m ((c : Thread nD τ).loc main_arg11)) (m ((c : Thread nD τ).loc main_arg12)) (m ((c : Thread nD τ).loc main_arg9)) (m ((c : Thread nD τ).loc main_arg10)) :=
  (W15_of_ne m ρ c main_v30_1 (by decide)).trans <| (W14_of m ρ c main_v30_1 (by decide)).trans (ls2_13 m ρ c)

end Cert.KernelIdeal.KValue2

end
-- ==== Proof.RegionEdge4Pay.lean ====
/-
  One block of 4000 edges through the edge network, read index by index over the extended reals.

  The body's value at row p of the block: the hidden layer
    h(p, q) = max (Σ_k x0[p,k]·x2[k,q] + Σ_k x1[p,k]·x3[k,q] + x4[0,q]) 0,
  and a head  Σ_k h(p,k)·w[k,0] + g[0,0]  (once with the mean's weight column, once with the log-scale's).
  A product of a [4000,64] block with a [64,n] matrix into a zero accumulator is the plain sum over the 64 contracted
  coordinates; a change of float format is the identity; a [1,n] row spread over the block reads its one row.
-/
import proofs.«411890_j54623394070984_2_alg».proof.Proof.Gen.KernelIdeal.Skeleton
import proofs.«411890_j54623394070984_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionEdge4

open Idealize.ShloMosaic Idealize.ShloMosaic.ValueIdx Cert.KernelIdeal Cert.KernelIdeal.Gen

/-! ## The two contractions, coordinate by coordinate -/

theorem lhs_sq_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_sq_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_sq_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_sq_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A [4000,64] block times a [64,64] matrix into the zero accumulator, at row `p`, column `q`. -/
theorem mm_sq_apply (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

theorem lhs_col_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs_col_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhs_col_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhs_col_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- A [4000,64] block times a [64,1] column into the zero accumulator, at row `p`. -/
theorem mm_col_apply (l : FVec Ideal S4000x64 .bf16) (r : FVec Ideal S64x1 .bf16) (p : Fin 4000) (q : Fin 1) :
    matmul dot_S4000x64_S64x1_S4000x1_1_0_0_1_n_n none l r (constant (F := Ideal) S4000x1 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x1_S4000x1_1_0_0_1_n_n 64 rfl rfl).symm]
  refine Finset.sum_congr rfl fun k _ => ?_
  have hk := ValueIdx.contrEquiv1_symm_val dot_S4000x64_S64x1_S4000x1_1_0_0_1_n_n 64 rfl rfl k
  have el : dot_S4000x64_S64x1_S4000x1_1_0_0_1_n_n.lhsIdx (ix2 p q) ((ValueIdx.contrEquiv1 dot_S4000x64_S64x1_S4000x1_1_0_0_1_n_n 64 rfl rfl).symm k) = ix2 p k := funext fun a => Fin.ext (by
    match a with
    | ⟨0, _⟩ => exact lhs_col_0 _ _
    | ⟨1, _⟩ => exact (lhs_col_1 _ _).trans hk)
  have er : dot_S4000x64_S64x1_S4000x1_1_0_0_1_n_n.rhsIdx (ix2 p q) ((ValueIdx.contrEquiv1 dot_S4000x64_S64x1_S4000x1_1_0_0_1_n_n 64 rfl rfl).symm k) = ix2 k q := funext fun a => Fin.ext (by
    match a with
    | ⟨0, _⟩ => exact (rhs_col_0 _ _).trans hk
    | ⟨1, _⟩ => exact rhs_col_1 _ _)
  rw [el, er]

/-! ## The body's values at an index -/

/-- The hidden layer of the block, at row `p`, unit `q`. -/
theorem hidden_apply (x0 x1 : Vec Ideal S4000x64 .f32) (x2 x3 : Vec Ideal S64x64 .f32) (x4 : Vec Ideal S1x64 .f32) (p : Fin 4000) (q : Fin 64) :
    k4_pay1 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q)) 0 := by
  unfold k4_pay1
  simp only [shapeCast_self]
  rw [truncf_apply, maximumf_apply, addf_apply, addf_apply, mm_sq_apply, mm_sq_apply, broadcastTo_1b_ab_apply, broadcast_apply]
  simp only [truncf_apply, Ideal.ofBits_def, Ideal.ofBits_zero_f32]

/-- The mean head of the block, at row `p`. -/
theorem head_apply (x0 x1 : Vec Ideal S4000x64 .f32) (x2 x3 : Vec Ideal S64x64 .f32) (x4 : Vec Ideal S1x64 .f32) (x5 : Vec Ideal S64x1 .f32) (x6 : Vec Ideal S1x1 .f32) (p : Fin 4000) (r : Fin 1) :
    k4_pay2 (F := Ideal) x0 x1 x2 x3 x4 x5 x6 (ix2 p r)
      = (∑ k : Fin 64, k4_pay1 (F := Ideal) x0 x1 x2 x3 x4 (ix2 p k) * x5 (ix2 k r)) + x6 (ix2 (0 : Fin 1) r) := by
  unfold k4_pay2
  simp only [shapeCast_self]
  rw [addf_apply, mm_col_apply, broadcastTo_1b_ab_apply]
  simp only [truncf_apply]

/-- The log-scale head of the block, at row `p`. -/
theorem head2_apply (x0 x1 : Vec Ideal S4000x64 .f32) (x2 x3 : Vec Ideal S64x64 .f32) (x4 : Vec Ideal S1x64 .f32) (x7 : Vec Ideal S64x1 .f32) (x8 : Vec Ideal S1x1 .f32) (p : Fin 4000) (r : Fin 1) :
    k4_pay3 (F := Ideal) x0 x1 x2 x3 x4 x7 x8 (ix2 p r)
      = (∑ k : Fin 64, k4_pay1 (F := Ideal) x0 x1 x2 x3 x4 (ix2 p k) * x7 (ix2 k r)) + x8 (ix2 (0 : Fin 1) r) := by
  unfold k4_pay3
  simp only [shapeCast_self]
  rw [addf_apply, mm_col_apply, broadcastTo_1b_ab_apply]
  simp only [truncf_apply]

/-! ## A block's values as the specification's, given where the block's rows sit in the arrays

Stated at any index `j` of the block and any index `i` of the array whose row coordinates are `p` and `e`. -/

/-- A head of the block at row `p` is the specification's head at edge `e`, when rows `p` of the two row blocks are
    rows `e` of the two gathered arrays and the whole-array windows hold their arrays. -/
theorem head_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x5 : Vec Ideal S64x1 .f32) (x6 : Vec Ideal S1x1 .f32)
    (j : S4000x1.Idx) (i : Cert.Spec.SE1.Idx) (p : Fin 4000) (e : Fin 800000) (hp : (j 0).val = p.val) (he : (i 0).val = e.val)
    (h0 : ∀ k : Fin 64, x0 (ix2 p k) = hs (ix2 e k)) (h1 : ∀ k : Fin 64, x1 (ix2 p k) = hd (ix2 e k))
    (h2 : x2 = a) (h3 : x3 = b) (h4 : x4 = β) (h5 : x5 = w) (h6 : x6 = γ) :
    k4_pay2 (F := Ideal) x0 x1 x2 x3 x4 x5 x6 j = Cert.Spec.edgeHead hs hd a b β w γ i := by
  subst h2 h3 h4 h5 h6
  obtain ⟨p', r, rfl⟩ : ∃ (p' : Fin 4000) (r : Fin 1), j = ix2 p' r := ⟨j 0, j 1, eq_ix2 j⟩
  obtain ⟨e', r', rfl⟩ : ∃ (e' : Fin 800000) (r' : Fin 1), i = ix2 e' r' := ⟨i 0, i 1, eq_ix2 i⟩
  obtain rfl : p' = p := Fin.ext hp
  obtain rfl : e' = e := Fin.ext he
  obtain rfl : r = 0 := Subsingleton.elim _ _
  obtain rfl : r' = 0 := Subsingleton.elim _ _
  rw [head_apply]
  simp only [hidden_apply, h0, h1]
  rfl

/-- The same for the second head (the kernel names it by another payload; the arithmetic is the same). -/
theorem head2_at (hs hd : FVec Ideal Cert.Spec.SE64 .f32) (a b : FVec Ideal Cert.Spec.SDD .f32) (β : FVec Ideal Cert.Spec.S1D .f32)
    (w : FVec Ideal Cert.Spec.SD1 .f32) (γ : FVec Ideal Cert.Spec.S11 .f32)
    (x0 x1 : Vec Ideal S4000x64 .f32) (x2 x3 : Vec Ideal S64x64 .f32) (x4 : Vec Ideal S1x64 .f32) (x7 : Vec Ideal S64x1 .f32) (x8 : Vec Ideal S1x1 .f32)
    (j : S4000x1.Idx) (i : Cert.Spec.SE1.Idx) (p : Fin 4000) (e : Fin 800000) (hp : (j 0).val = p.val) (he : (i 0).val = e.val)
    (h0 : ∀ k : Fin 64, x0 (ix2 p k) = hs (ix2 e k)) (h1 : ∀ k : Fin 64, x1 (ix2 p k) = hd (ix2 e k))
    (h2 : x2 = a) (h3 : x3 = b) (h4 : x4 = β) (h7 : x7 = w) (h8 : x8 = γ) :
    k4_pay3 (F := Ideal) x0 x1 x2 x3 x4 x7 x8 j = Cert.Spec.edgeHead hs hd a b β w γ i := by
  subst h2 h3 h4 h7 h8
  obtain ⟨p', r, rfl⟩ : ∃ (p' : Fin 4000) (r : Fin 1), j = ix2 p' r := ⟨j 0, j 1, eq_ix2 j⟩
  obtain ⟨e', r', rfl⟩ : ∃ (e' : Fin 800000) (r' : Fin 1), i = ix2 e' r' := ⟨i 0, i 1, eq_ix2 i⟩
  obtain rfl : p' = p := Fin.ext hp
  obtain rfl : e' = e := Fin.ext he
  obtain rfl : r = 0 := Subsingleton.elim _ _
  obtain rfl : r' = 0 := Subsingleton.elim _ _
  rw [head2_apply]
  simp only [hidden_apply, h0, h1]
  rfl

end Cert.KernelIdeal.RegionEdge4

end
-- ==== Proof.RegionEdge4.lean ====
/-
  The edge network's region: a grid of 200 points over the 800000 edges, 4000 edge rows per point.

  At each point the body reads rows 4000·t … 4000·t + 3999 of the two gathered arrays and the whole of the seven small
  arrays (two 64×64 weights, a bias row, two weight columns with their 1×1 biases), and writes blocks of rows
  4000·t …: the mean head and the log-scale head. A block's value at row p is the specification's at edge
  4000·t + p, so what point t writes back is block t of `Cert.Spec.edgeHead` (once per head) of the arrays the
  region is entered with; the 200 blocks cover each output array (row r is in the block of point r / 4000).
-/
import proofs.«411890_j54623394070984_2_alg».proof.Proof.Gen.KernelIdeal.Frame
import proofs.«411890_j54623394070984_2_alg».proof.Proof.Spec
import proofs.«411890_j54623394070984_2_alg».proof.Proof.RegionEdge4Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionEdge4

open Idealize.ShloMosaic Idealize.ShloMosaic.TcCoe Idealize.SL.Sem Cert.KernelIdeal Cert.KernelIdeal.Gen
open Idealize.ShloMosaic.ValueIdx
open Idealize.ShloMosaic.Pipeline (Dat)

theorem hz : (![0, 0] : Fin 2 → Nat) = fun _ => 0 := funext fun a => by fin_cases a <;> rfl

/-! ## Where each window's block sits, at every point of the grid -/

/-- The row windows of the two gathered inputs and of the two heads sit at block (t, 0). -/
theorem row_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_9.index t (0 : Fin 2) = t.val ∧ win4_9.index t (1 : Fin 2) = 0
    ∧ win4_10.index t (0 : Fin 2) = t.val ∧ win4_10.index t (1 : Fin 2) = 0 :=
  (by decide +kernel : ∀ t : Fin grid4.N, _)

/-- The seven small windows are their whole arrays: block (0, 0) at every point. -/
theorem whole_facts : ∀ t : Fin cfg4.N,
    win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

variable (V : (c : Dev nD) → (b : Ref sig .tc) → Buf (Elt Ideal) ((c : Thread nD τ).loc b))

/-! ## The input blocks, read off their arrays -/

/-- The source window's block at point `t` holds rows 4000·t … of the gathered source rows. -/
theorem src_block (c : Dev nD) (t : Fin cfg4.N) (y : S4000x64.Idx) (i : S800000x64.Idx)
    (h0 : (i 0).val = t.val * 4000 + (y 0).val) (h1 : (i 1).val = (y 1).val) :
    (iblk4 V c 0 t : Vec Ideal S4000x64 .f32) y = (V c (Pipeline.arrRef spec4 0) : S800000x64.Idx → Elt Ideal .f32) i := by
  obtain ⟨e0, e1, -⟩ := row_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 4000 + 1 * (y 0).val = (i 0).val; omega
  | ⟨1, _⟩ => show win4_0.index t (1 : Fin 2) * 64 + 1 * (y 1).val = (i 1).val; omega

/-- The destination window's block at point `t` holds rows 4000·t … of the gathered destination rows. -/
theorem dst_block (c : Dev nD) (t : Fin cfg4.N) (y : S4000x64.Idx) (i : S800000x64.Idx)
    (h0 : (i 0).val = t.val * 4000 + (y 0).val) (h1 : (i 1).val = (y 1).val) :
    (iblk4 V c 1 t : Vec Ideal S4000x64 .f32) y = (V c (Pipeline.arrRef spec4 1) : S800000x64.Idx → Elt Ideal .f32) i := by
  obtain ⟨-, -, e0, e1, -⟩ := row_facts t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 4000 + 1 * (y 0).val = (i 0).val; omega
  | ⟨1, _⟩ => show win4_1.index t (1 : Fin 2) * 64 + 1 * (y 1).val = (i 1).val; omega

/-- Window 2's block at every point is its whole array: the first half of the embedding weight. -/
theorem whole2 (c : Dev nD) (t : Fin cfg4.N) :
    (iblk4 V c 2 t : Vec Ideal S64x64 .f32) = (V c (Pipeline.arrRef spec4 2) : S64x64.Idx → Elt Ideal .f32) := by
  obtain ⟨e0, e1, -⟩ := whole_facts t
  funext y
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- Window 3's block at every point is its whole array: the second half of the embedding weight. -/
theorem whole3 (c : Dev nD) (t : Fin cfg4.N) :
    (iblk4 V c 3 t : Vec Ideal S64x64 .f32) = (V c (Pipeline.arrRef spec4 3) : S64x64.Idx → Elt Ideal .f32) := by
  obtain ⟨-, -, e0, e1, -⟩ := whole_facts t
  funext y
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 64 + 1 * (y 0).val = (y 0).val; omega
  | ⟨1, _⟩ => show win4_3.index t (1 : Fin 2) * 64 + 1 * (y 1).val = (y 1).val; omega

/-- Window 4's block at every point is its whole array: the embedding bias row. -/
theorem whole4 (c : Dev nD) (t : Fin cfg4.N) :
    (iblk4 V c 4 t : Vec Ideal S1x64 .f32) = (V c (Pipeline.arrRef spec4 4) : S1x64.Idx → Elt Ideal .f32) := by
  obtain ⟨-, -, -, -, e0, e1, -⟩ := whole_facts t
  funext y
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- Window 5's block at every point is its whole array: the mean head's weight column. -/
theorem whole5 (c : Dev nD) (t : Fin cfg4.N) :
    (iblk4 V c 5 t : Vec Ideal S64x1 .f32) = (V c (Pipeline.arrRef spec4 5) : S64x1.Idx → Elt Ideal .f32) := by
  obtain ⟨-, -, -, -, -, -, e0, e1, -⟩ := whole_facts t
  funext y
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 64 + 1 * (y 0).val = (y 0).val; omega
  | ⟨1, _⟩ => show win4_5.index t (1 : Fin 2) * 1 + 1 * (y 1).val = (y 1).val; omega

/-- Window 6's block at every point is its whole array: the mean head's bias. -/
theorem whole6 (c : Dev nD) (t : Fin cfg4.N) :
    (iblk4 V c 6 t : Vec Ideal S1x1 .f32) = (V c (Pipeline.arrRef spec4 6) : S1x1.Idx → Elt Ideal .f32) := by
  obtain ⟨-, -, -, -, -, -, -, -, e0, e1, -⟩ := whole_facts t
  funext y
  unfold iblk4
  rw [View.read_apply]
  show V c (Pipeline.arrRef spec4 6) _ = V c (Pipeline.arrRef spec4 6) _
  congr 1
  funext a
  apply Fin.ext
  match a with
  | ⟨0, _⟩ => show win4_6.index t (0 : Fin 2) * 1 + 1 * (y 0).val = (y 0).val; omega
  | ⟨1, _⟩ => show win4_6.index t (1 : Fin 2) * 1 + 1 * (y 1).val = (y 1).val; omega

/-- Window 7's block at every point is its whole array: the log-scale head's weight column. -/
theorem whole7 (c : Dev nD) (t : Fin cfg4.N) :
    (iblk4 V c 7 t : Vec Ideal S64x1 .f32) = (V c (Pipeline.arrRef spec4 7) : S64x1.Idx → Elt Ideal .f32) := by
  obtain ⟨-, -, -, -, -, -, -, -, -, -, e0, e1, -⟩ := whole_facts t
  funext y
  unfold iblk4
  rw [View.read_apply]
  show V c (Pipeline.arrRef spec4 7) _ = V c (Pipeline.arrRef spec4 7) _
  congr 1
  funext a
  apply Fin.ext
  match a with
  | ⟨0, _⟩ => show win4_7.index t (0 : Fin 2) * 64 + 1 * (y 0).val = (y 0).val; omega
  | ⟨1, _⟩ => show win4_7.index t (1 : Fin 2) * 1 + 1 * (y 1).val = (y 1).val; omega

/-- Window 8's block at every point is its whole array: the log-scale head's bias. -/
theorem whole8 (c : Dev nD) (t : Fin cfg4.N) :
    (iblk4 V c 8 t : Vec Ideal S1x1 .f32) = (V c (Pipeline.arrRef spec4 8) : S1x1.Idx → Elt Ideal .f32) := by
  obtain ⟨-, -, -, -, -, -, -, -, -, -, -, -, e0, e1⟩ := whole_facts t
  funext y
  unfold iblk4
  rw [View.read_apply]
  show V c (Pipeline.arrRef spec4 8) _ = V c (Pipeline.arrRef spec4 8) _
  congr 1
  funext a
  apply Fin.ext
  match a with
  | ⟨0, _⟩ => show win4_8.index t (0 : Fin 2) * 1 + 1 * (y 0).val = (y 0).val; omega
  | ⟨1, _⟩ => show win4_8.index t (1 : Fin 2) * 1 + 1 * (y 1).val = (y 1).val; omega

/-! ## Output window 9: the mean head -/

/-- Window 9's block at point `t`, read off any array, holds the array's rows 4000·t … . -/
theorem out9_block (G : S800000x1.Idx → Elt Ideal .f32) (t : Fin cfg4.N) (y : S4000x1.Idx) (i : S800000x1.Idx)
    (h0 : (i 0).val = t.val * 4000 + (y 0).val) (h1 : (i 1).val = (y 1).val) :
    (((cfg4.win 9).blk t).view.read (Elt Ideal) G : Vec Ideal S4000x1 .f32) y = G i := by
  obtain ⟨-, -, -, -, e0, e1, -⟩ := row_facts t
  rw [View.read_apply]
  show G _ = G _
  congr 1
  funext a
  apply Fin.ext
  match a with
  | ⟨0, _⟩ => show win4_9.index t (0 : Fin 2) * 4000 + 1 * (y 0).val = (i 0).val; omega
  | ⟨1, _⟩ => show win4_9.index t (1 : Fin 2) * 1 + 1 * (y 1).val = (i 1).val; omega

/-- What point `t` writes back to window 9 is block `t` of the mean head of the arrays as the region finds them. -/
theorem flushed9_eq (c : Dev nD) (t : Fin cfg4.N) :
    (dat4 (F := Ideal) V c).flushed 9 t = ((cfg4.win 9).blk t).view.read (Elt Ideal)
      (Cert.Spec.edgeHead (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6))) := by
  show (cfg4.win 9).cut (grid4.coords t) ((dat4 V c).after 9 t) = _
  rw [after4_9]
  unfold out4_9
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid4.N := t.isLt
  rw [N_4] at ht
  funext j
  have hj0 : (j 0).val < 4000 := (j 0).isLt
  have hj1 : (j 1).val < 1 := (j 1).isLt
  refine (head_at (V c (Pipeline.arrRef spec4 0)) (V c (Pipeline.arrRef spec4 1)) (V c (Pipeline.arrRef spec4 2))
      (V c (Pipeline.arrRef spec4 3)) (V c (Pipeline.arrRef spec4 4)) (V c (Pipeline.arrRef spec4 5)) (V c (Pipeline.arrRef spec4 6))
      (iblk4 V c 0 t) (iblk4 V c 1 t) (iblk4 V c 2 t) (iblk4 V c 3 t) (iblk4 V c 4 t) (iblk4 V c 5 t) (iblk4 V c 6 t)
      ((cfg4.win 9).xinj (grid4.coords t) j) (ix2 (⟨t.val * 4000 + (j 0).val, by omega⟩ : Fin 800000) (⟨(j 1).val, hj1⟩ : Fin 1))
      ⟨(j 0).val, hj0⟩ ⟨t.val * 4000 + (j 0).val, by omega⟩ rfl rfl
      (fun k => src_block V c t _ _ rfl rfl) (fun k => dst_block V c t _ _ rfl rfl)
      (whole2 V c t) (whole3 V c t) (whole4 V c t) (whole5 V c t) (whole6 V c t)).trans ?_
  exact (out9_block _ t j _ rfl rfl).symm

/-- An index of window 9's array is in point `t`'s block iff each coordinate is in the block's range on its axis. -/
theorem mem_blk9 (t : Fin cfg4.N) (i : S800000x1.Idx) :
    i ∈ ((cfg4.win 9).blk t).view.set ↔ ∀ a : Fin 2, win4_9.index t a * S4000x1.size a ≤ (i a).val ∧ (i a).val < win4_9.index t a * S4000x1.size a + S4000x1.size a := by
  show i ∈ ((View.whole main_v45_0).slice (win4_9.rect t)).set ↔ _
  rw [View.set_slice_whole, Rect.mem_set_unit]
  exact Iff.rfl

/-- Row `r` of window 9's array lies in the block of point `r / 4000`, and every point writes back. -/
theorem cover9 (i : S800000x1.Idx) : ∃ t : Fin cfg4.N, (cfg4.win 9).flush t = true ∧ i ∈ ((cfg4.win 9).blk t).view.set := by
  have hi0 : (i 0).val < 800000 := (i 0).isLt
  have hi1 : (i 1).val < 1 := (i 1).isLt
  have hN : grid4.N = 200 := N_4
  have hlt : (i 0).val / 4000 < grid4.N := by rw [hN]; omega
  obtain ⟨-, -, -, -, e0, e1, -⟩ := row_facts ⟨(i 0).val / 4000, hlt⟩
  refine ⟨⟨(i 0).val / 4000, hlt⟩, flush4_9 _, ?_⟩
  rw [mem_blk9]
  intro a
  match a with
  | ⟨0, _⟩ =>
    show win4_9.index ⟨(i 0).val / 4000, hlt⟩ (0 : Fin 2) * 4000 ≤ (i 0).val ∧ (i 0).val < win4_9.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win4_9.index ⟨(i 0).val / 4000, hlt⟩ (1 : Fin 2) * 1 ≤ (i 1).val ∧ (i 1).val < win4_9.index ⟨(i 0).val / 4000, hlt⟩ (1 : Fin 2) * 1 + 1
    rw [e1]; omega

/-- After the region window 9's array is the mean head of the region's entry arrays: every point writes its block of it,
    and the 200 blocks cover the array. -/
theorem loc_arr (c : Dev nD) :
    (dat4 (F := Ideal) V c).arrAt 9 cfg4.N
      = Cert.Spec.edgeHead (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (V c (Pipeline.arrRef spec4 6)) :=
  (dat4 (F := Ideal) V c).arrAt_eq_of_cover 9
    (Cert.Spec.edgeHead (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6)))
    (fun t _ => flushed9_eq V c t) cover9

/-! ## Output window 10: the log-scale head -/

/-- Window 10's block at point `t`, read off any array, holds the array's rows 4000·t … . -/
theorem out10_block (G : S800000x1.Idx → Elt Ideal .f32) (t : Fin cfg4.N) (y : S4000x1.Idx) (i : S800000x1.Idx)
    (h0 : (i 0).val = t.val * 4000 + (y 0).val) (h1 : (i 1).val = (y 1).val) :
    (((cfg4.win 10).blk t).view.read (Elt Ideal) G : Vec Ideal S4000x1 .f32) y = G i := by
  obtain ⟨-, -, -, -, -, -, e0, e1⟩ := row_facts t
  rw [View.read_apply]
  show G _ = G _
  congr 1
  funext a
  apply Fin.ext
  match a with
  | ⟨0, _⟩ => show win4_10.index t (0 : Fin 2) * 4000 + 1 * (y 0).val = (i 0).val; omega
  | ⟨1, _⟩ => show win4_10.index t (1 : Fin 2) * 1 + 1 * (y 1).val = (i 1).val; omega

/-- What point `t` writes back to window 10 is block `t` of the log-scale head of the arrays as the region finds them. -/
theorem flushed10_eq (c : Dev nD) (t : Fin cfg4.N) :
    (dat4 (F := Ideal) V c).flushed 10 t = ((cfg4.win 10).blk t).view.read (Elt Ideal)
      (Cert.Spec.edgeHead (V c (Pipeline.arrRef spec4 0)) (V c (Pipeline.arrRef spec4 1)) (V c (Pipeline.arrRef spec4 2))
        (V c (Pipeline.arrRef spec4 3)) (V c (Pipeline.arrRef spec4 4)) (V c (Pipeline.arrRef spec4 7)) (V c (Pipeline.arrRef spec4 8))) := by
  show (cfg4.win 10).cut (grid4.coords t) ((dat4 V c).after 10 t) = _
  rw [after4_10]
  unfold out4_10
  rw [View.canon_unit_zero hz]
  simp only [View.ld_unit_zero (S := S4000x64) hz, View.ld_unit_zero (S := S64x64) hz, View.ld_unit_zero (S := S1x64) hz, View.ld_unit_zero (S := S64x1) hz, View.ld_unit_zero (S := S1x1) hz]
  have ht : t.val < grid4.N := t.isLt
  rw [N_4] at ht
  funext j
  have hj0 : (j 0).val < 4000 := (j 0).isLt
  have hj1 : (j 1).val < 1 := (j 1).isLt
  refine (head2_at (V c (Pipeline.arrRef spec4 0)) (V c (Pipeline.arrRef spec4 1)) (V c (Pipeline.arrRef spec4 2))
      (V c (Pipeline.arrRef spec4 3)) (V c (Pipeline.arrRef spec4 4)) (V c (Pipeline.arrRef spec4 7)) (V c (Pipeline.arrRef spec4 8))
      (iblk4 V c 0 t) (iblk4 V c 1 t) (iblk4 V c 2 t) (iblk4 V c 3 t) (iblk4 V c 4 t) (iblk4 V c 7 t) (iblk4 V c 8 t)
      ((cfg4.win 10).xinj (grid4.coords t) j) (ix2 (⟨t.val * 4000 + (j 0).val, by omega⟩ : Fin 800000) (⟨(j 1).val, hj1⟩ : Fin 1))
      ⟨(j 0).val, hj0⟩ ⟨t.val * 4000 + (j 0).val, by omega⟩ rfl rfl
      (fun k => src_block V c t _ _ rfl rfl) (fun k => dst_block V c t _ _ rfl rfl)
      (whole2 V c t) (whole3 V c t) (whole4 V c t) (whole7 V c t) (whole8 V c t)).trans ?_
  exact (out10_block _ t j _ rfl rfl).symm

/-- An index of window 10's array is in point `t`'s block iff each coordinate is in the block's range on its axis. -/
theorem mem_blk10 (t : Fin cfg4.N) (i : S800000x1.Idx) :
    i ∈ ((cfg4.win 10).blk t).view.set ↔ ∀ a : Fin 2, win4_10.index t a * S4000x1.size a ≤ (i a).val ∧ (i a).val < win4_10.index t a * S4000x1.size a + S4000x1.size a := by
  show i ∈ ((View.whole main_v45_1).slice (win4_10.rect t)).set ↔ _
  rw [View.set_slice_whole, Rect.mem_set_unit]
  exact Iff.rfl

/-- Row `r` of window 10's array lies in the block of point `r / 4000`, and every point writes back. -/
theorem cover10 (i : S800000x1.Idx) : ∃ t : Fin cfg4.N, (cfg4.win 10).flush t = true ∧ i ∈ ((cfg4.win 10).blk t).view.set := by
  have hi0 : (i 0).val < 800000 := (i 0).isLt
  have hi1 : (i 1).val < 1 := (i 1).isLt
  have hN : grid4.N = 200 := N_4
  have hlt : (i 0).val / 4000 < grid4.N := by rw [hN]; omega
  obtain ⟨-, -, -, -, -, -, e0, e1⟩ := row_facts ⟨(i 0).val / 4000, hlt⟩
  refine ⟨⟨(i 0).val / 4000, hlt⟩, flush4_10 _, ?_⟩
  rw [mem_blk10]
  intro a
  match a with
  | ⟨0, _⟩ =>
    show win4_10.index ⟨(i 0).val / 4000, hlt⟩ (0 : Fin 2) * 4000 ≤ (i 0).val ∧ (i 0).val < win4_10.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win4_10.index ⟨(i 0).val / 4000, hlt⟩ (1 : Fin 2) * 1 ≤ (i 1).val ∧ (i 1).val < win4_10.index ⟨(i 0).val / 4000, hlt⟩ (1 : Fin 2) * 1 + 1
    rw [e1]; omega

/-- After the region window 10's array is the log-scale head of the region's entry arrays: every point writes its block of it,
    and the 200 blocks cover the array. -/
theorem ls_arr (c : Dev nD) :
    (dat4 (F := Ideal) V c).arrAt 10 cfg4.N
      = Cert.Spec.edgeHead (V c (Pipeline.arrRef spec4 0)) (V c (Pipeline.arrRef spec4 1)) (V c (Pipeline.arrRef spec4 2))
          (V c (Pipeline.arrRef spec4 3)) (V c (Pipeline.arrRef spec4 4)) (V c (Pipeline.arrRef spec4 7)) (V c (Pipeline.arrRef spec4 8)) :=
  (dat4 (F := Ideal) V c).arrAt_eq_of_cover 10
    (Cert.Spec.edgeHead (V c (Pipeline.arrRef spec4 0)) (V c (Pipeline.arrRef spec4 1)) (V c (Pipeline.arrRef spec4 2))
        (V c (Pipeline.arrRef spec4 3)) (V c (Pipeline.arrRef spec4 4)) (V c (Pipeline.arrRef spec4 7)) (V c (Pipeline.arrRef spec4 8)))
    (fun t _ => flushed10_eq V c t) cover10

end Cert.KernelIdeal.RegionEdge4

end
-- ==== Proof.KStretchC.lean ====
/-
  The host operations around the fifth region, read buffer by buffer for an arbitrary assignment `v` of contents to the
  buffers.

  Before the fifth region the first layer's output is gathered at the source and at the destination indices of the false
  edges (`take`), and the embedding weight and the biases are re-laid (`we1`, `we2`, `row1`, `cell`). After it, the loss
  is computed from the heads' outputs on the true and on the false edges (`tail`). Each stretch is a straight line of
  operations, every one writing a buffer of its own, so a buffer's contents after the stretch are the composition of the
  operations on the path that leads to it.
-/
import proofs.«411890_j54623394070984_2_alg».proof.Proof.KStretchBase

set_option maxRecDepth 16384

noncomputable section

namespace Cert.KernelIdeal.KStretch

open Idealize.ShloMosaic Cert.KernelIdeal Cert.KernelIdeal.Gen
open Facts₀ Facts

variable (v : Valuation τ sig (Elt Ideal))

/-! ## Before the fifth region -/

/-- The first layer's rows at the source indices of the false edges. -/
theorem take_v38 :
    StableHlo.after (hostOps4 (F := Ideal)) v (Proc.devRef .tc main_v38)
      = KVal.take (v (Proc.devRef .tc main_v22)) (v (Proc.devRef .tc main_arg13)) := by
  dsimp only [hostOps4]
  after_results_simp
  simp only [ofBuf_toBuf]
  simp only [StableHlo.TRef.ofBuf, StableHlo.TRef.toBuf, cast_eq]
  unfold KVal.take KVal.inb KVal.rows KVal.wrap
  rfl

/-- The first layer's rows at the destination indices of the false edges. -/
theorem take_v39 :
    StableHlo.after (hostOps4_1 (F := Ideal)) v (Proc.devRef .tc main_v39)
      = KVal.take (v (Proc.devRef .tc main_v22)) (v (Proc.devRef .tc main_arg14)) := by
  dsimp only [hostOps4_1]
  after_results_simp
  simp only [ofBuf_toBuf]
  simp only [StableHlo.TRef.ofBuf, StableHlo.TRef.toBuf, cast_eq]
  unfold KVal.take KVal.inb KVal.rows KVal.wrap
  rfl

/-- The upper half of the embedding weight, rows 0–63, for the fifth region. -/
theorem w_v40 :
    StableHlo.after (hostOps4_2 (F := Ideal)) v (Proc.devRef .tc main_v40)
      = KVal.we1 (v (Proc.devRef .tc main_arg5)) := by
  dsimp only [hostOps4_2]
  after_results_simp
  unfold KVal.we1
  rfl

/-- The lower half of the embedding weight, rows 64–127, for the fifth region. -/
theorem w_v41 :
    StableHlo.after (hostOps4_2 (F := Ideal)) v (Proc.devRef .tc main_v41)
      = KVal.we2 (v (Proc.devRef .tc main_arg5)) := by
  dsimp only [hostOps4_2]
  after_results_simp
  unfold KVal.we2
  rfl

/-- The embedding bias as a 1×64 row, for the fifth region. -/
theorem w_v42 :
    StableHlo.after (hostOps4_2 (F := Ideal)) v (Proc.devRef .tc main_v42)
      = KVal.row1 (v (Proc.devRef .tc main_arg6)) := by
  dsimp only [hostOps4_2]
  after_results_simp
  unfold KVal.row1
  rfl

/-- The mean head's bias as a 1×1 cell, for the fifth region. -/
theorem w_v43 :
    StableHlo.after (hostOps4_2 (F := Ideal)) v (Proc.devRef .tc main_v43)
      = KVal.cell (v (Proc.devRef .tc main_arg8)) := by
  dsimp only [hostOps4_2]
  after_results_simp
  unfold KVal.cell
  rfl

/-- The log-scale head's bias as a 1×1 cell, for the fifth region. -/
theorem w_v44 :
    StableHlo.after (hostOps4_2 (F := Ideal)) v (Proc.devRef .tc main_v44)
      = KVal.cell (v (Proc.devRef .tc main_arg10)) := by
  dsimp only [hostOps4_2]
  after_results_simp
  unfold KVal.cell
  rfl

/-! ## After the last region -/

/-- The loss: minus the Gaussian log-density of 1 under the heads on the true edges, minus that of 0 under the heads
    on the false edges, summed over the edges and divided by their number. -/
theorem tail_v70 :
    StableHlo.after (hostOps5 (F := Ideal)) v (Proc.devRef .tc main_v70)
      = KVal.tail (v (Proc.devRef .tc main_v30_0)) (v (Proc.devRef .tc main_v30_1))
          (v (Proc.devRef .tc main_v45_0)) (v (Proc.devRef .tc main_v45_1)) := by
  dsimp only [hostOps5]
  after_results_simp
  unfold KVal.tail KVal.logp KVal.bc
  rfl

end Cert.KernelIdeal.KStretch

end
-- ==== Proof.KValue3.lean ====
/-
  The last stretch of the kernel program's run, relative to the fourth region's exit: the two gathers of the first
  layer's output at the false edges' endpoints, the re-laying of the edge network's weights, the last region (the mean and
  the log-scale head on the false edges) and the loss. The second layer's output is not written again, and the loss is
  `tail` of the two heads on the true edges, left as they were, and the two heads on the false edges.
-/
import proofs.«411890_j54623394070984_2_alg».proof.Proof.Gen.KernelIdeal.Frame
import proofs.«411890_j54623394070984_2_alg».proof.Proof.KVal
import proofs.«411890_j54623394070984_2_alg».proof.Proof.KValue2
import proofs.«411890_j54623394070984_2_alg».proof.Proof.RegionEdge4
import proofs.«411890_j54623394070984_2_alg».proof.Proof.KStretchC

set_option maxRecDepth 16384

noncomputable section

namespace Cert.KernelIdeal.KValue3

open Idealize.ShloMosaic Idealize.ShloMosaic.TcCoe Idealize.SL.Sem Cert.KernelIdeal Cert.KernelIdeal.Gen
open Cert.KernelIdeal.KValue1 (argRefs)
open Cert.KernelIdeal.KStretch (take_v38 take_v39 w_v40 w_v41 w_v42 w_v43 w_v44 tail_v70)

variable (m : (ℓ : Loc nD τ sig) → Buf (Elt Ideal) ℓ) (ρ : Dev nD → PrngReg)

/-! ## What the three stretches before the last region leave alone -/

/-- The gather at the false edges' sources writes none of the arguments, nor the first layer's output, the
    two heads on the true edges and the second layer's output. -/
theorem keep4 (v : Valuation τ sig (Elt Ideal)) :
    ∀ b ∈ argRefs ++ [main_v22, main_v30_0, main_v30_1, main_v37],
      StableHlo.after (hostOps4 (F := Ideal)) v (Proc.devRef .tc b) = v (Proc.devRef .tc b) := by
  intro b hb
  simp only [argRefs, List.cons_append, List.nil_append, List.mem_cons, List.not_mem_nil, or_false] at hb
  rcases hb with rfl | rfl | rfl | rfl | rfl | rfl | rfl | rfl | rfl | rfl | rfl | rfl | rfl | rfl | rfl | rfl | rfl | rfl | rfl
  all_goals after_skip [hostOps4]

/-- The gather at the false edges' destinations writes none of these either, nor the first gather's result. -/
theorem keep4_1 (v : Valuation τ sig (Elt Ideal)) :
    ∀ b ∈ argRefs ++ [main_v38, main_v30_0, main_v30_1, main_v37],
      StableHlo.after (hostOps4_1 (F := Ideal)) v (Proc.devRef .tc b) = v (Proc.devRef .tc b) := by
  intro b hb
  simp only [argRefs, List.cons_append, List.nil_append, List.mem_cons, List.not_mem_nil, or_false] at hb
  rcases hb with rfl | rfl | rfl | rfl | rfl | rfl | rfl | rfl | rfl | rfl | rfl | rfl | rfl | rfl | rfl | rfl | rfl | rfl | rfl
  all_goals after_skip [hostOps4_1]

/-- The re-laying of the weights writes none of these, nor the two gathers' results. -/
theorem keep4_2 (v : Valuation τ sig (Elt Ideal)) :
    ∀ b ∈ argRefs ++ [main_v38, main_v39, main_v30_0, main_v30_1, main_v37],
      StableHlo.after (hostOps4_2 (F := Ideal)) v (Proc.devRef .tc b) = v (Proc.devRef .tc b) := by
  intro b hb
  simp only [argRefs, List.cons_append, List.nil_append, List.mem_cons, List.not_mem_nil, or_false] at hb
  rcases hb with rfl | rfl | rfl | rfl | rfl | rfl | rfl | rfl | rfl | rfl | rfl | rfl | rfl | rfl | rfl | rfl | rfl | rfl | rfl | rfl
  all_goals after_skip [hostOps4_2]

/-- The loss's operations do not write the second layer's output. -/
theorem keep5 (v : Valuation τ sig (Elt Ideal)) :
    StableHlo.after (hostOps5 (F := Ideal)) v (Proc.devRef .tc main_v37) = v (Proc.devRef .tc main_v37) := by
  after_skip [hostOps5]

/-! ## The arguments at the boundaries of the last stretch -/

theorem args16 (c : Dev nD) : ∀ b ∈ argRefs, W16 (F := Ideal) m ρ c (Proc.devRef .tc b) = m ((c : Thread nD τ).loc b) :=
  fun b hb => (keep4 (W15 (F := Ideal) m ρ c) b (List.mem_append_left _ hb)).trans (KValue2.args15 m ρ c b hb)

theorem args17 (c : Dev nD) : ∀ b ∈ argRefs, W17 (F := Ideal) m ρ c (Proc.devRef .tc b) = m ((c : Thread nD τ).loc b) :=
  fun b hb => (keep4_1 (W16 (F := Ideal) m ρ c) b (List.mem_append_left _ hb)).trans (args16 m ρ c b hb)

theorem args18 (c : Dev nD) : ∀ b ∈ argRefs, W18 (F := Ideal) m ρ c (Proc.devRef .tc b) = m ((c : Thread nD τ).loc b) :=
  fun b hb => (keep4_2 (W17 (F := Ideal) m ρ c) b (List.mem_append_left _ hb)).trans (args17 m ρ c b hb)

/-! ## The last region's nine inputs at its entry -/

/-- The first layer's output stays through the first gather. -/
theorem h1_16 (c : Dev nD) : W16 (F := Ideal) m ρ c (Proc.devRef .tc main_v22) = W15 (F := Ideal) m ρ c (Proc.devRef .tc main_v22) :=
  keep4 (W15 (F := Ideal) m ρ c) main_v22 (by decide)

/-- Window 0: the first layer's rows at the false edges' sources. -/
theorem v38_18 (c : Dev nD) :
    W18 (F := Ideal) m ρ c (Proc.devRef .tc main_v38)
      = KVal.take (W15 (F := Ideal) m ρ c (Proc.devRef .tc main_v22)) (m ((c : Thread nD τ).loc main_arg13)) := by
  refine (keep4_2 (W17 (F := Ideal) m ρ c) main_v38 (by decide)).trans ?_
  refine (keep4_1 (W16 (F := Ideal) m ρ c) main_v38 (by decide)).trans ?_
  refine (take_v38 (W15 (F := Ideal) m ρ c)).trans ?_
  rw [KValue2.args15 m ρ c main_arg13 (by decide)]

/-- Window 1: the first layer's rows at the false edges' destinations. -/
theorem v39_18 (c : Dev nD) :
    W18 (F := Ideal) m ρ c (Proc.devRef .tc main_v39)
      = KVal.take (W15 (F := Ideal) m ρ c (Proc.devRef .tc main_v22)) (m ((c : Thread nD τ).loc main_arg14)) := by
  refine (keep4_2 (W17 (F := Ideal) m ρ c) main_v39 (by decide)).trans ?_
  refine (take_v39 (W16 (F := Ideal) m ρ c)).trans ?_
  rw [h1_16 m ρ c, args16 m ρ c main_arg14 (by decide)]

/-- Windows 2, 3: the two halves of the embedding weight. -/
theorem v40_18 (c : Dev nD) : W18 (F := Ideal) m ρ c (Proc.devRef .tc main_v40) = KVal.we1 (m ((c : Thread nD τ).loc main_arg5)) := by
  refine (w_v40 (W17 (F := Ideal) m ρ c)).trans ?_
  rw [args17 m ρ c main_arg5 (by decide)]
theorem v41_18 (c : Dev nD) : W18 (F := Ideal) m ρ c (Proc.devRef .tc main_v41) = KVal.we2 (m ((c : Thread nD τ).loc main_arg5)) := by
  refine (w_v41 (W17 (F := Ideal) m ρ c)).trans ?_
  rw [args17 m ρ c main_arg5 (by decide)]

/-- Window 4: the embedding bias as a row. -/
theorem v42_18 (c : Dev nD) : W18 (F := Ideal) m ρ c (Proc.devRef .tc main_v42) = KVal.row1 (m ((c : Thread nD τ).loc main_arg6)) := by
  refine (w_v42 (W17 (F := Ideal) m ρ c)).trans ?_
  rw [args17 m ρ c main_arg6 (by decide)]

/-- Windows 6, 8: the two heads' biases as cells. -/
theorem v43_18 (c : Dev nD) : W18 (F := Ideal) m ρ c (Proc.devRef .tc main_v43) = KVal.cell (m ((c : Thread nD τ).loc main_arg8)) := by
  refine (w_v43 (W17 (F := Ideal) m ρ c)).trans ?_
  rw [args17 m ρ c main_arg8 (by decide)]
theorem v44_18 (c : Dev nD) : W18 (F := Ideal) m ρ c (Proc.devRef .tc main_v44) = KVal.cell (m ((c : Thread nD τ).loc main_arg10)) := by
  refine (w_v44 (W17 (F := Ideal) m ρ c)).trans ?_
  rw [args17 m ρ c main_arg10 (by decide)]

/-! ## The last region's two outputs, and what it leaves alone -/

/-- Equal arguments give equal heads. -/
theorem edgeHead_congr {hs hs' hd hd' : FVec Ideal Cert.Spec.SE64 .f32} {a a' b b' : FVec Ideal Cert.Spec.SDD .f32}
    {β β' : FVec Ideal Cert.Spec.S1D .f32} {w w' : FVec Ideal Cert.Spec.SD1 .f32} {γ γ' : FVec Ideal Cert.Spec.S11 .f32}
    (h1 : hs = hs') (h2 : hd = hd') (h3 : a = a') (h4 : b = b') (h5 : β = β') (h6 : w = w') (h7 : γ = γ') :
    Cert.Spec.edgeHead hs hd a b β w γ = Cert.Spec.edgeHead hs' hd' a' b' β' w' γ' := by
  subst h1 h2 h3 h4 h5 h6 h7; rfl

/-- The mean head on the false edges. -/
theorem loc3_19 (c : Dev nD) :
    W19 (F := Ideal) m ρ c (Proc.devRef .tc main_v45_0)
      = KVal.head (m ((c : Thread nD τ).loc main_arg5)) (m ((c : Thread nD τ).loc main_arg6)) (W15 (F := Ideal) m ρ c (Proc.devRef .tc main_v22)) (m ((c : Thread nD τ).loc main_arg13)) (m ((c : Thread nD τ).loc main_arg14)) (m ((c : Thread nD τ).loc main_arg7)) (m ((c : Thread nD τ).loc main_arg8)) :=
  (W19_arr (F := Ideal) m ρ c 9).trans ((RegionEdge4.loc_arr (V18 (F := Ideal) m ρ) c).trans
    (edgeHead_congr (v38_18 m ρ c) (v39_18 m ρ c) (v40_18 m ρ c) (v41_18 m ρ c) (v42_18 m ρ c)
      (args18 m ρ c main_arg7 (by decide)) (v43_18 m ρ c)))

/-- The log-scale head on the false edges. -/
theorem ls3_19 (c : Dev nD) :
    W19 (F := Ideal) m ρ c (Proc.devRef .tc main_v45_1)
      = KVal.head (m ((c : Thread nD τ).loc main_arg5)) (m ((c : Thread nD τ).loc main_arg6)) (W15 (F := Ideal) m ρ c (Proc.devRef .tc main_v22)) (m ((c : Thread nD τ).loc main_arg13)) (m ((c : Thread nD τ).loc main_arg14)) (m ((c : Thread nD τ).loc main_arg9)) (m ((c : Thread nD τ).loc main_arg10)) :=
  (W19_arr (F := Ideal) m ρ c 10).trans ((RegionEdge4.ls_arr (V18 (F := Ideal) m ρ) c).trans
    (edgeHead_congr (v38_18 m ρ c) (v39_18 m ρ c) (v40_18 m ρ c) (v41_18 m ρ c) (v42_18 m ρ c)
      (args18 m ρ c main_arg9 (by decide)) (v44_18 m ρ c)))

/-- A buffer among the two true-edge heads and the second layer's output is not touched between the fourth
    region's exit and the last region's exit. -/
theorem keep15_19 (c : Dev nD) : ∀ b ∈ [main_v30_0, main_v30_1, main_v37],
    W19 (F := Ideal) m ρ c (Proc.devRef .tc b) = W15 (F := Ideal) m ρ c (Proc.devRef .tc b) := by
  intro b hb
  have h19 : W19 (F := Ideal) m ρ c (Proc.devRef .tc b) = W18 (F := Ideal) m ρ c (Proc.devRef .tc b) := by
    simp only [List.mem_cons, List.not_mem_nil, or_false] at hb
    rcases hb with rfl | rfl | rfl
    all_goals exact W19_of_ne (F := Ideal) m ρ c _ (by decide)
  refine h19.trans ?_
  refine (keep4_2 (W17 (F := Ideal) m ρ c) b (List.mem_append_right _ (List.mem_cons_of_mem _ (List.mem_cons_of_mem _ hb)))).trans ?_
  refine (keep4_1 (W16 (F := Ideal) m ρ c) b (List.mem_append_right _ (List.mem_cons_of_mem _ hb))).trans ?_
  exact keep4 (W15 (F := Ideal) m ρ c) b (List.mem_append_right _ (List.mem_cons_of_mem _ hb))

/-! ## The two results at the last boundary -/

theorem out0_20 (c : Dev nD) : W20 (F := Ideal) m ρ c (Proc.devRef .tc main_v37) = W15 (F := Ideal) m ρ c (Proc.devRef .tc main_v37) :=
  (keep5 (W19 (F := Ideal) m ρ c)).trans (keep15_19 m ρ c main_v37 (by decide))

theorem out1_20 (c : Dev nD) :
    W20 (F := Ideal) m ρ c (Proc.devRef .tc main_v70)
      = KVal.tail (W15 (F := Ideal) m ρ c (Proc.devRef .tc main_v30_0)) (W15 (F := Ideal) m ρ c (Proc.devRef .tc main_v30_1))
          (KVal.head (m ((c : Thread nD τ).loc main_arg5)) (m ((c : Thread nD τ).loc main_arg6)) (W15 (F := Ideal) m ρ c (Proc.devRef .tc main_v22)) (m ((c : Thread nD τ).loc main_arg13)) (m ((c : Thread nD τ).loc main_arg14)) (m ((c : Thread nD τ).loc main_arg7)) (m ((c : Thread nD τ).loc main_arg8)))
          (KVal.head (m ((c : Thread nD τ).loc main_arg5)) (m ((c : Thread nD τ).loc main_arg6)) (W15 (F := Ideal) m ρ c (Proc.devRef .tc main_v22)) (m ((c : Thread nD τ).loc main_arg13)) (m ((c : Thread nD τ).loc main_arg14)) (m ((c : Thread nD τ).loc main_arg9)) (m ((c : Thread nD τ).loc main_arg10))) := by
  refine (tail_v70 (W19 (F := Ideal) m ρ c)).trans ?_
  rw [keep15_19 m ρ c main_v30_0 (by decide), keep15_19 m ρ c main_v30_1 (by decide), loc3_19 m ρ c, ls3_19 m ρ c]

end Cert.KernelIdeal.KValue3

end
-- ==== Proof.KValue.lean ====
import proofs.«411890_j54623394070984_2_alg».proof.Proof.KValue3

set_option maxRecDepth 16384

noncomputable section

/-
  The kernel program's two results as functions of its arguments: the second layer's output on the first layer's, and the loss of the
  heads on the first layer's output at the true and the false edges — the three stretches of the run composed.
-/
namespace Cert.KernelIdeal.KValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The first result: two message-passing layers of the arguments. -/
theorem out0_eq (c : Dev nD) :
    W20 (F := Ideal) m ρ c (Proc.devRef .tc main_v37)
      = KVal.out0 (m ((c : Thread nD τ).loc main_arg5)) (m ((c : Thread nD τ).loc main_arg6)) (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  rw [KValue3.out0_20, KValue2.h2_15, KValue1.h1_9]
  rfl

/-- The second result: the loss of the four heads on the first layer's output. -/
theorem out1_eq (c : Dev nD) :
    W20 (F := Ideal) m ρ c (Proc.devRef .tc main_v70)
      = KVal.out1 (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) := by
  rw [KValue3.out1_20, KValue2.loc2_15, KValue2.ls2_15, KValue2.h1_15, KValue1.h1_9]
  rfl

end Cert.KernelIdeal.KValue

end
-- ==== Proof.RVal.lean ====
/-
  The reference program, as functions of whole arrays over the extended reals, in the program's own operations.

  `wrap`, `rows`, `norm`, `agg` and `tail` are as on the kernel's side: the negative wrap of an index vector, the gathered rows, 1 / max(1, in-degree),
  scatter-add of messages scaled per row, and the contrastive loss. The edge network here is one product of the joined rows [h[s] | h[d]]
  (128 wide) with the whole embedding weight, plus the bias, clipped below at zero (`hiddenR`); a head is the hidden layer against a weight
  column plus its bias (`headR`); a message is the source row scaled by the mean head (`msgR`); the node layer is `denseR`.
-/
import proofs.«411890_j54623394070984_2_alg».proof.ReferenceIdeal
import proofs.«411890_j54623394070984_2_alg».proof.Proof.Gen.ReferenceIdeal
import Idealize.ShloMosaic.PureOps.Ideal

noncomputable section

namespace Cert.ReferenceIdeal.RVal

open Idealize.ShloMosaic Cert.ReferenceIdeal
open Facts₀ Facts

/-- An index vector after the negative wrap (i < 0 ↦ i + 50000), as a column. -/
def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The rows of `h` the wrapped indices name (a gather clamps what is out of range). -/
def rows (h : FVec Ideal S50000x64 .f32) (idx : IVec S800000 32) : FVec Ideal S800000x64 .f32 :=
  Host.gather gather_S50000x64_S800000x1_S800000x64_1_0_n_n_0_1_164 h (wrap idx)

/-- 1 / max(1, in-degree of each node), as a column. -/
def norm (dst : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf (broadcastInDim S50000 ![] bcast_S_S50000 (id (constant (F := Ideal) S_ .f32 0x3F800000#32)))
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))))

/-- Messages summed into their destination rows, each row scaled by `nrm`. -/
def agg (msg : FVec Ideal S800000x64 .f32) (dst : IVec S800000 32) (nrm : FVec Ideal S50000x1 .f32) : FVec Ideal S50000x64 .f32 :=
  mulf (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst) msg)
    (broadcastInDim S50000x64 ![0, 1] bcast_S50000x1_S50000x64_0_1 nrm)

/-- A word spread over the edge column. -/
def bc (w : BitVec 32) : FVec Ideal S800000x1 .f32 :=
  broadcastInDim S800000x1 ![] bcast_S_S800000x1 (constant (F := Ideal) S_ .f32 w)

/-- The Gaussian log-density of `x` under mean `loc` and log-scale `ls`: −½·z·z − ls − ½·ln 2π with z = (x − loc) / exp ls. -/
def logp (x loc ls : FVec Ideal S800000x1 .f32) : FVec Ideal S800000x1 .f32 :=
  subf (subf (mulf (mulf (bc 0xBF000000#32) (Host.divf (subf x loc) (Host.exp ls))) (Host.divf (subf x loc) (Host.exp ls))) ls)
    (bc 0x3F6B3F8E#32)

/-- The contrastive loss: −log p(1 | true edge) − log p(0 | false edge), summed over the edges and divided by their number. -/
def tail (loc ls locn lsn : FVec Ideal S800000x1 .f32) : FVec Ideal S_ .f32 :=
  Host.divf
    (Host.reduceAdd
      (Host.reduceAdd (subf (Host.negf (logp (bc 0x3F800000#32) loc ls)) (logp (bc 0x00000000#32) locn lsn))
        (constant (F := Ideal) S_ .f32 0x00000000#32) reducesTo_S800000x1_S800000_d1 h_S_)
      (constant (F := Ideal) S_ .f32 0x00000000#32) reducesTo_S800000_S_d0 h_S_)
    (constant (F := Ideal) S_ .f32 0x49435000#32)

/-- The hidden layer: the joined rows against the embedding weight, plus the bias, clipped below at zero. -/
def hiddenR (hs hd : FVec Ideal S800000x64 .f32) (We : FVec Ideal S128x64 .f32) (be : FVec Ideal S64 .f32) : FVec Ideal S800000x64 .f32 :=
  maximumf
    (addf (Host.dotGeneral dot_S800000x128_S128x64_S800000x64_1_0_0_1_n_n none
        (concatenate S800000x128 1 [⟨S800000x64, hs⟩, ⟨S800000x64, hd⟩] concatenates_S800000x64_S800000x64_S800000x128_d1) We)
      (broadcastInDim S800000x64 ![0, 1] bcast_S1x64_S800000x64_0_1 (broadcastInDim S1x64 ![1] bcast_S64_S1x64_1 be)))
    (broadcastInDim S800000x64 ![] bcast_S_S800000x64 (constant (F := Ideal) S_ .f32 0x00000000#32))

/-- A head: the hidden layer against a weight column, plus its bias. -/
def headR (he : FVec Ideal S800000x64 .f32) (w : FVec Ideal S64x1 .f32) (b : FVec Ideal S1 .f32) : FVec Ideal S800000x1 .f32 :=
  addf (Host.dotGeneral dot_S800000x64_S64x1_S800000x1_1_0_0_1_n_n none he w)
    (broadcastInDim S800000x1 ![0, 1] bcast_S1x1_S800000x1_0_1 (broadcastInDim S1x1 ![1] bcast_S1_S1x1_1 b))

/-- A message: the source row scaled by the head. -/
def msgR (hs : FVec Ideal S800000x64 .f32) (loc : FVec Ideal S800000x1 .f32) : FVec Ideal S800000x64 .f32 :=
  mulf hs (broadcastInDim S800000x64 ![0, 1] bcast_S800000x1_S800000x64_0_1 loc)

/-- The node layer: rows against the weight, plus the bias, clipped below at zero. -/
def denseR (x : FVec Ideal S50000x64 .f32) (W : FVec Ideal S64x64 .f32) (b : FVec Ideal S64 .f32) : FVec Ideal S50000x64 .f32 :=
  maximumf
    (addf (Host.dotGeneral dot_S50000x64_S64x64_S50000x64_1_0_0_1_n_n none x W)
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

variable (We : FVec Ideal S128x64 .f32) (be : FVec Ideal S64 .f32) (Wloc : FVec Ideal S64x1 .f32) (bloc : FVec Ideal S1 .f32)
  (Wls : FVec Ideal S64x1 .f32) (bls : FVec Ideal S1 .f32)

/-- A head of the edge network on the rows of `h` at the index vectors `s`, `d`. -/
def head (h : FVec Ideal S50000x64 .f32) (s d : IVec S800000 32) (w : FVec Ideal S64x1 .f32) (b : FVec Ideal S1 .f32) :
    FVec Ideal S800000x1 .f32 :=
  headR (hiddenR (rows h s) (rows h d) We be) w b

/-- One message-passing layer. -/
def layer (h : FVec Ideal S50000x64 .f32) (W : FVec Ideal S64x64 .f32) (b : FVec Ideal S64 .f32) (src dst : IVec S800000 32) :
    FVec Ideal S50000x64 .f32 :=
  denseR (agg (msgR (rows h src) (head We be h src dst Wloc bloc)) dst (norm dst)) W b

/-- The first result: two layers. -/
def out0 (feat : FVec Ideal S50000x64 .f32) (W1 : FVec Ideal S64x64 .f32) (b1 : FVec Ideal S64 .f32) (W2 : FVec Ideal S64x64 .f32)
    (b2 : FVec Ideal S64 .f32) (src dst : IVec S800000 32) : FVec Ideal S50000x64 .f32 :=
  layer We be Wloc bloc (layer We be Wloc bloc feat W1 b1 src dst) W2 b2 src dst

/-- The second result: the loss of the heads on the first layer's output, true edges against false edges. -/
def out1 (feat : FVec Ideal S50000x64 .f32) (W1 : FVec Ideal S64x64 .f32) (b1 : FVec Ideal S64 .f32)
    (src dst fsrc fdst : IVec S800000 32) : FVec Ideal S_ .f32 :=
  tail (head We be (layer We be Wloc bloc feat W1 b1 src dst) src dst Wloc bloc)
    (head We be (layer We be Wloc bloc feat W1 b1 src dst) src dst Wls bls)
    (head We be (layer We be Wloc bloc feat W1 b1 src dst) fsrc fdst Wloc bloc)
    (head We be (layer We be Wloc bloc feat W1 b1 src dst) fsrc fdst Wls bls)

end Cert.ReferenceIdeal.RVal

end
-- ==== Proof.RRun.lean ====
/-
  The reference program's two results, as the compositions of its arguments named in the reference's own vocabulary.

  The program's run ends each result buffer at one composed term of the arguments. That term is, operation for operation, the
  composition two message-passing layers deep (the first result) and the contrastive loss of the heads on the first layer's
  output, true edges against false edges (the second result): unfolding the vocabulary on the right leaves the same term on both
  sides. The first layer's own loss, which the program also computes, enters neither result.
-/
import proofs.«411890_j54623394070984_2_alg».proof.Proof.Gen.ReferenceIdeal.Run
import proofs.«411890_j54623394070984_2_alg».proof.Proof.RVal

noncomputable section

namespace Cert.ReferenceIdeal.RRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

-- An argument's contents at launch.
set_option quotPrecheck false in
local notation "arg⟨" b "⟩" => m ((c.tc : Thread nD τ).loc b)

set_option maxRecDepth 65536 in
set_option maxHeartbeats 4000000 in
/-- The first result is two layers on the features: arguments 5 to 8 are the edge network's weights, 0 the features, 1 to 4 the
    two node layers' weights and biases, 11 and 12 the edges' sources and destinations. -/
theorem out0_eq : Value.res_main_v154 (F := Ideal) m c
    = RVal.out0 arg⟨main_arg5⟩ arg⟨main_arg6⟩ arg⟨main_arg7⟩ arg⟨main_arg8⟩ arg⟨main_arg0⟩ arg⟨main_arg1⟩ arg⟨main_arg2⟩
        arg⟨main_arg3⟩ arg⟨main_arg4⟩ arg⟨main_arg11⟩ arg⟨main_arg12⟩ := by
  unfold Value.res_main_v154 RVal.out0 RVal.layer RVal.head RVal.headR RVal.hiddenR RVal.msgR RVal.denseR RVal.agg RVal.norm
    RVal.rows RVal.wrap
  rfl

set_option maxRecDepth 65536 in
set_option maxHeartbeats 16000000 in
/-- The second result is the loss of the two heads (arguments 7, 8 and 9, 10) on the first layer's output, on the true edges
    (11, 12) against the false ones (13, 14). -/
theorem out1_eq : Value.res_main_v207 (F := Ideal) m c
    = RVal.out1 arg⟨main_arg5⟩ arg⟨main_arg6⟩ arg⟨main_arg7⟩ arg⟨main_arg8⟩ arg⟨main_arg9⟩ arg⟨main_arg10⟩ arg⟨main_arg0⟩
        arg⟨main_arg1⟩ arg⟨main_arg2⟩ arg⟨main_arg11⟩ arg⟨main_arg12⟩ arg⟨main_arg13⟩ arg⟨main_arg14⟩ := by
  unfold Value.res_main_v207 RVal.out1 RVal.tail RVal.logp RVal.bc RVal.layer RVal.head RVal.headR RVal.hiddenR RVal.msgR RVal.denseR
    RVal.agg RVal.norm RVal.rows RVal.wrap
  rfl

end Cert.ReferenceIdeal.RRun

end
-- ==== Proof.BridgeShared.lean ====
/-
  The pieces the two programs share are the same functions: each is written in one program's operations and in the other's, and the
  two spellings differ only in the names of shape facts (propositions) and of the records of dimension numbers (equal field by field).
-/
import proofs.«411890_j54623394070984_2_alg».proof.Proof.KVal
import proofs.«411890_j54623394070984_2_alg».proof.Proof.RVal

noncomputable section

namespace Cert.Bridge

open Idealize.ShloMosaic
open Cert.KernelIdeal (KVal.wrap KVal.rows KVal.norm KVal.agg KVal.tail KVal.logp KVal.bc)

/-- The wrapped index column is the same on both sides. -/
theorem wrap_eq (idx : IVec Cert.KernelIdeal.S800000 32) : Cert.KernelIdeal.KVal.wrap idx = Cert.ReferenceIdeal.RVal.wrap idx := rfl

/-- The gathered rows are the same on both sides. -/
theorem rows_eq (h : FVec Ideal Cert.KernelIdeal.S50000x64 .f32) (idx : IVec Cert.KernelIdeal.S800000 32) :
    Cert.KernelIdeal.KVal.rows h idx = Cert.ReferenceIdeal.RVal.rows h idx := rfl

/-- The degree normalisation is the same on both sides. -/
theorem norm_eq (dst : IVec Cert.KernelIdeal.S800000 32) : Cert.KernelIdeal.KVal.norm dst = Cert.ReferenceIdeal.RVal.norm dst := rfl

/-- The aggregation is the same on both sides. -/
theorem agg_eq (msg : FVec Ideal Cert.KernelIdeal.S800000x64 .f32) (dst : IVec Cert.KernelIdeal.S800000 32)
    (nrm : FVec Ideal Cert.KernelIdeal.S50000x1 .f32) :
    Cert.KernelIdeal.KVal.agg msg dst nrm = Cert.ReferenceIdeal.RVal.agg msg dst nrm := rfl

/-- The loss is the same on both sides. -/
theorem tail_eq (loc ls locn lsn : FVec Ideal Cert.KernelIdeal.S800000x1 .f32) :
    Cert.KernelIdeal.KVal.tail loc ls locn lsn = Cert.ReferenceIdeal.RVal.tail loc ls locn lsn := rfl

end Cert.Bridge

end
-- ==== Proof.BridgeOps.lean ====
/-
  The edge network and the node layer, read index by index on both sides.

  The reference joins the source row and the destination row of an edge into one row of 128 entries and multiplies it with the
  whole 128×64 embedding weight; the kernel multiplies the two 64-entry rows with the upper and the lower half of that weight and
  adds. A sum over 128 indices is the sum over the first 64 plus the sum over the last 64; on the first 64 the joined row is the
  source row and the weight's rows are the upper half's, on the last 64 (shifted down by 64) the destination row and the lower half's.
  Addition of extended reals is associative, so the two hidden layers agree entry by entry, and with them the heads, the messages
  and (with no split at all) the node layer. Each whole-array operation is first read at an index: a product as the sum over its
  contracted axis, a join along the columns as the piece that holds the column, a bias spread over the rows as the bias entry of
  the column, a slice as the operand shifted by its offset, a re-laid vector as the vector.
-/
import proofs.«411890_j54623394070984_2_alg».proof.Proof.Spec
import proofs.«411890_j54623394070984_2_alg».proof.Proof.KVal
import proofs.«411890_j54623394070984_2_alg».proof.Proof.RVal
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx
open Cert.ReferenceIdeal Cert.ReferenceIdeal.Facts₀ Cert.ReferenceIdeal.Facts

/-! ## The reference's products at an index -/

theorem lhs_e128_0 (i : S800000x64.Idx) (q : dot_S800000x128_S128x64_S800000x64_1_0_0_1_n_n.contr.Idx) :
    (dot_S800000x128_S128x64_S800000x64_1_0_0_1_n_n.lhsIdx i q 0).val = (i 0).val := by
  unfold DotDims.lhsIdx
  rw [dif_neg (show ¬(0 : Fin S800000x128.rank) ∈ dot_S800000x128_S128x64_S800000x64_1_0_0_1_n_n.lhsBatch by decide), dif_pos (show (0 : Fin S800000x128.rank) ∈ dot_S800000x128_S128x64_S800000x64_1_0_0_1_n_n.lhsNonContracting by decide)]
  rfl
theorem lhs_e128_1 (i : S800000x64.Idx) (q : dot_S800000x128_S128x64_S800000x64_1_0_0_1_n_n.contr.Idx) :
    (dot_S800000x128_S128x64_S800000x64_1_0_0_1_n_n.lhsIdx i q 1).val = (q ⟨0, by decide⟩).val :=
  dot_S800000x128_S128x64_S800000x64_1_0_0_1_n_n.lhsIdx_val_of_single rfl i q
theorem rhs_e128_0 (i : S800000x64.Idx) (q : dot_S800000x128_S128x64_S800000x64_1_0_0_1_n_n.contr.Idx) :
    (dot_S800000x128_S128x64_S800000x64_1_0_0_1_n_n.rhsIdx i q 0).val = (q ⟨0, by decide⟩).val :=
  dot_S800000x128_S128x64_S800000x64_1_0_0_1_n_n.rhsIdx_val_of_single rfl i q
theorem rhs_e128_1 (i : S800000x64.Idx) (q : dot_S800000x128_S128x64_S800000x64_1_0_0_1_n_n.contr.Idx) :
    (dot_S800000x128_S128x64_S800000x64_1_0_0_1_n_n.rhsIdx i q 1).val = (i 1).val := by
  unfold DotDims.rhsIdx
  rw [dif_neg (show ¬(1 : Fin S128x64.rank) ∈ dot_S800000x128_S128x64_S800000x64_1_0_0_1_n_n.rhsBatch by decide), dif_pos (show (1 : Fin S128x64.rank) ∈ dot_S800000x128_S128x64_S800000x64_1_0_0_1_n_n.rhsNonContracting by decide)]
  rfl

/-- The 800000×128 by 128×64 product at an entry: the row against the column. -/
theorem dot_e128_apply (y : FVec Ideal S800000x128 .f32) (z : FVec Ideal S128x64 .f32) (p : Fin 800000) (j : Fin 64) :
    Host.dotGeneral dot_S800000x128_S128x64_S800000x64_1_0_0_1_n_n none y z (ix2 p j) = ∑ k : Fin 128, y (ix2 p k) * z (ix2 k j) := by
  simp only [Host.dotGeneral]
  rw [Ideal.dotGeneral_apply, ← Equiv.sum_comp (ValueIdx.contrEquiv1 dot_S800000x128_S128x64_S800000x64_1_0_0_1_n_n 128 rfl rfl).symm]
  refine Finset.sum_congr rfl fun k _ => ?_
  have hk := ValueIdx.contrEquiv1_symm_val dot_S800000x128_S128x64_S800000x64_1_0_0_1_n_n 128 rfl rfl k
  have el : dot_S800000x128_S128x64_S800000x64_1_0_0_1_n_n.lhsIdx (ix2 p j) ((ValueIdx.contrEquiv1 dot_S800000x128_S128x64_S800000x64_1_0_0_1_n_n 128 rfl rfl).symm k) = ix2 p k := funext fun a => Fin.ext (by
    match a with
    | ⟨0, _⟩ => exact lhs_e128_0 _ _
    | ⟨1, _⟩ => exact (lhs_e128_1 _ _).trans hk)
  have er : dot_S800000x128_S128x64_S800000x64_1_0_0_1_n_n.rhsIdx (ix2 p j) ((ValueIdx.contrEquiv1 dot_S800000x128_S128x64_S800000x64_1_0_0_1_n_n 128 rfl rfl).symm k) = ix2 k j := funext fun a => Fin.ext (by
    match a with
    | ⟨0, _⟩ => exact (rhs_e128_0 _ _).trans hk
    | ⟨1, _⟩ => exact rhs_e128_1 _ _)
  rw [el, er]

theorem lhs_e64_0 (i : S800000x1.Idx) (q : dot_S800000x64_S64x1_S800000x1_1_0_0_1_n_n.contr.Idx) :
    (dot_S800000x64_S64x1_S800000x1_1_0_0_1_n_n.lhsIdx i q 0).val = (i 0).val := by
  unfold DotDims.lhsIdx
  rw [dif_neg (show ¬(0 : Fin S800000x64.rank) ∈ dot_S800000x64_S64x1_S800000x1_1_0_0_1_n_n.lhsBatch by decide), dif_pos (show (0 : Fin S800000x64.rank) ∈ dot_S800000x64_S64x1_S800000x1_1_0_0_1_n_n.lhsNonContracting by decide)]
  rfl
theorem lhs_e64_1 (i : S800000x1.Idx) (q : dot_S800000x64_S64x1_S800000x1_1_0_0_1_n_n.contr.Idx) :
    (dot_S800000x64_S64x1_S800000x1_1_0_0_1_n_n.lhsIdx i q 1).val = (q ⟨0, by decide⟩).val :=
  dot_S800000x64_S64x1_S800000x1_1_0_0_1_n_n.lhsIdx_val_of_single rfl i q
theorem rhs_e64_0 (i : S800000x1.Idx) (q : dot_S800000x64_S64x1_S800000x1_1_0_0_1_n_n.contr.Idx) :
    (dot_S800000x64_S64x1_S800000x1_1_0_0_1_n_n.rhsIdx i q 0).val = (q ⟨0, by decide⟩).val :=
  dot_S800000x64_S64x1_S800000x1_1_0_0_1_n_n.rhsIdx_val_of_single rfl i q
theorem rhs_e64_1 (i : S800000x1.Idx) (q : dot_S800000x64_S64x1_S800000x1_1_0_0_1_n_n.contr.Idx) :
    (dot_S800000x64_S64x1_S800000x1_1_0_0_1_n_n.rhsIdx i q 1).val = (i 1).val := by
  unfold DotDims.rhsIdx
  rw [dif_neg (show ¬(1 : Fin S64x1.rank) ∈ dot_S800000x64_S64x1_S800000x1_1_0_0_1_n_n.rhsBatch by decide), dif_pos (show (1 : Fin S64x1.rank) ∈ dot_S800000x64_S64x1_S800000x1_1_0_0_1_n_n.rhsNonContracting by decide)]
  rfl

/-- The 800000×64 by 64×1 product at an entry. -/
theorem dot_e64_apply (y : FVec Ideal S800000x64 .f32) (z : FVec Ideal S64x1 .f32) (p : Fin 800000) (j : Fin 1) :
    Host.dotGeneral dot_S800000x64_S64x1_S800000x1_1_0_0_1_n_n none y z (ix2 p j) = ∑ k : Fin 64, y (ix2 p k) * z (ix2 k j) := by
  simp only [Host.dotGeneral]
  rw [Ideal.dotGeneral_apply, ← Equiv.sum_comp (ValueIdx.contrEquiv1 dot_S800000x64_S64x1_S800000x1_1_0_0_1_n_n 64 rfl rfl).symm]
  refine Finset.sum_congr rfl fun k _ => ?_
  have hk := ValueIdx.contrEquiv1_symm_val dot_S800000x64_S64x1_S800000x1_1_0_0_1_n_n 64 rfl rfl k
  have el : dot_S800000x64_S64x1_S800000x1_1_0_0_1_n_n.lhsIdx (ix2 p j) ((ValueIdx.contrEquiv1 dot_S800000x64_S64x1_S800000x1_1_0_0_1_n_n 64 rfl rfl).symm k) = ix2 p k := funext fun a => Fin.ext (by
    match a with
    | ⟨0, _⟩ => exact lhs_e64_0 _ _
    | ⟨1, _⟩ => exact (lhs_e64_1 _ _).trans hk)
  have er : dot_S800000x64_S64x1_S800000x1_1_0_0_1_n_n.rhsIdx (ix2 p j) ((ValueIdx.contrEquiv1 dot_S800000x64_S64x1_S800000x1_1_0_0_1_n_n 64 rfl rfl).symm k) = ix2 k j := funext fun a => Fin.ext (by
    match a with
    | ⟨0, _⟩ => exact (rhs_e64_0 _ _).trans hk
    | ⟨1, _⟩ => exact rhs_e64_1 _ _)
  rw [el, er]

theorem lhs_n64_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem lhs_n64_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem rhs_n64_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem rhs_n64_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The 50000×64 by 64×64 product at an entry. -/
theorem dot_n64_apply (y : FVec Ideal S50000x64 .f32) (z : FVec Ideal S64x64 .f32) (p : Fin 50000) (j : Fin 64) :
    Host.dotGeneral dot_S50000x64_S64x64_S50000x64_1_0_0_1_n_n none y z (ix2 p j) = ∑ k : Fin 64, y (ix2 p k) * z (ix2 k j) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 p j) ((ValueIdx.contrEquiv1 dot_S50000x64_S64x64_S50000x64_1_0_0_1_n_n 64 rfl rfl).symm k) = ix2 p k := funext fun a => Fin.ext (by
    match a with
    | ⟨0, _⟩ => exact lhs_n64_0 _ _
    | ⟨1, _⟩ => exact (lhs_n64_1 _ _).trans hk)
  have er : dot_S50000x64_S64x64_S50000x64_1_0_0_1_n_n.rhsIdx (ix2 p j) ((ValueIdx.contrEquiv1 dot_S50000x64_S64x64_S50000x64_1_0_0_1_n_n 64 rfl rfl).symm k) = ix2 k j := funext fun a => Fin.ext (by
    match a with
    | ⟨0, _⟩ => exact (rhs_n64_0 _ _).trans hk
    | ⟨1, _⟩ => exact rhs_n64_1 _ _)
  rw [el, er]

/-! ## A sum over 128 indices as two sums over 64 -/

/-- Index `k` of the first half of 128. -/
abbrev lo (k : Fin 64) : Fin 128 := ⟨k.val, by omega⟩
/-- Index `64 + k` of the second half of 128. -/
abbrev hi (k : Fin 64) : Fin 128 := ⟨64 + k.val, by omega⟩

theorem sum_halves {M : Type} [AddCommMonoid M] (f : Fin 128 → M) :
    ∑ k : Fin 128, f k = (∑ k : Fin 64, f (lo k)) + ∑ k : Fin 64, f (hi k) :=
  Fin.sum_univ_add (a := 64) (b := 64) f

/-! ## The joined rows at an index -/

/-- A column below 64 of the joined rows is the source row's. -/
theorem cat_lo (hs hd : FVec Ideal S800000x64 .f32) (p : Fin 800000) (k : Fin 64) :
    concatenate S800000x128 1 [⟨S800000x64, hs⟩, ⟨S800000x64, hd⟩] concatenates_S800000x64_S800000x64_S800000x128_d1 (ix2 p (lo k))
      = hs (ix2 p k) :=
  concatenate_pair_apply_left 1 hs hd concatenates_S800000x64_S800000x64_S800000x128_d1 _ rfl _ (fun b => by
    match b with
    | ⟨0, _⟩ => rfl
    | ⟨1, _⟩ => rfl)

/-- A column from 64 on of the joined rows is the destination row's, 64 less. -/
theorem cat_hi (hs hd : FVec Ideal S800000x64 .f32) (p : Fin 800000) (k : Fin 64) :
    concatenate S800000x128 1 [⟨S800000x64, hs⟩, ⟨S800000x64, hd⟩] concatenates_S800000x64_S800000x64_S800000x128_d1 (ix2 p (hi k))
      = hd (ix2 p k) :=
  concatenate_pair_apply_right 1 hs hd concatenates_S800000x64_S800000x64_S800000x128_d1 _ rfl rfl _
    (fun b hb => by
      match b with
      | ⟨0, _⟩ => rfl
      | ⟨1, _⟩ => exact absurd rfl hb)
    (by show k.val + 64 = 64 + k.val; omega)

/-! ## Biases, the column of heads and the zero array at an index -/

/-- The 64-vector spread over 800000 rows reads its entry of the column. -/
theorem bias_e_apply (be : FVec Ideal S64 .f32) (p : Fin 800000) (j : Fin 64) :
    broadcastInDim S800000x64 ![0, 1] bcast_S1x64_S800000x64_0_1 (broadcastInDim S1x64 ![1] bcast_S64_S1x64_1 be) (ix2 p j) = be (ix1 j) := by
  refine (broadcastInDim_apply _ bcast_S1x64_S800000x64_0_1 _ (ix2 p j) (ix2 (0 : Fin 1) j) (fun a => by
    match a with
    | ⟨0, _⟩ => show 0 = if (1 : Nat) = 1 then 0 else p.val; rw [if_pos rfl]
    | ⟨1, _⟩ => show j.val = if (64 : Nat) = 1 then 0 else j.val; rw [if_neg (by decide)])).trans ?_
  exact broadcastInDim_apply _ bcast_S64_S1x64_1 be (ix2 (0 : Fin 1) j) (ix1 j) (fun a => by
    match a with
    | ⟨0, _⟩ => show j.val = if (64 : Nat) = 1 then 0 else j.val; rw [if_neg (by decide)])

/-- The 64-vector spread over 50000 rows reads its entry of the column. -/
theorem bias_n_apply (β : FVec Ideal S64 .f32) (p : Fin 50000) (j : Fin 64) :
    broadcastInDim S50000x64 ![0, 1] bcast_S1x64_S50000x64_0_1 (broadcastInDim S1x64 ![1] bcast_S64_S1x64_1 β) (ix2 p j) = β (ix1 j) := by
  refine (broadcastInDim_apply _ bcast_S1x64_S50000x64_0_1 _ (ix2 p j) (ix2 (0 : Fin 1) j) (fun a => by
    match a with
    | ⟨0, _⟩ => show 0 = if (1 : Nat) = 1 then 0 else p.val; rw [if_pos rfl]
    | ⟨1, _⟩ => show j.val = if (64 : Nat) = 1 then 0 else j.val; rw [if_neg (by decide)])).trans ?_
  exact broadcastInDim_apply _ bcast_S64_S1x64_1 β (ix2 (0 : Fin 1) j) (ix1 j) (fun a => by
    match a with
    | ⟨0, _⟩ => show j.val = if (64 : Nat) = 1 then 0 else j.val; rw [if_neg (by decide)])

/-- The 1-vector spread over the edge column reads its one entry. -/
theorem bias_1_apply (b : FVec Ideal S1 .f32) (p : Fin 800000) (q : Fin 1) :
    broadcastInDim S800000x1 ![0, 1] bcast_S1x1_S800000x1_0_1 (broadcastInDim S1x1 ![1] bcast_S1_S1x1_1 b) (ix2 p q) = b (ix1 0) := by
  refine (broadcastInDim_apply _ bcast_S1x1_S800000x1_0_1 _ (ix2 p q) (ix2 (0 : Fin 1) (0 : Fin 1)) (fun a => by
    match a with
    | ⟨0, _⟩ => show 0 = if (1 : Nat) = 1 then 0 else p.val; rw [if_pos rfl]
    | ⟨1, _⟩ => show 0 = if (1 : Nat) = 1 then 0 else q.val; rw [if_pos rfl])).trans ?_
  exact broadcastInDim_apply _ bcast_S1_S1x1_1 b (ix2 (0 : Fin 1) (0 : Fin 1)) (ix1 0) (fun a => by
    match a with
    | ⟨0, _⟩ => show 0 = if (1 : Nat) = 1 then 0 else 0; rw [if_pos rfl])

/-- The edge column spread over 64 lanes reads the edge's entry. -/
theorem col_apply (loc : FVec Ideal S800000x1 .f32) (p : Fin 800000) (j : Fin 64) :
    broadcastInDim S800000x64 ![0, 1] bcast_S800000x1_S800000x64_0_1 loc (ix2 p j) = loc (ix2 p 0) :=
  broadcastInDim_apply _ bcast_S800000x1_S800000x64_0_1 loc (ix2 p j) (ix2 p (0 : Fin 1)) (fun a => by
    match a with
    | ⟨0, _⟩ => show p.val = if (800000 : Nat) = 1 then 0 else p.val; rw [if_neg (by decide)]
    | ⟨1, _⟩ => show 0 = if (1 : Nat) = 1 then 0 else j.val; rw [if_pos rfl])

/-- The zero word spread over the edge rows is zero everywhere. -/
theorem zero_e_apply (i : S800000x64.Idx) :
    broadcastInDim S800000x64 ![] bcast_S_S800000x64 (constant (F := Ideal) S_ .f32 0x00000000#32) i = (0 : EReal) :=
  (broadcastInDim_apply _ bcast_S_S800000x64 (constant (F := Ideal) S_ .f32 0x00000000#32) i ix0 (fun a => a.elim0)).trans
    Ideal.ofBits_zero_f32

/-- The zero word spread over the node rows is zero everywhere. -/
theorem zero_n_apply (i : S50000x64.Idx) :
    broadcastInDim S50000x64 ![] bcast_S_S50000x64 (constant (F := Ideal) S_ .f32 0x00000000#32) i = (0 : EReal) :=
  (broadcastInDim_apply _ bcast_S_S50000x64 (constant (F := Ideal) S_ .f32 0x00000000#32) i ix0 (fun a => a.elim0)).trans
    Ideal.ofBits_zero_f32

/-! ## The halves of the weight, the row and the cell at an index -/

/-- The upper half of the weight: its rows are the weight's first 64. -/
theorem we1_apply (We : FVec Ideal S128x64 .f32) (k j : Fin 64) :
    Cert.KernelIdeal.KVal.we1 We (ix2 k j) = We (ix2 (lo k) j) := by
  unfold Cert.KernelIdeal.KVal.we1
  exact extractStridedSlice_apply _ We _ (ix2 k j) (ix2 (lo k) j) (fun a => by
    match a with
    | ⟨0, _⟩ => show k.val = 0 + k.val; omega
    | ⟨1, _⟩ => show j.val = 0 + j.val; omega)

/-- The lower half of the weight: its rows are the weight's last 64. -/
theorem we2_apply (We : FVec Ideal S128x64 .f32) (k j : Fin 64) :
    Cert.KernelIdeal.KVal.we2 We (ix2 k j) = We (ix2 (hi k) j) := by
  unfold Cert.KernelIdeal.KVal.we2
  exact extractStridedSlice_apply _ We _ (ix2 k j) (ix2 (hi k) j) (fun a => by
    match a with
    | ⟨0, _⟩ => show 64 + k.val = 64 + k.val; rfl
    | ⟨1, _⟩ => show j.val = 0 + j.val; omega)

/-- A 64-vector laid out as one row reads the vector. -/
theorem row1_apply (β : FVec Ideal S64 .f32) (u : Fin 1) (j : Fin 64) :
    Cert.KernelIdeal.KVal.row1 β (ix2 u j) = β (ix1 j) := by
  unfold Cert.KernelIdeal.KVal.row1
  exact shapeCast_a_1a_apply β _ u j

/-- A 1-vector laid out as one cell reads the vector. -/
theorem cell_apply (b : FVec Ideal S1 .f32) (u v : Fin 1) :
    Cert.KernelIdeal.KVal.cell b (ix2 u v) = b (ix1 v) := by
  unfold Cert.KernelIdeal.KVal.cell
  exact shapeCast_a_1a_apply b _ u v

/-! ## The hidden layer, the head, the message and the node layer -/

/-- The reference's hidden layer at an entry is the kernel's: the 128-term sum splits at 64. -/
theorem hiddenR_apply (hs hd : FVec Ideal S800000x64 .f32) (We : FVec Ideal S128x64 .f32) (be : FVec Ideal S64 .f32)
    (p : Fin 800000) (j : Fin 64) :
    Cert.ReferenceIdeal.RVal.hiddenR hs hd We be (ix2 p j)
      = Cert.Spec.hidden hs hd (Cert.KernelIdeal.KVal.we1 We) (Cert.KernelIdeal.KVal.we2 We) (Cert.KernelIdeal.KVal.row1 be) p j := by
  unfold Cert.ReferenceIdeal.RVal.hiddenR Cert.Spec.hidden
  rw [maximumf_apply, addf_apply, zero_e_apply, bias_e_apply, dot_e128_apply, sum_halves]
  simp only [cat_lo, cat_hi, we1_apply, we2_apply, row1_apply]

/-- The reference's head at an edge: the hidden row against the weight column, plus the bias. -/
theorem headR_apply (he : FVec Ideal S800000x64 .f32) (w : FVec Ideal S64x1 .f32) (b : FVec Ideal S1 .f32) (p : Fin 800000) (q : Fin 1) :
    Cert.ReferenceIdeal.RVal.headR he w b (ix2 p q) = (∑ k : Fin 64, he (ix2 p k) * w (ix2 k q)) + b (ix1 0) := by
  unfold Cert.ReferenceIdeal.RVal.headR
  rw [addf_apply, bias_1_apply, dot_e64_apply]

theorem head_eq (hs hd : FVec Ideal S800000x64 .f32) (We : FVec Ideal S128x64 .f32) (be : FVec Ideal S64 .f32)
    (w : FVec Ideal S64x1 .f32) (b : FVec Ideal S1 .f32) :
    Cert.Spec.edgeHead hs hd (Cert.KernelIdeal.KVal.we1 We) (Cert.KernelIdeal.KVal.we2 We) (Cert.KernelIdeal.KVal.row1 be) w
        (Cert.KernelIdeal.KVal.cell b)
      = Cert.ReferenceIdeal.RVal.headR (Cert.ReferenceIdeal.RVal.hiddenR hs hd We be) w b := by
  funext i
  obtain ⟨p, q, rfl⟩ : ∃ (p : Fin 800000) (q : Fin 1), i = ix2 p q := ⟨i 0, i 1, eq_ix2 i⟩
  have hq : q = 0 := Subsingleton.elim _ _
  subst hq
  rw [headR_apply]
  show (∑ k : Fin 64, Cert.Spec.hidden hs hd (Cert.KernelIdeal.KVal.we1 We) (Cert.KernelIdeal.KVal.we2 We)
      (Cert.KernelIdeal.KVal.row1 be) p k * w (ix2 k 0)) + Cert.KernelIdeal.KVal.cell b (ix2 0 0) = _
  simp only [hiddenR_apply, cell_apply]

theorem msg_eq (hs hd : FVec Ideal S800000x64 .f32) (We : FVec Ideal S128x64 .f32) (be : FVec Ideal S64 .f32)
    (w : FVec Ideal S64x1 .f32) (b : FVec Ideal S1 .f32) :
    Cert.Spec.edgeMsg hs hd (Cert.KernelIdeal.KVal.we1 We) (Cert.KernelIdeal.KVal.we2 We) (Cert.KernelIdeal.KVal.row1 be) w
        (Cert.KernelIdeal.KVal.cell b)
      = Cert.ReferenceIdeal.RVal.msgR hs (Cert.ReferenceIdeal.RVal.headR (Cert.ReferenceIdeal.RVal.hiddenR hs hd We be) w b) := by
  funext i
  obtain ⟨p, j, rfl⟩ : ∃ (p : Fin 800000) (j : Fin 64), i = ix2 p j := ⟨i 0, i 1, eq_ix2 i⟩
  unfold Cert.ReferenceIdeal.RVal.msgR
  rw [mulf_apply, col_apply, ← head_eq]
  rfl

theorem dense_eq (x : FVec Ideal S50000x64 .f32) (W : FVec Ideal S64x64 .f32) (β : FVec Ideal S64 .f32) :
    Cert.Spec.dense x W (Cert.KernelIdeal.KVal.row1 β) = Cert.ReferenceIdeal.RVal.denseR x W β := by
  funext i
  obtain ⟨p, j, rfl⟩ : ∃ (p : Fin 50000) (j : Fin 64), i = ix2 p j := ⟨i 0, i 1, eq_ix2 i⟩
  unfold Cert.ReferenceIdeal.RVal.denseR
  rw [maximumf_apply, addf_apply, zero_n_apply, bias_n_apply, dot_n64_apply]
  show max ((∑ k : Fin 64, x (ix2 p k) * W (ix2 k j)) + Cert.KernelIdeal.KVal.row1 β (ix2 0 j)) 0 = _
  rw [row1_apply]

end Cert.Bridge

end
-- ==== Proof.PreRange.lean ====
/-
  The four index vectors of the program (edge sources, edge destinations, and the two ends of the false edges) lie in
  [0, 50000): the precondition's last four conjuncts say, for each of them, that "0 ≤ i and i < 50000" holds at every
  entry (an all-reduce by `and` of the two signed comparisons). `of_pre` reads the four facts off the precondition:
  the predicate is a chain of `and`s whose four outermost links are these conjuncts, so four splittings of an `and`
  that is 1 reach them without opening the conjuncts before them.

  `take_eq_rows`: the program's guarded gather replaces a row by a fill word where the index, after the wrap
  i < 0 ↦ i + 50000, falls outside [0, 49999]. For an entry in [0, 50000) the wrap changes nothing (the entry is not
  negative) and 0 ≤ i ≤ 49999 holds, so the mask is 1 at every row and lane and the guarded gather is the plain gather.
-/
import proofs.«411890_j54623394070984_2_alg».proof.Defs
import proofs.«411890_j54623394070984_2_alg».proof.Proof.Gen.Pre_finite_inputs
import proofs.«411890_j54623394070984_2_alg».proof.Proof.Gen.KernelIdeal
import proofs.«411890_j54623394070984_2_alg».proof.Proof.KVal
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.PreRange

open Idealize.ShloMosaic Idealize.SL.Sem Cert.KernelIdeal Cert.KernelIdeal.Gen

/-- Every entry of an index vector lies in [0, 50000), as signed 32-bit words. -/
def InRange (idx : IVec S800000 32) : Prop :=
  ∀ e : S800000.Idx, IntOp.cmpi .sge (idx e) 0#32 = 1#1 ∧ IntOp.cmpi .slt (idx e) 50000#32 = 1#1

/-- The scalar shape has one index. -/
local instance : Subsingleton S_.Idx := ⟨fun a b => funext fun d => d.elim0⟩

/-- One conjunct: the all-reduce of (idx ≥ 0) ∧ (idx < 50000) being 1 says every entry is in range. -/
theorem inRange_of_all (idx : IVec S800000 32) (hb : S_.BroadcastsInDim S800000 (![] : Fin 0 → Fin S800000.rank))
    (hr : S800000.ReducesTo [0] S_) (hu : 0 < S_.numel) (j : S_.Idx)
    (h : Host.reduce IntOp.andi
        (andi (cmpi .sge idx (broadcastInDim S800000 ![] hb (constantI S_ 32 0#32)))
          (cmpi .slt idx (broadcastInDim S800000 ![] hb (constantI S_ 32 50000#32))))
        (constantI S_ 1 1#1) hr hu j = 1#1) : InRange idx := by
  intro e
  have he := Host.reduce_andi_all _ _ hr hu j h e
  exact IntOp.andi_eq_one.1 he

open Cert.Pre_finite_inputs in
/-- The last part of the predicate is 1: so are the conjunct it carries and the two index conjuncts it adds. -/
theorem part4 (a13 a14 : IVec S800000 32) (v : IVec S_ 1) (j : S_.Idx)
    (h : fn_part4 (F := Ideal) a13 a14 v j = 1#1) : v j = 1#1 ∧ InRange a13 ∧ InRange a14 := by
  unfold fn_part4 at h
  obtain ⟨h1, h14⟩ := IntOp.andi_eq_one.1 h
  obtain ⟨hv, h13⟩ := IntOp.andi_eq_one.1 h1
  exact ⟨hv, inRange_of_all _ _ _ _ j h13, inRange_of_all _ _ _ _ j h14⟩

open Cert.Pre_finite_inputs in
/-- The part before it is 1: its two index conjuncts hold, and the last part's two. -/
theorem part3 (a11 a12 a13 a14 : IVec S800000 32) (v : IVec S_ 1) (x y : FVec Ideal Cert.Pre_finite_inputs.S1 .f32) (j : S_.Idx)
    (h : fn_part3 (F := Ideal) a11 a12 a13 a14 v x y j = 1#1) : InRange a11 ∧ InRange a12 ∧ InRange a13 ∧ InRange a14 := by
  unfold fn_part3 at h
  obtain ⟨hv, h13, h14⟩ := part4 _ _ _ j h
  obtain ⟨h1, h12⟩ := IntOp.andi_eq_one.1 hv
  obtain ⟨_, h11⟩ := IntOp.andi_eq_one.1 h1
  exact ⟨inRange_of_all _ _ _ _ j h11, inRange_of_all _ _ _ _ j h12, h13, h14⟩

/-- THE PRECONDITION READ BACK: on every device the four index vectors lie in [0, 50000). -/
theorem of_pre (m : (ℓ : Loc nD τ sig) → Buf (Elt Ideal) ℓ) (h : Cert.Pre_KernelIdeal m) (c : Dev nD) :
    InRange (m ((c.tc : Thread nD τ).loc main_arg11)) ∧ InRange (m ((c.tc : Thread nD τ).loc main_arg12))
      ∧ InRange (m ((c.tc : Thread nD τ).loc main_arg13)) ∧ InRange (m ((c.tc : Thread nD τ).loc main_arg14)) := by
  have e := congrFun (h c) ValueIdx.ix0
  unfold Cert.Pre_finite_inputs.fn Cert.Pre_finite_inputs.fn_part1 Cert.Pre_finite_inputs.fn_part2 at e
  exact part3 _ _ _ _ _ _ _ _ e

/-! ## Under the range hypothesis the guarded gather is the plain gather -/

open ValueIdx

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduce by `and` from the constant 1 of an array of 1s is 1 everywhere. -/
theorem reduce_andi_one {s t u : Shape} {axes : List (Fin s.rank)} (x : s.Idx → BitVec 1) (h : s.ReducesTo axes t)
    (hu : 0 < u.numel) (j : t.Idx) (hx : ∀ i, x i = 1#1) :
    Host.reduce IntOp.andi x (constantI u 1 1#1) h hu j = 1#1 := by
  rw [Host.reduce_eq_foldl]
  exact foldl_andi_one x _ (fun n _ => hx n)

/-- A word in [0, 50000) is not negative and is at most 49999. -/
theorem word_facts (w : BitVec 32) (h0 : IntOp.cmpi .sge w 0#32 = 1#1) (h1 : IntOp.cmpi .slt w 50000#32 = 1#1) :
    IntOp.cmpi .slt w 0#32 ≠ 1#1 ∧ IntOp.cmpi .sle w 49999#32 = 1#1 := by
  have e0 : (0#32 : BitVec 32).toInt = 0 := by decide
  have e1 : (50000#32 : BitVec 32).toInt = 50000 := by decide
  have e2 : (49999#32 : BitVec 32).toInt = 49999 := by decide
  simp only [IntOp.cmpi, StableHlo.Predicate.ofBool_eq_one_iff, BitVec.slt, BitVec.sle, decide_eq_true_eq, e0, e1] at h0 h1
  constructor
  · simp only [IntOp.cmpi, StableHlo.Predicate.ofBool_eq_one_iff, BitVec.slt, decide_eq_true_eq, e0, ne_eq]; omega
  · simp only [IntOp.cmpi, StableHlo.Predicate.ofBool_eq_one_iff, BitVec.sle, decide_eq_true_eq, e2]; omega

/-- The wrapped index column at row `p`: the entry, moved up by 50000 when negative. -/
theorem wrap_apply (idx : IVec S800000 32) (p : Fin 800000) (q : Fin 1) :
    KVal.wrap idx (ix2 p q)
      = Scalar.select (IntOp.cmpi .slt (idx (ix1 p)) 0#32) (IntOp.addi (idx (ix1 p)) 50000#32) (idx (ix1 p)) := by
  unfold KVal.wrap
  rw [broadcastInDim_apply _ _ _ _ (ix1 p) (fun a => by match a with | ⟨0, _⟩ => rfl)]
  rfl

/-- In range, the wrap leaves the entry as it is. -/
theorem wrap_of_inRange (idx : IVec S800000 32) (hr : InRange idx) (p : Fin 800000) (q : Fin 1) :
    KVal.wrap idx (ix2 p q) = idx (ix1 p) := by
  rw [wrap_apply]
  exact if_neg (word_facts _ (hr (ix1 p)).1 (hr (ix1 p)).2).1

/-- In range, the mask is 1 at every row and lane. -/
theorem inb_of_inRange (idx : IVec S800000 32) (hr : InRange idx) (p : Fin 800000) (q : Fin 64) :
    KVal.inb idx (ix2 p q) = 1#1 := by
  unfold KVal.inb
  rw [broadcastInDim_apply _ _ _ _ (ix1 p) (fun a => by match a with | ⟨0, _⟩ => rfl)]
  refine reduce_andi_one _ _ _ _ (fun i => ?_)
  obtain ⟨p', q', rfl⟩ : ∃ (p' : Fin 800000) (q' : Fin 1), i = ix2 p' q' := ⟨i 0, i 1, eq_ix2 i⟩
  show IntOp.andi (IntOp.cmpi .sge (KVal.wrap idx (ix2 p' q')) 0#32) (IntOp.cmpi .sle (KVal.wrap idx (ix2 p' q')) 49999#32) = 1#1
  rw [wrap_of_inRange idx hr]
  exact IntOp.andi_eq_one.2 ⟨(hr (ix1 p')).1, (word_facts _ (hr (ix1 p')).1 (hr (ix1 p')).2).2⟩

/-- Under the range hypothesis the guarded gather never takes its fill word: it is the plain gather. -/
theorem take_eq_rows (h : FVec Ideal S50000x64 .f32) (idx : IVec S800000 32) (hr : InRange idx) :
    KVal.take h idx = KVal.rows h idx := by
  funext j
  obtain ⟨p, q, rfl⟩ : ∃ (p : Fin 800000) (q : Fin 64), j = ix2 p q := ⟨j 0, j 1, eq_ix2 j⟩
  unfold KVal.take
  show Scalar.select (KVal.inb idx (ix2 p q)) _ _ = _
  rw [inb_of_inRange idx hr]
  rfl

end Cert.KernelIdeal.PreRange

end
-- ==== Proof.Bridge.lean ====
/-
  Under the index precondition the two programs compute the same two results.

  Three things differ between them, and each is bridged once: the kernel's guarded gather is the plain gather when every index is in
  range; the kernel's split edge network (two 64-wide products with the halves of the embedding weight) is the reference's one 128-wide
  product of the joined rows; the kernel's node layer is the reference's. Everything else — the negative wrap, the degree normalisation,
  the aggregation, the loss — is the same function on both sides.
-/
import proofs.«411890_j54623394070984_2_alg».proof.Proof.BridgeShared
import proofs.«411890_j54623394070984_2_alg».proof.Proof.BridgeOps
import proofs.«411890_j54623394070984_2_alg».proof.Proof.PreRange

noncomputable section

namespace Cert.Bridge

open Idealize.ShloMosaic
open Cert.KernelIdeal (S800000 S800000x64 S800000x1 S50000x64 S64x64 S64 S128x64 S64x1 S1 S_)
open Cert.KernelIdeal.PreRange (InRange take_eq_rows)

variable (We : FVec Ideal S128x64 .f32) (be : FVec Ideal S64 .f32) (Wloc : FVec Ideal S64x1 .f32) (bloc : FVec Ideal S1 .f32)
  (Wls : FVec Ideal S64x1 .f32) (bls : FVec Ideal S1 .f32)

/-- A head on in-range index vectors is the same on both sides. -/
theorem head_bridge (h : FVec Ideal S50000x64 .f32) (s d : IVec S800000 32) (w : FVec Ideal S64x1 .f32) (b : FVec Ideal S1 .f32)
    (hs : InRange s) (hd : InRange d) :
    Cert.KernelIdeal.KVal.head We be h s d w b = Cert.ReferenceIdeal.RVal.head We be h s d w b := by
  unfold Cert.KernelIdeal.KVal.head Cert.ReferenceIdeal.RVal.head
  rw [take_eq_rows h s hs, take_eq_rows h d hd, head_eq, rows_eq, rows_eq]

/-- A layer on in-range edge lists is the same on both sides. -/
theorem layer_bridge (h : FVec Ideal S50000x64 .f32) (W : FVec Ideal S64x64 .f32) (b : FVec Ideal S64 .f32) (src dst : IVec S800000 32)
    (hs : InRange src) (hd : InRange dst) :
    Cert.KernelIdeal.KVal.layer We be Wloc bloc h W b src dst = Cert.ReferenceIdeal.RVal.layer We be Wloc bloc h W b src dst := by
  unfold Cert.KernelIdeal.KVal.layer Cert.ReferenceIdeal.RVal.layer Cert.ReferenceIdeal.RVal.head
  rw [take_eq_rows h src hs, take_eq_rows h dst hd, msg_eq, dense_eq, agg_eq, norm_eq, rows_eq, rows_eq]

/-- The first result is the same on both sides. -/
theorem out0_bridge (feat : FVec Ideal S50000x64 .f32) (W1 : FVec Ideal S64x64 .f32) (b1 : FVec Ideal S64 .f32)
    (W2 : FVec Ideal S64x64 .f32) (b2 : FVec Ideal S64 .f32) (src dst : IVec S800000 32) (hs : InRange src) (hd : InRange dst) :
    Cert.KernelIdeal.KVal.out0 We be Wloc bloc feat W1 b1 W2 b2 src dst
      = Cert.ReferenceIdeal.RVal.out0 We be Wloc bloc feat W1 b1 W2 b2 src dst := by
  unfold Cert.KernelIdeal.KVal.out0 Cert.ReferenceIdeal.RVal.out0
  rw [layer_bridge We be Wloc bloc feat W1 b1 src dst hs hd, layer_bridge We be Wloc bloc _ W2 b2 src dst hs hd]

/-- The second result is the same on both sides. -/
theorem out1_bridge (feat : FVec Ideal S50000x64 .f32) (W1 : FVec Ideal S64x64 .f32) (b1 : FVec Ideal S64 .f32)
    (src dst fsrc fdst : IVec S800000 32) (hs : InRange src) (hd : InRange dst) (hfs : InRange fsrc) (hfd : InRange fdst) :
    Cert.KernelIdeal.KVal.out1 We be Wloc bloc Wls bls feat W1 b1 src dst fsrc fdst
      = Cert.ReferenceIdeal.RVal.out1 We be Wloc bloc Wls bls feat W1 b1 src dst fsrc fdst := by
  unfold Cert.KernelIdeal.KVal.out1 Cert.ReferenceIdeal.RVal.out1
  rw [layer_bridge We be Wloc bloc feat W1 b1 src dst hs hd,
    head_bridge We be _ src dst Wloc bloc hs hd, head_bridge We be _ src dst Wls bls hs hd,
    head_bridge We be _ fsrc fdst Wloc bloc hfs hfd, head_bridge We be _ fsrc fdst Wls bls hfs hfd, tail_eq]

end Cert.Bridge

end
-- ==== Proof.lean ====
/-
  The certificate of the two-layer graph network with a contrastive edge loss.

  Both idealized programs compute, over the extended reals: h₁ = layer(feat, W₁, b₁), the first result h₂ = layer(h₁, W₂, b₂), and the
  second result, the mean over the edges of −log p(1 | true edge) − log p(0 | false edge) under the Gaussian whose mean and log-scale are
  the two heads of the edge network on h₁. A layer gathers the rows of h at the edges' endpoints, passes each pair through the edge
  network, scales the source row by the mean head, sums the messages into their destination rows, scales each row by 1 / max(1, in-degree),
  and applies the node layer.

  The kernel gathers with a guard (a fill word where the wrapped index leaves [0, 49999]) while the reference gathers plainly (a plain
  gather clamps), so the two agree exactly when the four index inputs lie in [0, 50000): the precondition's index conjuncts. Under them the
  kernel's run (its five pallas regions read as whole-array functions, the host stretches between them read operation by operation) and the
  reference's run end at the same two functions of the arguments; the one algebraic step is that a 128-term sum is the sum of its two
  64-term halves. No rewrite was applied when the kernel was idealized, so the preservation claim is trivial.
-/
import proofs.«411890_j54623394070984_2_alg».proof.Defs
import proofs.«411890_j54623394070984_2_alg».proof.Proof.Gen.Kernel
import proofs.«411890_j54623394070984_2_alg».proof.Proof.Gen.Kernel.Skeleton
import proofs.«411890_j54623394070984_2_alg».proof.Proof.Gen.Kernel.Launch
import proofs.«411890_j54623394070984_2_alg».proof.Proof.Gen.Kernel.Points
import proofs.«411890_j54623394070984_2_alg».proof.Proof.Gen.Kernel.Frame
import proofs.«411890_j54623394070984_2_alg».proof.Proof.Gen.KernelIdeal
import proofs.«411890_j54623394070984_2_alg».proof.Proof.Gen.KernelIdeal.Skeleton
import proofs.«411890_j54623394070984_2_alg».proof.Proof.Gen.KernelIdeal.Launch
import proofs.«411890_j54623394070984_2_alg».proof.Proof.Gen.KernelIdeal.Points
import proofs.«411890_j54623394070984_2_alg».proof.Proof.Gen.KernelIdeal.Frame
import proofs.«411890_j54623394070984_2_alg».proof.Proof.Gen.ReferenceIdeal
import proofs.«411890_j54623394070984_2_alg».proof.Proof.Gen.ReferenceIdeal.Run
import proofs.«411890_j54623394070984_2_alg».proof.Proof.Gen.Pre_finite_inputs
import proofs.«411890_j54623394070984_2_alg».proof.Proof.KernelRun
import proofs.«411890_j54623394070984_2_alg».proof.Proof.KValue
import proofs.«411890_j54623394070984_2_alg».proof.Proof.RRun
import proofs.«411890_j54623394070984_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, with every index in range, the two programs end at the same two results. -/
theorem algebraic : Cert.algebraic_KernelIdeal_ReferenceIdeal := by
  intro m ρ m' ρ' hpre hagree
  refine ⟨fun c => Cert.KernelIdeal.KVal.out0 (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.KernelIdeal.KVal.out1 (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KValue.out0_eq m ρ c), (h c).2.1.trans (Cert.KernelIdeal.KValue.out1_eq m ρ c), (h c).2.2⟩)
      (Cert.KernelIdeal.KRun.run_results (F := Ideal) m ρ)
  · refine (θ_run Cert.ReferenceIdeal.defs _ _).mono (fun r h c => ?_) (Cert.ReferenceIdeal.Value.run (F := Ideal) m' ρ')
    obtain ⟨r0, r1, rargs⟩ := h c
    obtain ⟨e0, e1, e2, e3, e4, e5, e6, e7, e8, e9, e10, e11, e12, e13, e14⟩ := hagree c
    obtain ⟨hs, hd, hfs, hfd⟩ := Cert.KernelIdeal.PreRange.of_pre m hpre c
    refine ⟨?_, ?_, rargs⟩
    · rw [r0, Cert.ReferenceIdeal.RRun.out0_eq m' c, e0, e1, e2, e3, e4, e5, e6, e7, e8, e11, e12]
      exact (Cert.Bridge.out0_bridge _ _ _ _ _ _ _ _ _ _ _ hs hd).symm
    · rw [r1, Cert.ReferenceIdeal.RRun.out1_eq m' c, e0, e1, e2, e5, e6, e7, e8, e9, e10, e11, e12, e13, e14]
      exact (Cert.Bridge.out1_bridge _ _ _ _ _ _ _ _ _ _ _ _ _ hs hd hfs hfd).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
